-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v54_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x768x1024 : Shape := ⟨4, ![8, 1, 768, 1024]⟩
abbrev S8x384 : Shape := ⟨2, ![8, 384]⟩
abbrev S_ : Shape := ⟨0, ![]⟩

class Facts : Prop where
  bcast_S_S8x1x768x1024 : S_.BroadcastsInDim S8x1x768x1024 (![] : Fin 0 → Fin S8x1x768x1024.rank)
  reducesTo_S8x1x768x1024_S_d0_1_2_3 : S8x1x768x1024.ReducesTo [0, 1, 2, 3] S_
  h_S_ : 0 < S_.numel

variable [Facts]

def fn {F : FTy → Type} [FloatOps F] (main_arg0 : FVec F S8x1x768x1024 .f32) (main_arg1 : FVec F S8x1x768x1024 .f32) (main_arg2 : IVec S8x384 32) (main_arg3 : IVec S8x384 32) : IVec S_ 1 :=
  let main_v0 : FVec F S8x1x768x1024 .f32 := Host.absf main_arg0
  let main_cst : FVec F S_ .f32 := constant S_ .f32 0x7F800000#32
  let main_v1 : FVec F S8x1x768x1024 .f32 := broadcastInDim S8x1x768x1024 ![] bcast_S_S8x1x768x1024 main_cst
  let main_v2 : IVec S8x1x768x1024 1 := cmpf .olt main_v0 main_v1
  let main_c : IVec S_ 1 := constantI S_ 1 1#1
  let main_v3 : IVec S_ 1 := (fun x v => Host.reduce IntOp.andi x v reducesTo_S8x1x768x1024_S_d0_1_2_3 h_S_) main_v2 main_c
  let main_v4 : FVec F S8x1x768x1024 .f32 := Host.absf main_arg1
  let main_cst_0 : FVec F S_ .f32 := constant S_ .f32 0x7F800000#32
  let main_v5 : FVec F S8x1x768x1024 .f32 := broadcastInDim S8x1x768x1024 ![] bcast_S_S8x1x768x1024 main_cst_0
  let main_v6 : IVec S8x1x768x1024 1 := cmpf .olt main_v4 main_v5
  let main_c_1 : IVec S_ 1 := constantI S_ 1 1#1
  let main_v7 : IVec S_ 1 := (fun x v => Host.reduce IntOp.andi x v reducesTo_S8x1x768x1024_S_d0_1_2_3 h_S_) main_v6 main_c_1
  let main_v8 : IVec S_ 1 := andi main_v3 main_v7
  main_v8
-- ==== Kernel.lean ====
abbrev S8x1x768x1024 : Shape := ⟨4, ![8, 1, 768, 1024]⟩
abbrev S8x384 : Shape := ⟨2, ![8, 384]⟩
abbrev S15x11 : Shape := ⟨2, ![15, 11]⟩
abbrev S8x384x1x1 : Shape := ⟨4, ![8, 384, 1, 1]⟩
abbrev S15 : Shape := ⟨1, ![15]⟩
abbrev S1x1x15x1 : Shape := ⟨4, ![1, 1, 15, 1]⟩
abbrev S8x384x15x1 : Shape := ⟨4, ![8, 384, 15, 1]⟩
abbrev S11 : Shape := ⟨1, ![11]⟩
abbrev S1x1x1x11 : Shape := ⟨4, ![1, 1, 1, 11]⟩
abbrev S8x384x1x11 : Shape := ⟨4, ![8, 384, 1, 11]⟩
abbrev S8 : Shape := ⟨1, ![8]⟩
abbrev S8x1x1x1 : Shape := ⟨4, ![8, 1, 1, 1]⟩
abbrev S_ : Shape := ⟨0, ![]⟩
abbrev S8x384x15x11 : Shape := ⟨4, ![8, 384, 15, 11]⟩
abbrev S8x384x15x11x1 : Shape := ⟨5, ![8, 384, 15, 11, 1]⟩
abbrev S8x384x15x11x4 : Shape := ⟨5, ![8, 384, 15, 11, 4]⟩
abbrev S8x1x384x512 : Shape := ⟨4, ![8, 1, 384, 512]⟩
abbrev S8x1x384x2x512 : Shape := ⟨5, ![8, 1, 384, 2, 512]⟩
abbrev S8x1x768x512 : Shape := ⟨4, ![8, 1, 768, 512]⟩
abbrev S8x1x768x512x2 : Shape := ⟨5, ![8, 1, 768, 512, 2]⟩
abbrev S1x1x1x1 : Shape := ⟨4, ![1, 1, 1, 1]⟩
abbrev S1x1x384x1024 : Shape := ⟨4, ![1, 1, 384, 1024]⟩
abbrev S1x1 : Shape := ⟨2, ![1, 1]⟩

abbrev nBuf : Space → Nat
  | .hbm => 75
  | .vmem => 16
  | .smem => 0
  | _ => 0

abbrev bufTy : (tb : Table) → Fin (tcTables nBuf tb) → BufTy
  | .hbm, ⟨0, _⟩ => ⟨S8x1x768x1024, .f32⟩
  | .hbm, ⟨1, _⟩ => ⟨S8x1x768x1024, .f32⟩
  | .hbm, ⟨2, _⟩ => ⟨S8x384, .i32⟩
  | .hbm, ⟨3, _⟩ => ⟨S8x384, .i32⟩
  | .hbm, ⟨4, _⟩ => ⟨S15x11, .f32⟩
  | .hbm, ⟨5, _⟩ => ⟨S8x384x1x1, .i32⟩
  | .hbm, ⟨6, _⟩ => ⟨S15, .i32⟩
  | .hbm, ⟨7, _⟩ => ⟨S1x1x15x1, .i32⟩
  | .hbm, ⟨8, _⟩ => ⟨S8x384x15x1, .i32⟩
  | .hbm, ⟨9, _⟩ => ⟨S8x384x15x1, .i32⟩
  | .hbm, ⟨10, _⟩ => ⟨S8x384x15x1, .i32⟩
  | .hbm, ⟨11, _⟩ => ⟨S8x384x1x1, .i32⟩
  | .hbm, ⟨12, _⟩ => ⟨S11, .i32⟩
  | .hbm, ⟨13, _⟩ => ⟨S1x1x1x11, .i32⟩
  | .hbm, ⟨14, _⟩ => ⟨S8x384x1x11, .i32⟩
  | .hbm, ⟨15, _⟩ => ⟨S8x384x1x11, .i32⟩
  | .hbm, ⟨16, _⟩ => ⟨S8x384x1x11, .i32⟩
  | .hbm, ⟨17, _⟩ => ⟨S8, .i32⟩
  | .hbm, ⟨18, _⟩ => ⟨S8x1x1x1, .i32⟩
  | .hbm, ⟨19, _⟩ => ⟨S_, .f32⟩
  | .hbm, ⟨20, _⟩ => ⟨S8x1x768x1024, .f32⟩
  | .hbm, ⟨21, _⟩ => ⟨S_, .i32⟩
  | .hbm, ⟨22, _⟩ => ⟨S8x1x1x1, .i32⟩
  | .hbm, ⟨23, _⟩ => ⟨S8x1x1x1, .i1⟩
  | .hbm, ⟨24, _⟩ => ⟨S_, .i32⟩
  | .hbm, ⟨25, _⟩ => ⟨S8x1x1x1, .i32⟩
  | .hbm, ⟨26, _⟩ => ⟨S8x1x1x1, .i32⟩
  | .hbm, ⟨27, _⟩ => ⟨S8x1x1x1, .i32⟩
  | .hbm, ⟨28, _⟩ => ⟨S_, .i32⟩
  | .hbm, ⟨29, _⟩ => ⟨S8x384x15x1, .i32⟩
  | .hbm, ⟨30, _⟩ => ⟨S8x384x15x1, .i1⟩
  | .hbm, ⟨31, _⟩ => ⟨S_, .i32⟩
  | .hbm, ⟨32, _⟩ => ⟨S8x384x15x1, .i32⟩
  | .hbm, ⟨33, _⟩ => ⟨S8x384x15x1, .i32⟩
  | .hbm, ⟨34, _⟩ => ⟨S8x384x15x1, .i32⟩
  | .hbm, ⟨35, _⟩ => ⟨S_, .i32⟩
  | .hbm, ⟨36, _⟩ => ⟨S8x384x1x11, .i32⟩
  | .hbm, ⟨37, _⟩ => ⟨S8x384x1x11, .i1⟩
  | .hbm, ⟨38, _⟩ => ⟨S_, .i32⟩
  | .hbm, ⟨39, _⟩ => ⟨S8x384x1x11, .i32⟩
  | .hbm, ⟨40, _⟩ => ⟨S8x384x1x11, .i32⟩
  | .hbm, ⟨41, _⟩ => ⟨S8x384x1x11, .i32⟩
  | .hbm, ⟨42, _⟩ => ⟨S8x384x15x11, .i32⟩
  | .hbm, ⟨43, _⟩ => ⟨S_, .i32⟩
  | .hbm, ⟨44, _⟩ => ⟨S8x384x15x11, .i32⟩
  | .hbm, ⟨45, _⟩ => ⟨S8x384x15x11, .i32⟩
  | .hbm, ⟨46, _⟩ => ⟨S8x384x15x11, .i32⟩
  | .hbm, ⟨47, _⟩ => ⟨S8x384x15x11, .i32⟩
  | .hbm, ⟨48, _⟩ => ⟨S8x384x15x11x1, .i32⟩
  | .hbm, ⟨49, _⟩ => ⟨S8x384x15x11x1, .i32⟩
  | .hbm, ⟨50, _⟩ => ⟨S8x384x15x11x1, .i32⟩
  | .hbm, ⟨51, _⟩ => ⟨S8x384x15x11x1, .i32⟩
  | .hbm, ⟨52, _⟩ => ⟨S8x384x15x11x4, .i32⟩
  | .hbm, ⟨53, _⟩ => ⟨S8x384x15x11, .f32⟩
  | .hbm, ⟨54, _⟩ => ⟨S8x1x768x1024, .f32⟩
  | .hbm, ⟨55, _⟩ => ⟨S_, .f32⟩
  | .hbm, ⟨56, _⟩ => ⟨S_, .f32⟩
  | .hbm, ⟨57, _⟩ => ⟨S8x1x384x512, .f32⟩
  | .hbm, ⟨58, _⟩ => ⟨S8x1x384x2x512, .f32⟩
  | .hbm, ⟨59, _⟩ => ⟨S8x1x768x512, .f32⟩
  | .hbm, ⟨60, _⟩ => ⟨S8x1x768x512x2, .f32⟩
  | .hbm, ⟨61, _⟩ => ⟨S8x1x768x1024, .f32⟩
  | .hbm, ⟨62, _⟩ => ⟨S_, .f32⟩
  | .hbm, ⟨63, _⟩ => ⟨S_, .f32⟩
  | .hbm, ⟨64, _⟩ => ⟨S8x1x384x512, .f32⟩
  | .hbm, ⟨65, _⟩ => ⟨S8x1x384x2x512, .f32⟩
  | .hbm, ⟨66, _⟩ => ⟨S8x1x768x512, .f32⟩
  | .hbm, ⟨67, _⟩ => ⟨S8x1x768x512x2, .f32⟩
  | .hbm, ⟨68, _⟩ => ⟨S8x1x768x1024, .f32⟩
  | .hbm, ⟨69, _⟩ => ⟨S8x1x768x1024, .f32⟩
  | .hbm, ⟨70, _⟩ => ⟨S8x1x768x1024, .f32⟩
  | .hbm, ⟨71, _⟩ => ⟨S1x1x1x1, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1x1x384x1024, .f32⟩
  | .local _ .vmem, ⟨1, _⟩ => ⟨S1x1x384x1024, .f32⟩
  | .local _ .vmem, ⟨2, _⟩ => ⟨S1x1x384x1024, .f32⟩
  | .local _ .vmem, ⟨3, _⟩ => ⟨S1x1x384x1024, .f32⟩
  | .local _ .vmem, ⟨4, _⟩ => ⟨S1x1x384x1024, .f32⟩
  | .local _ .vmem, ⟨5, _⟩ => ⟨S1x1x384x1024, .f32⟩
  | .local _ .vmem, ⟨6, _⟩ => ⟨S1x1x384x1024, .f32⟩
  | .local _ .vmem, ⟨7, _⟩ => ⟨S1x1x384x1024, .f32⟩
  | .local _ .vmem, ⟨8, _⟩ => ⟨S1x1x384x1024, .f32⟩
  | .local _ .vmem, ⟨9, _⟩ => ⟨S1x1x384x1024, .f32⟩
  | .local _ .vmem, ⟨10, _⟩ => ⟨S1x1x384x1024, .f32⟩
  | .local _ .vmem, ⟨11, _⟩ => ⟨S1x1x384x1024, .f32⟩
  | .local _ .vmem, ⟨12, _⟩ => ⟨S1x1x384x1024, .f32⟩
  | .local _ .vmem, ⟨13, _⟩ => ⟨S1x1x384x1024, .f32⟩
  | .local _ .vmem, ⟨14, _⟩ => ⟨S1x1x1x1, .f32⟩
  | .local _ .vmem, ⟨15, _⟩ => ⟨S1x1x1x1, .f32⟩
  | _, _ => ⟨S8x1x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54_0 : Ref sig .tc := ⟨.hbm, 69, rfl⟩
abbrev main_v54_1 : Ref sig .tc := ⟨.hbm, 70, rfl⟩
abbrev main_v54_2 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let arg1 : BitVec 32 := BitVec.ofNat 32 (i 1).val
  let c1_i32 : BitVec 32 := 1#32
  let v36 : BitVec 1 := Scalar.cmpi .eq arg1 c1_i32
  let v37 : BitVec 1 := Scalar.andi v35 v36
  let v38 : BitVec 32 := Scalar.extui v37
  let c0_i32_40 : BitVec 32 := 0#32
  let v39 : BitVec 1 := Scalar.cmpi .ne v38 c0_i32_40
  v39

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  bcast_S8x384_S8x384x1x1_0_1 : S8x384.BroadcastsInDim S8x384x1x1 (![0, 1] : Fin 2 → Fin S8x384x1x1.rank)
  bcast_S15_S1x1x15x1_2 : S15.BroadcastsInDim S1x1x15x1 (![2] : Fin 1 → Fin S1x1x15x1.rank)
  bcast_S8x384x1x1_S8x384x15x1_0_1_2_3 : S8x384x1x1.BroadcastsInDim S8x384x15x1 (![0, 1, 2, 3] : Fin 4 → Fin S8x384x15x1.rank)
  bcast_S1x1x15x1_S8x384x15x1_0_1_2_3 : S1x1x15x1.BroadcastsInDim S8x384x15x1 (![0, 1, 2, 3] : Fin 4 → Fin S8x384x15x1.rank)
  bcast_S11_S1x1x1x11_3 : S11.BroadcastsInDim S1x1x1x11 (![3] : Fin 1 → Fin S1x1x1x11.rank)
  bcast_S8x384x1x1_S8x384x1x11_0_1_2_3 : S8x384x1x1.BroadcastsInDim S8x384x1x11 (![0, 1, 2, 3] : Fin 4 → Fin S8x384x1x11.rank)
  bcast_S1x1x1x11_S8x384x1x11_0_1_2_3 : S1x1x1x11.BroadcastsInDim S8x384x1x11 (![0, 1, 2, 3] : Fin 4 → Fin S8x384x1x11.rank)
  bcast_S8_S8x1x1x1_0 : S8.BroadcastsInDim S8x1x1x1 (![0] : Fin 1 → Fin S8x1x1x1.rank)
  bcast_S_S8x1x768x1024 : S_.BroadcastsInDim S8x1x768x1024 (![] : Fin 0 → Fin S8x1x768x1024.rank)
  bcast_S_S8x1x1x1 : S_.BroadcastsInDim S8x1x1x1 (![] : Fin 0 → Fin S8x1x1x1.rank)
  bcast_S_S8x384x15x1 : S_.BroadcastsInDim S8x384x15x1 (![] : Fin 0 → Fin S8x384x15x1.rank)
  bcast_S_S8x384x1x11 : S_.BroadcastsInDim S8x384x1x11 (![] : Fin 0 → Fin S8x384x1x11.rank)
  bcast_S8x1x1x1_S8x384x15x11_0_1_2_3 : S8x1x1x1.BroadcastsInDim S8x384x15x11 (![0, 1, 2, 3] : Fin 4 → Fin S8x384x15x11.rank)
  bcast_S_S8x384x15x11 : S_.BroadcastsInDim S8x384x15x11 (![] : Fin 0 → Fin S8x384x15x11.rank)
  bcast_S8x384x15x1_S8x384x15x11_0_1_2_3 : S8x384x15x1.BroadcastsInDim S8x384x15x11 (![0, 1, 2, 3] : Fin 4 → Fin S8x384x15x11.rank)
  bcast_S8x384x1x11_S8x384x15x11_0_1_2_3 : S8x384x1x11.BroadcastsInDim S8x384x15x11 (![0, 1, 2, 3] : Fin 4 → Fin S8x384x15x11.rank)
  bcast_S8x384x15x11_S8x384x15x11x1_0_1_2_3 : S8x384x15x11.BroadcastsInDim S8x384x15x11x1 (![0, 1, 2, 3] : Fin 4 → Fin S8x384x15x11x1.rank)
  concatenates_S8x384x15x11x1_S8x384x15x11x1_S8x384x15x11x1_S8x384x15x11x1_S8x384x15x11x4_d4 : Shape.Concatenates [S8x384x15x11x1, S8x384x15x11x1, S8x384x15x11x1, S8x384x15x11x1] S8x384x15x11x4 4
  bcast_S15x11_S8x384x15x11_2_3 : S15x11.BroadcastsInDim S8x384x15x11 (![2, 3] : Fin 2 → Fin S8x384x15x11.rank)
  bcast_S_S_ : S_.BroadcastsInDim S_ (![] : Fin 0 → Fin S_.rank)
  reduceWindows_S8x1x768x1024_S8x1x384x512_w1s1p0_0_w1s1p0_0_w9s2p4_4_w9s2p4_4 : S8x1x768x1024.ReduceWindows (![1, 1, 9, 9] : Fin 4 → Nat) ![1, 1, 2, 2] ![0, 0, 4, 4] ![0, 0, 4, 4] S8x1x384x512
  h_S_ : 0 < S_.numel
  bcast_S8x1x384x512_S8x1x384x2x512_0_1_2_4 : S8x1x384x512.BroadcastsInDim S8x1x384x2x512 (![0, 1, 2, 4] : Fin 4 → Fin S8x1x384x2x512.rank)
  shapeCasts_S8x1x384x2x512_S8x1x768x512 : S8x1x384x2x512.ShapeCasts S8x1x768x512
  bcast_S8x1x768x512_S8x1x768x512x2_0_1_2_3 : S8x1x768x512.BroadcastsInDim S8x1x768x512x2 (![0, 1, 2, 3] : Fin 4 → Fin S8x1x768x512x2.rank)
  shapeCasts_S8x1x768x512x2_S8x1x768x1024 : S8x1x768x512x2.ShapeCasts S8x1x768x1024
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  inb_S1x1x384x1024_S1x1x384x1024_0_0_0_0 : ∀ a, (![0, 0, 0, 0] : Fin 4 → Nat) a + S1x1x384x1024.size a ≤ S1x1x384x1024.size a
  h_S1x1x384x1024 : 0 < S1x1x384x1024.numel
  shapeCasts_S1x1x384x1024_S1x1x384x1024 : S1x1x384x1024.ShapeCasts S1x1x384x1024
  reduces_S1x1x384x1024_S1x1 : S1x1x384x1024.Reduces [2, 3] S1x1
  shapeCasts_S1x1_S1x1x1x1 : S1x1.ShapeCasts S1x1x1x1
  shapeCasts_S1x1x1x1_S_ : S1x1x1x1.ShapeCasts S_
  scatter_S8x1x768x1024_S8x384x15x11x4_S8x384x15x11_n_0123_0123_4_wf : ScatterDims.WF S8x1x768x1024 S8x384x15x11x4 S8x384x15x11 [] [0, 1, 2, 3] [0, 1, 2, 3] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x384x1024.size a ≤ S8x1x768x1024.size a
  hwx0_0 : ∀ i : grid0.Coords, EltTy.bits .f32 = 32 ∨ (Rect.block (s := S8x1x768x1024) S1x1x384x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x384x1024.size a ≤ S8x1x768x1024.size a
  hwx0_1 : ∀ i : grid0.Coords, EltTy.bits .f32 = 32 ∨ (Rect.block (s := S8x1x768x1024) S1x1x384x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x384x1024.size a ≤ S8x1x768x1024.size a
  hwx0_2 : ∀ i : grid0.Coords, EltTy.bits .f32 = 32 ∨ (Rect.block (s := S8x1x768x1024) S1x1x384x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x384x1024.size a ≤ S8x1x768x1024.size a
  hwx0_3 : ∀ i : grid0.Coords, EltTy.bits .f32 = 32 ∨ (Rect.block (s := S8x1x768x1024) S1x1x384x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x384x1024.size a ≤ S8x1x768x1024.size a
  hwx0_4 : ∀ i : grid0.Coords, EltTy.bits .f32 = 32 ∨ (Rect.block (s := S8x1x768x1024) S1x1x384x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x384x1024.size a ≤ S8x1x768x1024.size a
  hwx0_5 : ∀ i : grid0.Coords, EltTy.bits .f32 = 32 ∨ (Rect.block (s := S8x1x768x1024) S1x1x384x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x384x1024.size a ≤ S8x1x768x1024.size a
  hwx0_6 : ∀ i : grid0.Coords, EltTy.bits .f32 = 32 ∨ (Rect.block (s := S8x1x768x1024) S1x1x384x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x1x1.size a ≤ S1x1x1x1.size a
  hwx0_7 : ∀ i : grid0.Coords, EltTy.bits .f32 = 32 ∨ (Rect.block (s := S1x1x1x1) S1x1x1x1.size (cc0_transform_7 i) (hinb0_7 i)).WholeWords (EltTy.packing .f32)

variable [Facts₀]

def scatter_S8x1x768x1024_S8x384x15x11x4_S8x384x15x11_n_0123_0123_4 : ScatterDims S8x1x768x1024 S8x384x15x11x4 S8x384x15x11 where
  updateWindowDims := []
  insertedWindowDims := [0, 1, 2, 3]
  scatterDimsToOperandDims := [0, 1, 2, 3]
  indexVectorDim := 4
  wf := scatter_S8x1x768x1024_S8x384x15x11x4_S8x384x15x11_n_0123_0123_4_wf

abbrev win0_0 : Pipeline.Window sig grid0 :=
  Pipeline.Window.ofSpec (Memref.whole main_arg1) S1x1x384x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x1x384x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x1x384x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1x384x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x1x384x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54_0) S1x1x384x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v54_1) S1x1x384x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v54_2) S1x1x1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x1x768x1024 : Shape := ⟨4, ![8, 1, 768, 1024]⟩
abbrev S8x384 : Shape := ⟨2, ![8, 384]⟩
abbrev S15x11 : Shape := ⟨2, ![15, 11]⟩
abbrev S8x384x1x1 : Shape := ⟨4, ![8, 384, 1, 1]⟩
abbrev S15 : Shape := ⟨1, ![15]⟩
abbrev S1x1x15x1 : Shape := ⟨4, ![1, 1, 15, 1]⟩
abbrev S8x384x15x1 : Shape := ⟨4, ![8, 384, 15, 1]⟩
abbrev S11 : Shape := ⟨1, ![11]⟩
abbrev S1x1x1x11 : Shape := ⟨4, ![1, 1, 1, 11]⟩
abbrev S8x384x1x11 : Shape := ⟨4, ![8, 384, 1, 11]⟩
abbrev S8 : Shape := ⟨1, ![8]⟩
abbrev S8x1x1x1 : Shape := ⟨4, ![8, 1, 1, 1]⟩
abbrev S_ : Shape := ⟨0, ![]⟩
abbrev S8x384x15x11 : Shape := ⟨4, ![8, 384, 15, 11]⟩
abbrev S8x384x15x11x1 : Shape := ⟨5, ![8, 384, 15, 11, 1]⟩
abbrev S8x384x15x11x4 : Shape := ⟨5, ![8, 384, 15, 11, 4]⟩
abbrev S8x1x384x512 : Shape := ⟨4, ![8, 1, 384, 512]⟩
abbrev S8x1x384x2x512 : Shape := ⟨5, ![8, 1, 384, 2, 512]⟩
abbrev S8x1x768x512 : Shape := ⟨4, ![8, 1, 768, 512]⟩
abbrev S8x1x768x512x2 : Shape := ⟨5, ![8, 1, 768, 512, 2]⟩

abbrev nBuf : Space → Nat
  | .hbm => 89
  | .vmem => 0
  | .smem => 0
  | _ => 0

abbrev bufTy : (tb : Table) → Fin (tcTables nBuf tb) → BufTy
  | .hbm, ⟨0, _⟩ => ⟨S8x1x768x1024, .f32⟩
  | .hbm, ⟨1, _⟩ => ⟨S8x1x768x1024, .f32⟩
  | .hbm, ⟨2, _⟩ => ⟨S8x384, .i32⟩
  | .hbm, ⟨3, _⟩ => ⟨S8x384, .i32⟩
  | .hbm, ⟨4, _⟩ => ⟨S15x11, .f32⟩
  | .hbm, ⟨5, _⟩ => ⟨S8x384x1x1, .i32⟩
  | .hbm, ⟨6, _⟩ => ⟨S15, .i32⟩
  | .hbm, ⟨7, _⟩ => ⟨S1x1x15x1, .i32⟩
  | .hbm, ⟨8, _⟩ => ⟨S8x384x15x1, .i32⟩
  | .hbm, ⟨9, _⟩ => ⟨S8x384x15x1, .i32⟩
  | .hbm, ⟨10, _⟩ => ⟨S8x384x15x1, .i32⟩
  | .hbm, ⟨11, _⟩ => ⟨S8x384x1x1, .i32⟩
  | .hbm, ⟨12, _⟩ => ⟨S11, .i32⟩
  | .hbm, ⟨13, _⟩ => ⟨S1x1x1x11, .i32⟩
  | .hbm, ⟨14, _⟩ => ⟨S8x384x1x11, .i32⟩
  | .hbm, ⟨15, _⟩ => ⟨S8x384x1x11, .i32⟩
  | .hbm, ⟨16, _⟩ => ⟨S8x384x1x11, .i32⟩
  | .hbm, ⟨17, _⟩ => ⟨S8, .i32⟩
  | .hbm, ⟨18, _⟩ => ⟨S8x1x1x1, .i32⟩
  | .hbm, ⟨19, _⟩ => ⟨S_, .f32⟩
  | .hbm, ⟨20, _⟩ => ⟨S8x1x768x1024, .f32⟩
  | .hbm, ⟨21, _⟩ => ⟨S_, .i32⟩
  | .hbm, ⟨22, _⟩ => ⟨S8x1x1x1, .i32⟩
  | .hbm, ⟨23, _⟩ => ⟨S8x1x1x1, .i1⟩
  | .hbm, ⟨24, _⟩ => ⟨S_, .i32⟩
  | .hbm, ⟨25, _⟩ => ⟨S8x1x1x1, .i32⟩
  | .hbm, ⟨26, _⟩ => ⟨S8x1x1x1, .i32⟩
  | .hbm, ⟨27, _⟩ => ⟨S8x1x1x1, .i32⟩
  | .hbm, ⟨28, _⟩ => ⟨S_, .i32⟩
  | .hbm, ⟨29, _⟩ => ⟨S8x384x15x1, .i32⟩
  | .hbm, ⟨30, _⟩ => ⟨S8x384x15x1, .i1⟩
  | .hbm, ⟨31, _⟩ => ⟨S_, .i32⟩
  | .hbm, ⟨32, _⟩ => ⟨S8x384x15x1, .i32⟩
  | .hbm, ⟨33, _⟩ => ⟨S8x384x15x1, .i32⟩
  | .hbm, ⟨34, _⟩ => ⟨S8x384x15x1, .i32⟩
  | .hbm, ⟨35, _⟩ => ⟨S_, .i32⟩
  | .hbm, ⟨36, _⟩ => ⟨S8x384x1x11, .i32⟩
  | .hbm, ⟨37, _⟩ => ⟨S8x384x1x11, .i1⟩
  | .hbm, ⟨38, _⟩ => ⟨S_, .i32⟩
  | .hbm, ⟨39, _⟩ => ⟨S8x384x1x11, .i32⟩
  | .hbm, ⟨40, _⟩ => ⟨S8x384x1x11, .i32⟩
  | .hbm, ⟨41, _⟩ => ⟨S8x384x1x11, .i32⟩
  | .hbm, ⟨42, _⟩ => ⟨S8x384x15x11, .i32⟩
  | .hbm, ⟨43, _⟩ => ⟨S_, .i32⟩
  | .hbm, ⟨44, _⟩ => ⟨S8x384x15x11, .i32⟩
  | .hbm, ⟨45, _⟩ => ⟨S8x384x15x11, .i32⟩
  | .hbm, ⟨46, _⟩ => ⟨S8x384x15x11, .i32⟩
  | .hbm, ⟨47, _⟩ => ⟨S8x384x15x11, .i32⟩
  | .hbm, ⟨48, _⟩ => ⟨S8x384x15x11x1, .i32⟩
  | .hbm, ⟨49, _⟩ => ⟨S8x384x15x11x1, .i32⟩
  | .hbm, ⟨50, _⟩ => ⟨S8x384x15x11x1, .i32⟩
  | .hbm, ⟨51, _⟩ => ⟨S8x384x15x11x1, .i32⟩
  | .hbm, ⟨52, _⟩ => ⟨S8x384x15x11x4, .i32⟩
  | .hbm, ⟨53, _⟩ => ⟨S8x384x15x11, .f32⟩
  | .hbm, ⟨54, _⟩ => ⟨S8x1x768x1024, .f32⟩
  | .hbm, ⟨55, _⟩ => ⟨S_, .f32⟩
  | .hbm, ⟨56, _⟩ => ⟨S_, .f32⟩
  | .hbm, ⟨57, _⟩ => ⟨S8x1x384x512, .f32⟩
  | .hbm, ⟨58, _⟩ => ⟨S8x1x384x2x512, .f32⟩
  | .hbm, ⟨59, _⟩ => ⟨S8x1x768x512, .f32⟩
  | .hbm, ⟨60, _⟩ => ⟨S8x1x768x512x2, .f32⟩
  | .hbm, ⟨61, _⟩ => ⟨S8x1x768x1024, .f32⟩
  | .hbm, ⟨62, _⟩ => ⟨S8x1x768x1024, .f32⟩
  | .hbm, ⟨63, _⟩ => ⟨S_, .f32⟩
  | .hbm, ⟨64, _⟩ => ⟨S_, .f32⟩
  | .hbm, ⟨65, _⟩ => ⟨S8x1x384x512, .f32⟩
  | .hbm, ⟨66, _⟩ => ⟨S8x1x384x2x512, .f32⟩
  | .hbm, ⟨67, _⟩ => ⟨S8x1x768x512, .f32⟩
  | .hbm, ⟨68, _⟩ => ⟨S8x1x768x512x2, .f32⟩
  | .hbm, ⟨69, _⟩ => ⟨S8x1x768x1024, .f32⟩
  | .hbm, ⟨70, _⟩ => ⟨S8x1x768x1024, .f32⟩
  | .hbm, ⟨71, _⟩ => ⟨S_, .f32⟩
  | .hbm, ⟨72, _⟩ => ⟨S8x1x768x1024, .f32⟩
  | .hbm, ⟨73, _⟩ => ⟨S8x1x768x1024, .f32⟩
  | .hbm, ⟨74, _⟩ => ⟨S_, .f32⟩
  | .hbm, ⟨75, _⟩ => ⟨S8x1x768x1024, .f32⟩
  | .hbm, ⟨76, _⟩ => ⟨S8x1x768x1024, .f32⟩
  | .hbm, ⟨77, _⟩ => ⟨S8x1x768x1024, .f32⟩
  | .hbm, ⟨78, _⟩ => ⟨S8x1x768x1024, .f32⟩
  | .hbm, ⟨79, _⟩ => ⟨S8x1x768x1024, .f32⟩
  | .hbm, ⟨80, _⟩ => ⟨S8x1x768x1024, .f32⟩
  | .hbm, ⟨81, _⟩ => ⟨S8x1x768x1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x1x768x1024, .f32⟩
  | .hbm, ⟨88, _⟩ => ⟨S8x1x768x1024, .f32⟩
  | _, _ => ⟨S8x1x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

class Facts₀ : Prop where
  bcast_S8x384_S8x384x1x1_0_1 : S8x384.BroadcastsInDim S8x384x1x1 (![0, 1] : Fin 2 → Fin S8x384x1x1.rank)
  bcast_S15_S1x1x15x1_2 : S15.BroadcastsInDim S1x1x15x1 (![2] : Fin 1 → Fin S1x1x15x1.rank)
  bcast_S8x384x1x1_S8x384x15x1_0_1_2_3 : S8x384x1x1.BroadcastsInDim S8x384x15x1 (![0, 1, 2, 3] : Fin 4 → Fin S8x384x15x1.rank)
  bcast_S1x1x15x1_S8x384x15x1_0_1_2_3 : S1x1x15x1.BroadcastsInDim S8x384x15x1 (![0, 1, 2, 3] : Fin 4 → Fin S8x384x15x1.rank)
  bcast_S11_S1x1x1x11_3 : S11.BroadcastsInDim S1x1x1x11 (![3] : Fin 1 → Fin S1x1x1x11.rank)
  bcast_S8x384x1x1_S8x384x1x11_0_1_2_3 : S8x384x1x1.BroadcastsInDim S8x384x1x11 (![0, 1, 2, 3] : Fin 4 → Fin S8x384x1x11.rank)
  bcast_S1x1x1x11_S8x384x1x11_0_1_2_3 : S1x1x1x11.BroadcastsInDim S8x384x1x11 (![0, 1, 2, 3] : Fin 4 → Fin S8x384x1x11.rank)
  bcast_S8_S8x1x1x1_0 : S8.BroadcastsInDim S8x1x1x1 (![0] : Fin 1 → Fin S8x1x1x1.rank)
  bcast_S_S8x1x768x1024 : S_.BroadcastsInDim S8x1x768x1024 (![] : Fin 0 → Fin S8x1x768x1024.rank)
  bcast_S_S8x1x1x1 : S_.BroadcastsInDim S8x1x1x1 (![] : Fin 0 → Fin S8x1x1x1.rank)
  bcast_S_S8x384x15x1 : S_.BroadcastsInDim S8x384x15x1 (![] : Fin 0 → Fin S8x384x15x1.rank)
  bcast_S_S8x384x1x11 : S_.BroadcastsInDim S8x384x1x11 (![] : Fin 0 → Fin S8x384x1x11.rank)
  bcast_S8x1x1x1_S8x384x15x11_0_1_2_3 : S8x1x1x1.BroadcastsInDim S8x384x15x11 (![0, 1, 2, 3] : Fin 4 → Fin S8x384x15x11.rank)
  bcast_S_S8x384x15x11 : S_.BroadcastsInDim S8x384x15x11 (![] : Fin 0 → Fin S8x384x15x11.rank)
  bcast_S8x384x15x1_S8x384x15x11_0_1_2_3 : S8x384x15x1.BroadcastsInDim S8x384x15x11 (![0, 1, 2, 3] : Fin 4 → Fin S8x384x15x11.rank)
  bcast_S8x384x1x11_S8x384x15x11_0_1_2_3 : S8x384x1x11.BroadcastsInDim S8x384x15x11 (![0, 1, 2, 3] : Fin 4 → Fin S8x384x15x11.rank)
  bcast_S8x384x15x11_S8x384x15x11x1_0_1_2_3 : S8x384x15x11.BroadcastsInDim S8x384x15x11x1 (![0, 1, 2, 3] : Fin 4 → Fin S8x384x15x11x1.rank)
  concatenates_S8x384x15x11x1_S8x384x15x11x1_S8x384x15x11x1_S8x384x15x11x1_S8x384x15x11x4_d4 : Shape.Concatenates [S8x384x15x11x1, S8x384x15x11x1, S8x384x15x11x1, S8x384x15x11x1] S8x384x15x11x4 4
  bcast_S15x11_S8x384x15x11_2_3 : S15x11.BroadcastsInDim S8x384x15x11 (![2, 3] : Fin 2 → Fin S8x384x15x11.rank)
  bcast_S_S_ : S_.BroadcastsInDim S_ (![] : Fin 0 → Fin S_.rank)
  reduceWindows_S8x1x768x1024_S8x1x384x512_w1s1p0_0_w1s1p0_0_w9s2p4_4_w9s2p4_4 : S8x1x768x1024.ReduceWindows (![1, 1, 9, 9] : Fin 4 → Nat) ![1, 1, 2, 2] ![0, 0, 4, 4] ![0, 0, 4, 4] S8x1x384x512
  h_S_ : 0 < S_.numel
  bcast_S8x1x384x512_S8x1x384x2x512_0_1_2_4 : S8x1x384x512.BroadcastsInDim S8x1x384x2x512 (![0, 1, 2, 4] : Fin 4 → Fin S8x1x384x2x512.rank)
  shapeCasts_S8x1x384x2x512_S8x1x768x512 : S8x1x384x2x512.ShapeCasts S8x1x768x512
  bcast_S8x1x768x512_S8x1x768x512x2_0_1_2_3 : S8x1x768x512.BroadcastsInDim S8x1x768x512x2 (![0, 1, 2, 3] : Fin 4 → Fin S8x1x768x512x2.rank)
  shapeCasts_S8x1x768x512x2_S8x1x768x1024 : S8x1x768x512x2.ShapeCasts S8x1x768x1024
  reducesTo_S8x1x768x1024_S_d0_1_2_3 : S8x1x768x1024.ReducesTo [0, 1, 2, 3] S_
  scatter_S8x1x768x1024_S8x384x15x11x4_S8x384x15x11_n_0123_0123_4_wf : ScatterDims.WF S8x1x768x1024 S8x384x15x11x4 S8x384x15x11 [] [0, 1, 2, 3] [0, 1, 2, 3] 4

variable [Facts₀]

def scatter_S8x1x768x1024_S8x384x15x11x4_S8x384x15x11_n_0123_0123_4 : ScatterDims S8x1x768x1024 S8x384x15x11x4 S8x384x15x11 where
  updateWindowDims := []
  insertedWindowDims := [0, 1, 2, 3]
  scatterDimsToOperandDims := [0, 1, 2, 3]
  indexVectorDim := 4
  wf := scatter_S8x1x768x1024_S8x384x15x11x4_S8x384x15x11_n_0123_0123_4_wf

class Facts : Prop extends Facts₀ where

variable [Facts]
-- ==== Proof.KernelKit.lean ====
/-
  The frame kit of the fused kernel's program: what the region finds in the device's buffers (the host lines before it
  folded over the launch memory), @main cut into "host lines, region, host lines", the blocks the pipeline hands the
  body, and the two branch conditions of the body decided over the sixteen grid points (b, h) ∈ 8 × 2 taken in row-major
  order: the accumulator is zeroed at point 0 only and the loss block is stored at point 15 only.
-/
import proofs.«120729_j19585050870000_1_alg».proof.Proof.Gen.Kernel.Launch
import proofs.«120729_j19585050870000_1_alg».proof.Proof.Gen.Kernel.Skeleton
import proofs.«120729_j19585050870000_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents at the region's entry: the 65 host lines before it, folded over the launch memory. -/
abbrev V0 (c : Dev nD) : Valuation τ sig (Elt F) := StableHlo.after (List.flatten [hostOps0]) (fun b => m (c, b))
/-- Read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines after the region touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the eight windows' arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host lines before the region writes argument 0: the region meets it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 1: the region meets it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 2: the region meets it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 3: the region meets it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three host lines after the region writes `main_arg2`. -/
theorem tail_keeps_arg2 (V' : Valuation τ sig (Elt F)) :
    StableHlo.after (List.flatten [(hostOps1 : List (HloOp τ sig (Elt F)))]) V' (Proc.devRef .tc main_arg2) = V' (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three host lines after the region writes `main_arg3`. -/
theorem tail_keeps_arg3 (V' : Valuation τ sig (Elt F)) :
    StableHlo.after (List.flatten [(hostOps1 : List (HloOp τ sig (Elt F)))]) V' (Proc.devRef .tc main_arg3) = V' (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`: the rows (t mod 2)·384 … of image t / 2, read off the window's array at the
    region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, for any proof data whose
    array is the entry contents and whose body leaves the block where it found it. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, for any proof data whose
    array is the entry contents and whose body leaves the block where it found it. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, for any proof data whose
    array is the entry contents and whose body leaves the block where it found it. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, for any proof data whose
    array is the entry contents and whose body leaves the block where it found it. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, for any proof data whose
    array is the entry contents and whose body leaves the block where it found it. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branches over the grid -/

/-- The guard of the accumulator's reset, `b = 0 ∧ h = 0`, as the body computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else. -/
theorem isFirst_iff : ∀ t : Fin cfg0.N, isFirst (grid0.coords t) ↔ t.val = 0 :=
  (by decide +kernel : ∀ t : Fin grid0.N, isFirst (grid0.coords t) ↔ t.val = 0)

/-- The guard of the loss block's store, `b = 7 ∧ h = 1`. -/
abbrev isLast (i : grid0.Coords) : Prop := k0_cond2 i = 1#1
/-- It holds at point 15 and nowhere else. -/
theorem isLast_iff : ∀ t : Fin cfg0.N, isLast (grid0.coords t) ↔ t.val = 15 :=
  (by decide +kernel : ∀ t : Fin grid0.N, isLast (grid0.coords t) ↔ t.val = 15)

/-! ## Which windows are idle where -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Away from the last point the loss window is idle (nothing is stored into it) -/
theorem idle7 : ∀ t : Fin cfg0.N, ¬isLast (grid0.coords t) → cfg0.idle 7 (grid0.coords t) = true := by decide +kernel
/-- and is not written back; -/
theorem noFlush7 : ∀ t : Fin cfg0.N, ¬isLast (grid0.coords t) → (cfg0.win 7).flush t = false := by decide +kernel
/-- at the last point it is live. -/
theorem live7 : ∀ t : Fin cfg0.N, isLast (grid0.coords t) → cfg0.idle 7 (grid0.coords t) = false := by decide +kernel

/-! ## The memrefs the body is called with -/

abbrev ms0 (t : Fin cfg0.N) : Memref sig .tc .vmem S1x1x384x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x384x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x384x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x384x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x384x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x384x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x384x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1x1 .f32 := win0_7.stage (cfg0.slots t 7)
abbrev hs7 (t : Fin cfg0.N) : (ms7 t).IsWhole := hstage0_7 ((cfg0.slots t 7).cast nbuf0_7)
/-- The accumulator: the kernel's one scratch buffer, whole. -/
abbrev accM : Memref sig .tc .vmem S1x1x1x1 .f32 := Memref.whole cc0_scratch0

/-- Views through which the three outputs' and the accumulator's contents are stated. -/
abbrev VO5 : View sig .tc .vmem S1x1x384x1024 .f32 := (Memref.whole cc0_stg5_0 : Memref sig .tc .vmem S1x1x384x1024 .f32).view
abbrev VO6 : View sig .tc .vmem S1x1x384x1024 .f32 := (Memref.whole cc0_stg6_0 : Memref sig .tc .vmem S1x1x384x1024 .f32).view
abbrev VO7 : View sig .tc .vmem S1x1x1x1 .f32 := (Memref.whole cc0_stg7_0 : Memref sig .tc .vmem S1x1x1x1 .f32).view
abbrev VAcc : View sig .tc .vmem S1x1x1x1 .f32 := accM.view

/-- The region's scoped rest is the accumulator at some contents, beside the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.KernelRunFirst.lean ====
/-
  The body at the first grid point (b, h) = (0, 0): the accumulator is zeroed and then receives the block's sum of
  |w · (p − g)|; the threshold block and the weight block are stored whole; the loss block is left alone.
-/
import proofs.«120729_j19585050870000_1_alg».proof.Proof.KernelKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the first point: the five input blocks are read, both full-size outputs are stored whole, the accumulator (found at anything) is stored twice, the loss buffer is handed back as found. The pieces each buffer ends with are what the run finds. -/
noncomputable def runFirst (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : isFirst i) (hL : ¬isLast i)
    (x0 x1 x2 x3 x4 : Vec F S1x1x384x1024 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (xi7 : Vec F S1x1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS

end Cert.Kernel.Fr

end
-- ==== Proof.KernelRunMid.lean ====
/-
  The body at a middle grid point (neither the first nor the last): the accumulator, found at what the point before
  left, receives that plus the block's sum of |w · (p − g)|; the loss block is left alone.
-/
import proofs.«120729_j19585050870000_1_alg».proof.Proof.KernelRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a middle point: as at the first, but the accumulator is found at known contents and stored once. -/
noncomputable def runMid (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : ¬isLast i)
    (x0 x1 x2 x3 x4 : Vec F S1x1x384x1024 .f32) (xs : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (xi7 : Vec F S1x1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS

end Cert.Kernel.Fr

end
-- ==== Proof.KernelRunLast.lean ====
/-
  The body at the last grid point (b, h) = (7, 1): after the accumulator's update its contents are copied into the
  loss block.
-/
import proofs.«120729_j19585050870000_1_alg».proof.Proof.KernelRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the last point: as at a middle point, and the loss buffer (found at anything) receives the accumulator's new contents. -/
noncomputable def runLast (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i)
    (x0 x1 x2 x3 x4 : Vec F S1x1x384x1024 .f32) (xs : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS

end Cert.Kernel.Fr

end
-- ==== Proof.KernelFrame.lean ====
/-
  The frame of the fused kernel's program, with every output named.  After the body at grid point n the two full-size
  staging buffers hold the threshold block and the weight block of that point, and the accumulator holds the running
  total of the blocks' sums of |w · (p − g)| up to n (zeroed at point 0); the loss buffer is written at point 15 only,
  with the accumulator's contents.  These contents are defined by recursion on the point over what each case's run
  leaves, and the pipeline's launch theorem turns the per-point triples into the run of @main.
-/
import proofs.«120729_j19585050870000_1_alg».proof.Proof.KernelRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of pieces leaves in a buffer -/

def rd5 (L : List (View.Piece (Elt F) S1x1x384x1024 .f32)) : Vec F S1x1x384x1024 .f32 := VO5.read (Elt F) (VO5.writes (Elt F) VO5.junk L)
def rd6 (L : List (View.Piece (Elt F) S1x1x384x1024 .f32)) : Vec F S1x1x384x1024 .f32 := VO6.read (Elt F) (VO6.writes (Elt F) VO6.junk L)
def rd7 (L : List (View.Piece (Elt F) S1x1x1x1 .f32)) : Vec F S1x1x1x1 .f32 := VO7.read (Elt F) (VO7.writes (Elt F) VO7.junk L)
def rdA (L : List (View.Piece (Elt F) S1x1x1x1 .f32)) : Vec F S1x1x1x1 .f32 := VAcc.read (Elt F) (VAcc.writes (Elt F) VAcc.junk L)

/-! ## The three cases at a grid point -/

/-- The first point's run, on that point's staging memrefs and input blocks. -/
def atFirst (c : Dev nD) (t : Fin cfg0.N) (hF : isFirst (grid0.coords t)) (hL : ¬isLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t)
/-- A middle point's run, the accumulator found at `xs`. -/
def atMid (c : Dev nD) (t : Fin cfg0.N) (hF : ¬isFirst (grid0.coords t)) (hL : ¬isLast (grid0.coords t)) (xs : Vec F S1x1x1x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t) xs
/-- The last point's run, the accumulator found at `xs`. -/
def atLast (c : Dev nD) (t : Fin cfg0.N) (hF : ¬isFirst (grid0.coords t)) (hL : isLast (grid0.coords t)) (xs : Vec F S1x1x1x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t) xs

theorem notLast_of_zero (t : Fin cfg0.N) (h : t.val = 0) : ¬isLast (grid0.coords t) := fun hl => by
  have := (isLast_iff t).mp hl; omega
theorem first_of_zero (t : Fin cfg0.N) (h : t.val = 0) : isFirst (grid0.coords t) := (isFirst_iff t).mpr h
theorem notFirst_of_pos (t : Fin cfg0.N) (h : t.val ≠ 0) : ¬isFirst (grid0.coords t) := fun hf => h ((isFirst_iff t).mp hf)
theorem last_of_eq (t : Fin cfg0.N) (h : t.val = 15) : isLast (grid0.coords t) := (isLast_iff t).mpr h
theorem notLast_of_ne (t : Fin cfg0.N) (h : t.val ≠ 15) : ¬isLast (grid0.coords t) := fun hl => h ((isLast_iff t).mp hl)

/-! ## The covers: each case's pieces tile the buffer they are stored into -/

theorem cover5_first (c : Dev nD) (t : Fin cfg0.N) (hF hL) (y : S1x1x384x1024.Idx) : ∃ pc ∈ (atFirst m c t hF hL).1, y ∈ pc.1.set :=
  View.cover_of_tiledL (atFirst m c t hF hL).1 S1x1x384x1024.size (by sl_kernel_rfl) y
theorem cover6_first (c : Dev nD) (t : Fin cfg0.N) (hF hL) (y : S1x1x384x1024.Idx) : ∃ pc ∈ (atFirst m c t hF hL).2.1, y ∈ pc.1.set :=
  View.cover_of_tiledL (atFirst m c t hF hL).2.1 S1x1x384x1024.size (by sl_kernel_rfl) y
theorem coverA_first (c : Dev nD) (t : Fin cfg0.N) (hF hL) (y : S1x1x1x1.Idx) : ∃ pc ∈ (atFirst m c t hF hL).2.2.2.1, y ∈ pc.1.set :=
  View.cover_of_tiledL (atFirst m c t hF hL).2.2.2.1 S1x1x1x1.size (by sl_kernel_rfl) y
theorem cover5_mid (c : Dev nD) (t : Fin cfg0.N) (hF hL xs) (y : S1x1x384x1024.Idx) : ∃ pc ∈ (atMid m c t hF hL xs).1, y ∈ pc.1.set :=
  View.cover_of_tiledL (atMid m c t hF hL xs).1 S1x1x384x1024.size (by sl_kernel_rfl) y
theorem cover6_mid (c : Dev nD) (t : Fin cfg0.N) (hF hL xs) (y : S1x1x384x1024.Idx) : ∃ pc ∈ (atMid m c t hF hL xs).2.1, y ∈ pc.1.set :=
  View.cover_of_tiledL (atMid m c t hF hL xs).2.1 S1x1x384x1024.size (by sl_kernel_rfl) y
theorem coverA_mid (c : Dev nD) (t : Fin cfg0.N) (hF hL xs) (y : S1x1x1x1.Idx) : ∃ pc ∈ (atMid m c t hF hL xs).2.2.2.1, y ∈ pc.1.set :=
  View.cover_of_tiledL (atMid m c t hF hL xs).2.2.2.1 S1x1x1x1.size (by sl_kernel_rfl) y
theorem cover5_last (c : Dev nD) (t : Fin cfg0.N) (hF hL xs) (y : S1x1x384x1024.Idx) : ∃ pc ∈ (atLast m c t hF hL xs).1, y ∈ pc.1.set :=
  View.cover_of_tiledL (atLast m c t hF hL xs).1 S1x1x384x1024.size (by sl_kernel_rfl) y
theorem cover6_last (c : Dev nD) (t : Fin cfg0.N) (hF hL xs) (y : S1x1x384x1024.Idx) : ∃ pc ∈ (atLast m c t hF hL xs).2.1, y ∈ pc.1.set :=
  View.cover_of_tiledL (atLast m c t hF hL xs).2.1 S1x1x384x1024.size (by sl_kernel_rfl) y
theorem cover7_last (c : Dev nD) (t : Fin cfg0.N) (hF hL xs) (y : S1x1x1x1.Idx) : ∃ pc ∈ (atLast m c t hF hL xs).2.2.1, y ∈ pc.1.set :=
  View.cover_of_tiledL (atLast m c t hF hL xs).2.2.1 S1x1x1x1.size (by sl_kernel_rfl) y
theorem coverA_last (c : Dev nD) (t : Fin cfg0.N) (hF hL xs) (y : S1x1x1x1.Idx) : ∃ pc ∈ (atLast m c t hF hL xs).2.2.2.1, y ∈ pc.1.set :=
  View.cover_of_tiledL (atLast m c t hF hL xs).2.2.2.1 S1x1x1x1.size (by sl_kernel_rfl) y

/-! ## What the buffers hold after each point -/

/-- After the body at position `n`: (threshold block, weight block, loss buffer, accumulator). -/
def outsAt (c : Dev nD) : (n : ℕ) → n < cfg0.N → Vec F S1x1x384x1024 .f32 × Vec F S1x1x384x1024 .f32 × Vec F S1x1x1x1 .f32 × Vec F S1x1x1x1 .f32
  | 0, hn =>
    (rd5 (atFirst m c ⟨0, hn⟩ (first_of_zero _ rfl) (notLast_of_zero _ rfl)).1,
     rd6 (atFirst m c ⟨0, hn⟩ (first_of_zero _ rfl) (notLast_of_zero _ rfl)).2.1,
     rd7 (atFirst m c ⟨0, hn⟩ (first_of_zero _ rfl) (notLast_of_zero _ rfl)).2.2.1,
     rdA (atFirst m c ⟨0, hn⟩ (first_of_zero _ rfl) (notLast_of_zero _ rfl)).2.2.2.1)
  | n + 1, hn =>
    if hl : n + 1 = 15 then
      (rd5 (atLast m c ⟨n + 1, hn⟩ (notFirst_of_pos _ (Nat.succ_ne_zero n)) (last_of_eq _ hl) (outsAt c n (Nat.lt_of_succ_lt hn)).2.2.2).1,
       rd6 (atLast m c ⟨n + 1, hn⟩ (notFirst_of_pos _ (Nat.succ_ne_zero n)) (last_of_eq _ hl) (outsAt c n (Nat.lt_of_succ_lt hn)).2.2.2).2.1,
       rd7 (atLast m c ⟨n + 1, hn⟩ (notFirst_of_pos _ (Nat.succ_ne_zero n)) (last_of_eq _ hl) (outsAt c n (Nat.lt_of_succ_lt hn)).2.2.2).2.2.1,
       rdA (atLast m c ⟨n + 1, hn⟩ (notFirst_of_pos _ (Nat.succ_ne_zero n)) (last_of_eq _ hl) (outsAt c n (Nat.lt_of_succ_lt hn)).2.2.2).2.2.2.1)
    else
      (rd5 (atMid m c ⟨n + 1, hn⟩ (notFirst_of_pos _ (Nat.succ_ne_zero n)) (notLast_of_ne _ hl) (outsAt c n (Nat.lt_of_succ_lt hn)).2.2.2).1,
       rd6 (atMid m c ⟨n + 1, hn⟩ (notFirst_of_pos _ (Nat.succ_ne_zero n)) (notLast_of_ne _ hl) (outsAt c n (Nat.lt_of_succ_lt hn)).2.2.2).2.1,
       rd7 (atMid m c ⟨n + 1, hn⟩ (notFirst_of_pos _ (Nat.succ_ne_zero n)) (notLast_of_ne _ hl) (outsAt c n (Nat.lt_of_succ_lt hn)).2.2.2).2.2.1,
       rdA (atMid m c ⟨n + 1, hn⟩ (notFirst_of_pos _ (Nat.succ_ne_zero n)) (notLast_of_ne _ hl) (outsAt c n (Nat.lt_of_succ_lt hn)).2.2.2).2.2.2.1)

/-- The accumulator's contents before point `t` (t ≠ 0): what point `t − 1` left. -/
abbrev accBefore (c : Dev nD) (t : Fin cfg0.N) : Vec F S1x1x1x1 .f32 :=
  (outsAt m c (t.val - 1) (Nat.lt_of_le_of_lt (Nat.sub_le _ _) t.isLt)).2.2.2

theorem outsAt_first (c : Dev nD) (t : Fin cfg0.N) (h0 : t.val = 0) :
    outsAt m c t.val t.isLt =
      (rd5 (atFirst m c t (first_of_zero t h0) (notLast_of_zero t h0)).1, rd6 (atFirst m c t (first_of_zero t h0) (notLast_of_zero t h0)).2.1,
       rd7 (atFirst m c t (first_of_zero t h0) (notLast_of_zero t h0)).2.2.1, rdA (atFirst m c t (first_of_zero t h0) (notLast_of_zero t h0)).2.2.2.1) := by
  obtain ⟨n, hn⟩ := t
  cases n with
  | zero => rfl
  | succ n => exact absurd h0 (Nat.succ_ne_zero n)

theorem outsAt_mid (c : Dev nD) (t : Fin cfg0.N) (h0 : t.val ≠ 0) (hl : t.val ≠ 15) :
    outsAt m c t.val t.isLt =
      (rd5 (atMid m c t (notFirst_of_pos t h0) (notLast_of_ne t hl) (accBefore m c t)).1, rd6 (atMid m c t (notFirst_of_pos t h0) (notLast_of_ne t hl) (accBefore m c t)).2.1,
       rd7 (atMid m c t (notFirst_of_pos t h0) (notLast_of_ne t hl) (accBefore m c t)).2.2.1, rdA (atMid m c t (notFirst_of_pos t h0) (notLast_of_ne t hl) (accBefore m c t)).2.2.2.1) := by
  obtain ⟨n, hn⟩ := t
  cases n with
  | zero => exact absurd rfl h0
  | succ n => exact (dif_neg hl).trans rfl

theorem outsAt_last (c : Dev nD) (t : Fin cfg0.N) (h0 : t.val ≠ 0) (hl : t.val = 15) :
    outsAt m c t.val t.isLt =
      (rd5 (atLast m c t (notFirst_of_pos t h0) (last_of_eq t hl) (accBefore m c t)).1, rd6 (atLast m c t (notFirst_of_pos t h0) (last_of_eq t hl) (accBefore m c t)).2.1,
       rd7 (atLast m c t (notFirst_of_pos t h0) (last_of_eq t hl) (accBefore m c t)).2.2.1, rdA (atLast m c t (notFirst_of_pos t h0) (last_of_eq t hl) (accBefore m c t)).2.2.2.1) := by
  obtain ⟨n, hn⟩ := t
  cases n with
  | zero => exact absurd rfl h0
  | succ n => exact (dif_pos hl).trans rfl

/-! ## The region's invariant: the accumulator between points -/

/-- Before position `n`: at the region's entry the accumulator holds anything; afterwards what point `n − 1` left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2.2)) ∗ (∃ r, prngReg c r)) := by
  cases n with
  | zero => exact absurd rfl hz
  | succ n => rfl

/-! ## The proof data -/

/-- Per core: the arrays as the region finds them; after the body each input's buffer at its block and each output's
    at `outsAt`; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem after7 (c : Dev nD) (t : Fin cfg0.N) : (dats m 0 c).after 7 t = (outsAt m c t.val t.isLt).2.2.1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare ((outsAt m c t.val t.isLt).1) := by
  unfold Dat.leavesExact; rw [live5 t, after5]
theorem leaves6 (c : Dev nD) (t : Fin cfg0.N) : (dats m 0 c).leavesExact 6 t = owns (c : Thread nD τ) (ms6 t) fullShare ((outsAt m c t.val t.isLt).2.1) := by
  unfold Dat.leavesExact; rw [live6 t, after6]
theorem leaves7_last (c : Dev nD) (t : Fin cfg0.N) (hL : isLast (grid0.coords t)) :
    (dats m 0 c).leavesExact 7 t = owns (c : Thread nD τ) (ms7 t) fullShare ((outsAt m c t.val t.isLt).2.2.1) := by
  unfold Dat.leavesExact; rw [live7 t hL, after7]

set_option maxHeartbeats 4800000 in
/-- The body at any point: by the point's case. The inputs' buffers hold their blocks; the accumulator is handed over at
    what the point before left (at anything at the first point) and taken back at this point's contents; away from the
    last point the loss buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  have hN : t.val < 16 := lt_of_lt_of_eq t.isLt (show cfg0.N = 16 from N_0)
  by_cases h0 : t.val = 0
  · -- the first point
    have hF := first_of_zero t h0
    have hL := notLast_of_zero t h0
    rw [Dat.leavesExact_idle (dats m 0 c) 7 t (idle7 t hL) (noFlush7 t hL)]
    rw [outsAt_first m c t h0]
    unfold rd5 rd6 rdA; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atFirst m c t hF hL).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS]; · iexact HS
    iintro ⟨H0, H1, H2, H3, H4, ⟨%e5, H5⟩, ⟨%e6, H6⟩, H7, ⟨%es, HS⟩⟩
    isplitl [HS Hg]
    · isplitl [HS]
      · unfold owns; iexists _; isplitr
        swap; · iexact HS
        ipureintro; exact View.read_writes_of_cover _ _ _ _ _ (coverA_first m c t hF hL)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_first m c t hF hL)
    isplitl [H6]
    · unfold owns; iexists _; isplitr
      swap; · iexact H6
      ipureintro; exact View.read_writes_of_cover _ _ _ _ _ (cover6_first m c t hF hL)
    iexists _; iexact H7
  · have hF := notFirst_of_pos t h0
    by_cases hl : t.val = 15
    · -- the last point
      have hL := last_of_eq t hl
      rw [leaves7_last m c t hL]
      rw [outsAt_last m c t h0 hl]
      unfold rd5 rd6 rd7 rdA; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atLast m c t hF hL (accBefore m c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, ⟨%e5, H5⟩, ⟨%e6, H6⟩, ⟨%e7, H7⟩, ⟨%es, HS⟩⟩
      isplitl [HS Hg]
      · isplitl [HS]
        · unfold owns; iexists _; isplitr
          swap; · iexact HS
          ipureintro; exact View.read_writes_of_cover _ _ _ _ _ (coverA_last m c t hF hL _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_last m c t hF hL _)
      isplitl [H6]
      · unfold owns; iexists _; isplitr
        swap; · iexact H6
        ipureintro; exact View.read_writes_of_cover _ _ _ _ _ (cover6_last m c t hF hL _)
      unfold owns; iexists _; isplitr
      swap; · iexact H7
      ipureintro; exact View.read_writes_of_cover _ _ _ _ _ (cover7_last m c t hF hL _)
    · -- a middle point
      have hL := notLast_of_ne t hl
      rw [Dat.leavesExact_idle (dats m 0 c) 7 t (idle7 t hL) (noFlush7 t hL)]
      rw [outsAt_mid m c t h0 hl]
      unfold rd5 rd6 rdA; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atMid m c t hF hL (accBefore m c t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, ⟨%e5, H5⟩, ⟨%e6, H6⟩, H7, ⟨%es, HS⟩⟩
      isplitl [HS Hg]
      · isplitl [HS]
        · unfold owns; iexists _; isplitr
          swap; · iexact HS
          ipureintro; exact View.read_writes_of_cover _ _ _ _ _ (coverA_mid m c t hF hL _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_mid m c t hF hL _)
      isplitl [H6]
      · unfold owns; iexists _; isplitr
        swap; · iexact H6
        ipureintro; exact View.read_writes_of_cover _ _ _ _ _ (cover6_mid m c t hF hL _)
      iexists _; iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- The launch hands the region the accumulator at anything: the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run -/

set_option backward.isDefEq.respectTransparency.types false in
/-- Every weakly fair execution of @main terminates; at the end every window's array holds what the proof data say
    (inputs their entry contents, outputs the blocks written back) and every other unscoped buffer what the three host
    lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Fr

end
-- ==== Proof.KernelPosts.lean ====
/-
  The run of the fused kernel's program read at the buffers the claims speak of.  The two staged arguments (g in window 0,
  p in window 4) and the dilated mask (window 2) are inputs of the pipeline and end at their entry contents; the two index
  arguments bypass the region and the host lines after it; the threshold and weight arrays are what the sixteen
  write-backs leave; the scalar loss is what the three host lines after the region compute from the loss array.
-/
import proofs.«120729_j19585050870000_1_alg».proof.Proof.KernelFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 2 bypasses the region and none of the three host lines after it writes it: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [tail_keeps_arg2,
    Pipeline.withArrays_of_ne _ c (V0 m c) _ main_arg2 (by exact (by decide : ∀ w, Pipeline.arrRef spec0 w ≠ main_arg2))]
  exact V_main_arg2 m c

/-- Argument 3 bypasses the region and none of the three host lines after it writes it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [tail_keeps_arg3,
    Pipeline.withArrays_of_ne _ c (V0 m c) _ main_arg3 (by exact (by decide : ∀ w, Pipeline.arrRef spec0 w ≠ main_arg3))]
  exact V_main_arg3 m c

/-- The frame: every weakly fair execution of @main terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (((dats m 0 c).arrAt_in 4 rfl _).trans ((A_eq m c 4).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

/-- The run with every result buffer named. -/
theorem run_named : θ_run defs (onTc (τ := τ) (main (F := F))) ⟨m, fun _ => 0, ρ⟩ (fun r => ∀ c : Dev nD,
      r.2.mem ((c.tc : Thread nD τ).loc main_v56) = Pipeline.afterTail₀ cfgs (dats m) 0 (V0 m) [hostOps1] c main_v56
      ∧ r.2.mem ((c.tc : Thread nD τ).loc main_v47) = V m c main_v47
      ∧ r.2.mem ((c.tc : Thread nD τ).loc main_v54_0) = (dats m 0 c).arrAt 5 cfg0.N
      ∧ r.2.mem ((c.tc : Thread nD τ).loc main_v54_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v56 (Pipeline.mem_restRefs_of main_v56 (by decide) (by decide)),
     ((h c).1 2).trans (((dats m 0 c).arrAt_in 2 rfl _).trans (A_eq m c 2)),
     (h c).1 5,
     (h c).1 6,
     ((h c).1 4).trans (((dats m 0 c).arrAt_in 4 rfl _).trans ((A_eq m c 4).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.Kernel.Fr

end
-- ==== Proof.KernelIdealKit.lean ====
/-
  The frame kit of the fused kernel's program: what the region finds in the device's buffers (the host lines before it
  folded over the launch memory), @main cut into "host lines, region, host lines", the blocks the pipeline hands the
  body, and the two branch conditions of the body decided over the sixteen grid points (b, h) ∈ 8 × 2 taken in row-major
  order: the accumulator is zeroed at point 0 only and the loss block is stored at point 15 only.
-/
import proofs.«120729_j19585050870000_1_alg».proof.Proof.Gen.KernelIdeal.Launch
import proofs.«120729_j19585050870000_1_alg».proof.Proof.Gen.KernelIdeal.Skeleton
import proofs.«120729_j19585050870000_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents at the region's entry: the 65 host lines before it, folded over the launch memory. -/
abbrev V0 (c : Dev nD) : Valuation τ sig (Elt F) := StableHlo.after (List.flatten [hostOps0]) (fun b => m (c, b))
/-- Read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines after the region touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the eight windows' arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host lines before the region writes argument 0: the region meets it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 1: the region meets it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 2: the region meets it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines before the region writes argument 3: the region meets it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three host lines after the region writes `main_arg2`. -/
theorem tail_keeps_arg2 (V' : Valuation τ sig (Elt F)) :
    StableHlo.after (List.flatten [(hostOps1 : List (HloOp τ sig (Elt F)))]) V' (Proc.devRef .tc main_arg2) = V' (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three host lines after the region writes `main_arg3`. -/
theorem tail_keeps_arg3 (V' : Valuation τ sig (Elt F)) :
    StableHlo.after (List.flatten [(hostOps1 : List (HloOp τ sig (Elt F)))]) V' (Proc.devRef .tc main_arg3) = V' (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`: the rows (t mod 2)·384 … of image t / 2, read off the window's array at the
    region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, for any proof data whose
    array is the entry contents and whose body leaves the block where it found it. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, for any proof data whose
    array is the entry contents and whose body leaves the block where it found it. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, for any proof data whose
    array is the entry contents and whose body leaves the block where it found it. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, for any proof data whose
    array is the entry contents and whose body leaves the block where it found it. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, for any proof data whose
    array is the entry contents and whose body leaves the block where it found it. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branches over the grid -/

/-- The guard of the accumulator's reset, `b = 0 ∧ h = 0`, as the body computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else. -/
theorem isFirst_iff : ∀ t : Fin cfg0.N, isFirst (grid0.coords t) ↔ t.val = 0 :=
  (by decide +kernel : ∀ t : Fin grid0.N, isFirst (grid0.coords t) ↔ t.val = 0)

/-- The guard of the loss block's store, `b = 7 ∧ h = 1`. -/
abbrev isLast (i : grid0.Coords) : Prop := k0_cond2 i = 1#1
/-- It holds at point 15 and nowhere else. -/
theorem isLast_iff : ∀ t : Fin cfg0.N, isLast (grid0.coords t) ↔ t.val = 15 :=
  (by decide +kernel : ∀ t : Fin grid0.N, isLast (grid0.coords t) ↔ t.val = 15)

/-! ## Which windows are idle where -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Away from the last point the loss window is idle (nothing is stored into it) -/
theorem idle7 : ∀ t : Fin cfg0.N, ¬isLast (grid0.coords t) → cfg0.idle 7 (grid0.coords t) = true := by decide +kernel
/-- and is not written back; -/
theorem noFlush7 : ∀ t : Fin cfg0.N, ¬isLast (grid0.coords t) → (cfg0.win 7).flush t = false := by decide +kernel
/-- at the last point it is live. -/
theorem live7 : ∀ t : Fin cfg0.N, isLast (grid0.coords t) → cfg0.idle 7 (grid0.coords t) = false := by decide +kernel

/-! ## The memrefs the body is called with -/

abbrev ms0 (t : Fin cfg0.N) : Memref sig .tc .vmem S1x1x384x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x384x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x384x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x384x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x384x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x384x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x384x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1x1 .f32 := win0_7.stage (cfg0.slots t 7)
abbrev hs7 (t : Fin cfg0.N) : (ms7 t).IsWhole := hstage0_7 ((cfg0.slots t 7).cast nbuf0_7)
/-- The accumulator: the kernel's one scratch buffer, whole. -/
abbrev accM : Memref sig .tc .vmem S1x1x1x1 .f32 := Memref.whole cc0_scratch0

/-- Views through which the three outputs' and the accumulator's contents are stated. -/
abbrev VO5 : View sig .tc .vmem S1x1x384x1024 .f32 := (Memref.whole cc0_stg5_0 : Memref sig .tc .vmem S1x1x384x1024 .f32).view
abbrev VO6 : View sig .tc .vmem S1x1x384x1024 .f32 := (Memref.whole cc0_stg6_0 : Memref sig .tc .vmem S1x1x384x1024 .f32).view
abbrev VO7 : View sig .tc .vmem S1x1x1x1 .f32 := (Memref.whole cc0_stg7_0 : Memref sig .tc .vmem S1x1x1x1 .f32).view
abbrev VAcc : View sig .tc .vmem S1x1x1x1 .f32 := accM.view

/-- The region's scoped rest is the accumulator at some contents, beside the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KernelIdealRunFirst.lean ====
/-
  The body at the first grid point (b, h) = (0, 0): the accumulator is zeroed and then receives the block's sum of
  |w · (p − g)|; the threshold block and the weight block are stored whole; the loss block is left alone.
-/
import proofs.«120729_j19585050870000_1_alg».proof.Proof.KernelIdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the first point: the five input blocks are read, both full-size outputs are stored whole, the accumulator (found at anything) is stored twice, the loss buffer is handed back as found. The pieces each buffer ends with are what the run finds. -/
noncomputable def runFirst (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : isFirst i) (hL : ¬isLast i)
    (x0 x1 x2 x3 x4 : Vec F S1x1x384x1024 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (xi7 : Vec F S1x1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS

end Cert.KernelIdeal.Fr

end
-- ==== Proof.KernelIdealRunMid.lean ====
/-
  The body at a middle grid point (neither the first nor the last): the accumulator, found at what the point before
  left, receives that plus the block's sum of |w · (p − g)|; the loss block is left alone.
-/
import proofs.«120729_j19585050870000_1_alg».proof.Proof.KernelIdealRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a middle point: as at the first, but the accumulator is found at known contents and stored once. -/
noncomputable def runMid (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : ¬isLast i)
    (x0 x1 x2 x3 x4 : Vec F S1x1x384x1024 .f32) (xs : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (xi7 : Vec F S1x1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS

end Cert.KernelIdeal.Fr

end
-- ==== Proof.KernelIdealRunLast.lean ====
/-
  The body at the last grid point (b, h) = (7, 1): after the accumulator's update its contents are copied into the
  loss block.
-/
import proofs.«120729_j19585050870000_1_alg».proof.Proof.KernelIdealRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the last point: as at a middle point, and the loss buffer (found at anything) receives the accumulator's new contents. -/
noncomputable def runLast (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i)
    (x0 x1 x2 x3 x4 : Vec F S1x1x384x1024 .f32) (xs : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS

end Cert.KernelIdeal.Fr

end
-- ==== Proof.KernelIdealFrame.lean ====
/-
  The frame of the fused kernel's program, with every output named.  After the body at grid point n the two full-size
  staging buffers hold the threshold block and the weight block of that point, and the accumulator holds the running
  total of the blocks' sums of |w · (p − g)| up to n (zeroed at point 0); the loss buffer is written at point 15 only,
  with the accumulator's contents.  These contents are defined by recursion on the point over what each case's run
  leaves, and the pipeline's launch theorem turns the per-point triples into the run of @main.
-/
import proofs.«120729_j19585050870000_1_alg».proof.Proof.KernelIdealRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of pieces leaves in a buffer -/

def rd5 (L : List (View.Piece (Elt F) S1x1x384x1024 .f32)) : Vec F S1x1x384x1024 .f32 := VO5.read (Elt F) (VO5.writes (Elt F) VO5.junk L)
def rd6 (L : List (View.Piece (Elt F) S1x1x384x1024 .f32)) : Vec F S1x1x384x1024 .f32 := VO6.read (Elt F) (VO6.writes (Elt F) VO6.junk L)
def rd7 (L : List (View.Piece (Elt F) S1x1x1x1 .f32)) : Vec F S1x1x1x1 .f32 := VO7.read (Elt F) (VO7.writes (Elt F) VO7.junk L)
def rdA (L : List (View.Piece (Elt F) S1x1x1x1 .f32)) : Vec F S1x1x1x1 .f32 := VAcc.read (Elt F) (VAcc.writes (Elt F) VAcc.junk L)

/-! ## The three cases at a grid point -/

/-- The first point's run, on that point's staging memrefs and input blocks. -/
def atFirst (c : Dev nD) (t : Fin cfg0.N) (hF : isFirst (grid0.coords t)) (hL : ¬isLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t)
/-- A middle point's run, the accumulator found at `xs`. -/
def atMid (c : Dev nD) (t : Fin cfg0.N) (hF : ¬isFirst (grid0.coords t)) (hL : ¬isLast (grid0.coords t)) (xs : Vec F S1x1x1x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t) xs
/-- The last point's run, the accumulator found at `xs`. -/
def atLast (c : Dev nD) (t : Fin cfg0.N) (hF : ¬isFirst (grid0.coords t)) (hL : isLast (grid0.coords t)) (xs : Vec F S1x1x1x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) hF hL (iblk m c 0 t) (iblk m c 1 t) (iblk m c 2 t) (iblk m c 3 t) (iblk m c 4 t) xs

theorem notLast_of_zero (t : Fin cfg0.N) (h : t.val = 0) : ¬isLast (grid0.coords t) := fun hl => by
  have := (isLast_iff t).mp hl; omega
theorem first_of_zero (t : Fin cfg0.N) (h : t.val = 0) : isFirst (grid0.coords t) := (isFirst_iff t).mpr h
theorem notFirst_of_pos (t : Fin cfg0.N) (h : t.val ≠ 0) : ¬isFirst (grid0.coords t) := fun hf => h ((isFirst_iff t).mp hf)
theorem last_of_eq (t : Fin cfg0.N) (h : t.val = 15) : isLast (grid0.coords t) := (isLast_iff t).mpr h
theorem notLast_of_ne (t : Fin cfg0.N) (h : t.val ≠ 15) : ¬isLast (grid0.coords t) := fun hl => h ((isLast_iff t).mp hl)

/-! ## The covers: each case's pieces tile the buffer they are stored into -/

theorem cover5_first (c : Dev nD) (t : Fin cfg0.N) (hF hL) (y : S1x1x384x1024.Idx) : ∃ pc ∈ (atFirst m c t hF hL).1, y ∈ pc.1.set :=
  View.cover_of_tiledL (atFirst m c t hF hL).1 S1x1x384x1024.size (by sl_kernel_rfl) y
theorem cover6_first (c : Dev nD) (t : Fin cfg0.N) (hF hL) (y : S1x1x384x1024.Idx) : ∃ pc ∈ (atFirst m c t hF hL).2.1, y ∈ pc.1.set :=
  View.cover_of_tiledL (atFirst m c t hF hL).2.1 S1x1x384x1024.size (by sl_kernel_rfl) y
theorem coverA_first (c : Dev nD) (t : Fin cfg0.N) (hF hL) (y : S1x1x1x1.Idx) : ∃ pc ∈ (atFirst m c t hF hL).2.2.2.1, y ∈ pc.1.set :=
  View.cover_of_tiledL (atFirst m c t hF hL).2.2.2.1 S1x1x1x1.size (by sl_kernel_rfl) y
theorem cover5_mid (c : Dev nD) (t : Fin cfg0.N) (hF hL xs) (y : S1x1x384x1024.Idx) : ∃ pc ∈ (atMid m c t hF hL xs).1, y ∈ pc.1.set :=
  View.cover_of_tiledL (atMid m c t hF hL xs).1 S1x1x384x1024.size (by sl_kernel_rfl) y
theorem cover6_mid (c : Dev nD) (t : Fin cfg0.N) (hF hL xs) (y : S1x1x384x1024.Idx) : ∃ pc ∈ (atMid m c t hF hL xs).2.1, y ∈ pc.1.set :=
  View.cover_of_tiledL (atMid m c t hF hL xs).2.1 S1x1x384x1024.size (by sl_kernel_rfl) y
theorem coverA_mid (c : Dev nD) (t : Fin cfg0.N) (hF hL xs) (y : S1x1x1x1.Idx) : ∃ pc ∈ (atMid m c t hF hL xs).2.2.2.1, y ∈ pc.1.set :=
  View.cover_of_tiledL (atMid m c t hF hL xs).2.2.2.1 S1x1x1x1.size (by sl_kernel_rfl) y
theorem cover5_last (c : Dev nD) (t : Fin cfg0.N) (hF hL xs) (y : S1x1x384x1024.Idx) : ∃ pc ∈ (atLast m c t hF hL xs).1, y ∈ pc.1.set :=
  View.cover_of_tiledL (atLast m c t hF hL xs).1 S1x1x384x1024.size (by sl_kernel_rfl) y
theorem cover6_last (c : Dev nD) (t : Fin cfg0.N) (hF hL xs) (y : S1x1x384x1024.Idx) : ∃ pc ∈ (atLast m c t hF hL xs).2.1, y ∈ pc.1.set :=
  View.cover_of_tiledL (atLast m c t hF hL xs).2.1 S1x1x384x1024.size (by sl_kernel_rfl) y
theorem cover7_last (c : Dev nD) (t : Fin cfg0.N) (hF hL xs) (y : S1x1x1x1.Idx) : ∃ pc ∈ (atLast m c t hF hL xs).2.2.1, y ∈ pc.1.set :=
  View.cover_of_tiledL (atLast m c t hF hL xs).2.2.1 S1x1x1x1.size (by sl_kernel_rfl) y
theorem coverA_last (c : Dev nD) (t : Fin cfg0.N) (hF hL xs) (y : S1x1x1x1.Idx) : ∃ pc ∈ (atLast m c t hF hL xs).2.2.2.1, y ∈ pc.1.set :=
  View.cover_of_tiledL (atLast m c t hF hL xs).2.2.2.1 S1x1x1x1.size (by sl_kernel_rfl) y

/-! ## What the buffers hold after each point -/

/-- After the body at position `n`: (threshold block, weight block, loss buffer, accumulator). -/
def outsAt (c : Dev nD) : (n : ℕ) → n < cfg0.N → Vec F S1x1x384x1024 .f32 × Vec F S1x1x384x1024 .f32 × Vec F S1x1x1x1 .f32 × Vec F S1x1x1x1 .f32
  | 0, hn =>
    (rd5 (atFirst m c ⟨0, hn⟩ (first_of_zero _ rfl) (notLast_of_zero _ rfl)).1,
     rd6 (atFirst m c ⟨0, hn⟩ (first_of_zero _ rfl) (notLast_of_zero _ rfl)).2.1,
     rd7 (atFirst m c ⟨0, hn⟩ (first_of_zero _ rfl) (notLast_of_zero _ rfl)).2.2.1,
     rdA (atFirst m c ⟨0, hn⟩ (first_of_zero _ rfl) (notLast_of_zero _ rfl)).2.2.2.1)
  | n + 1, hn =>
    if hl : n + 1 = 15 then
      (rd5 (atLast m c ⟨n + 1, hn⟩ (notFirst_of_pos _ (Nat.succ_ne_zero n)) (last_of_eq _ hl) (outsAt c n (Nat.lt_of_succ_lt hn)).2.2.2).1,
       rd6 (atLast m c ⟨n + 1, hn⟩ (notFirst_of_pos _ (Nat.succ_ne_zero n)) (last_of_eq _ hl) (outsAt c n (Nat.lt_of_succ_lt hn)).2.2.2).2.1,
       rd7 (atLast m c ⟨n + 1, hn⟩ (notFirst_of_pos _ (Nat.succ_ne_zero n)) (last_of_eq _ hl) (outsAt c n (Nat.lt_of_succ_lt hn)).2.2.2).2.2.1,
       rdA (atLast m c ⟨n + 1, hn⟩ (notFirst_of_pos _ (Nat.succ_ne_zero n)) (last_of_eq _ hl) (outsAt c n (Nat.lt_of_succ_lt hn)).2.2.2).2.2.2.1)
    else
      (rd5 (atMid m c ⟨n + 1, hn⟩ (notFirst_of_pos _ (Nat.succ_ne_zero n)) (notLast_of_ne _ hl) (outsAt c n (Nat.lt_of_succ_lt hn)).2.2.2).1,
       rd6 (atMid m c ⟨n + 1, hn⟩ (notFirst_of_pos _ (Nat.succ_ne_zero n)) (notLast_of_ne _ hl) (outsAt c n (Nat.lt_of_succ_lt hn)).2.2.2).2.1,
       rd7 (atMid m c ⟨n + 1, hn⟩ (notFirst_of_pos _ (Nat.succ_ne_zero n)) (notLast_of_ne _ hl) (outsAt c n (Nat.lt_of_succ_lt hn)).2.2.2).2.2.1,
       rdA (atMid m c ⟨n + 1, hn⟩ (notFirst_of_pos _ (Nat.succ_ne_zero n)) (notLast_of_ne _ hl) (outsAt c n (Nat.lt_of_succ_lt hn)).2.2.2).2.2.2.1)

/-- The accumulator's contents before point `t` (t ≠ 0): what point `t − 1` left. -/
abbrev accBefore (c : Dev nD) (t : Fin cfg0.N) : Vec F S1x1x1x1 .f32 :=
  (outsAt m c (t.val - 1) (Nat.lt_of_le_of_lt (Nat.sub_le _ _) t.isLt)).2.2.2

theorem outsAt_first (c : Dev nD) (t : Fin cfg0.N) (h0 : t.val = 0) :
    outsAt m c t.val t.isLt =
      (rd5 (atFirst m c t (first_of_zero t h0) (notLast_of_zero t h0)).1, rd6 (atFirst m c t (first_of_zero t h0) (notLast_of_zero t h0)).2.1,
       rd7 (atFirst m c t (first_of_zero t h0) (notLast_of_zero t h0)).2.2.1, rdA (atFirst m c t (first_of_zero t h0) (notLast_of_zero t h0)).2.2.2.1) := by
  obtain ⟨n, hn⟩ := t
  cases n with
  | zero => rfl
  | succ n => exact absurd h0 (Nat.succ_ne_zero n)

theorem outsAt_mid (c : Dev nD) (t : Fin cfg0.N) (h0 : t.val ≠ 0) (hl : t.val ≠ 15) :
    outsAt m c t.val t.isLt =
      (rd5 (atMid m c t (notFirst_of_pos t h0) (notLast_of_ne t hl) (accBefore m c t)).1, rd6 (atMid m c t (notFirst_of_pos t h0) (notLast_of_ne t hl) (accBefore m c t)).2.1,
       rd7 (atMid m c t (notFirst_of_pos t h0) (notLast_of_ne t hl) (accBefore m c t)).2.2.1, rdA (atMid m c t (notFirst_of_pos t h0) (notLast_of_ne t hl) (accBefore m c t)).2.2.2.1) := by
  obtain ⟨n, hn⟩ := t
  cases n with
  | zero => exact absurd rfl h0
  | succ n => exact (dif_neg hl).trans rfl

theorem outsAt_last (c : Dev nD) (t : Fin cfg0.N) (h0 : t.val ≠ 0) (hl : t.val = 15) :
    outsAt m c t.val t.isLt =
      (rd5 (atLast m c t (notFirst_of_pos t h0) (last_of_eq t hl) (accBefore m c t)).1, rd6 (atLast m c t (notFirst_of_pos t h0) (last_of_eq t hl) (accBefore m c t)).2.1,
       rd7 (atLast m c t (notFirst_of_pos t h0) (last_of_eq t hl) (accBefore m c t)).2.2.1, rdA (atLast m c t (notFirst_of_pos t h0) (last_of_eq t hl) (accBefore m c t)).2.2.2.1) := by
  obtain ⟨n, hn⟩ := t
  cases n with
  | zero => exact absurd rfl h0
  | succ n => exact (dif_pos hl).trans rfl

/-! ## The region's invariant: the accumulator between points -/

/-- Before position `n`: at the region's entry the accumulator holds anything; afterwards what point `n − 1` left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2.2)) ∗ (∃ r, prngReg c r)) := by
  cases n with
  | zero => exact absurd rfl hz
  | succ n => rfl

/-! ## The proof data -/

/-- Per core: the arrays as the region finds them; after the body each input's buffer at its block and each output's
    at `outsAt`; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem after7 (c : Dev nD) (t : Fin cfg0.N) : (dats m 0 c).after 7 t = (outsAt m c t.val t.isLt).2.2.1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare ((outsAt m c t.val t.isLt).1) := by
  unfold Dat.leavesExact; rw [live5 t, after5]
theorem leaves6 (c : Dev nD) (t : Fin cfg0.N) : (dats m 0 c).leavesExact 6 t = owns (c : Thread nD τ) (ms6 t) fullShare ((outsAt m c t.val t.isLt).2.1) := by
  unfold Dat.leavesExact; rw [live6 t, after6]
theorem leaves7_last (c : Dev nD) (t : Fin cfg0.N) (hL : isLast (grid0.coords t)) :
    (dats m 0 c).leavesExact 7 t = owns (c : Thread nD τ) (ms7 t) fullShare ((outsAt m c t.val t.isLt).2.2.1) := by
  unfold Dat.leavesExact; rw [live7 t hL, after7]

set_option maxHeartbeats 4800000 in
/-- The body at any point: by the point's case. The inputs' buffers hold their blocks; the accumulator is handed over at
    what the point before left (at anything at the first point) and taken back at this point's contents; away from the
    last point the loss buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  have hN : t.val < 16 := lt_of_lt_of_eq t.isLt (show cfg0.N = 16 from N_0)
  by_cases h0 : t.val = 0
  · -- the first point
    have hF := first_of_zero t h0
    have hL := notLast_of_zero t h0
    rw [Dat.leavesExact_idle (dats m 0 c) 7 t (idle7 t hL) (noFlush7 t hL)]
    rw [outsAt_first m c t h0]
    unfold rd5 rd6 rdA; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atFirst m c t hF hL).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS]; · iexact HS
    iintro ⟨H0, H1, H2, H3, H4, ⟨%e5, H5⟩, ⟨%e6, H6⟩, H7, ⟨%es, HS⟩⟩
    isplitl [HS Hg]
    · isplitl [HS]
      · unfold owns; iexists _; isplitr
        swap; · iexact HS
        ipureintro; exact View.read_writes_of_cover _ _ _ _ _ (coverA_first m c t hF hL)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_first m c t hF hL)
    isplitl [H6]
    · unfold owns; iexists _; isplitr
      swap; · iexact H6
      ipureintro; exact View.read_writes_of_cover _ _ _ _ _ (cover6_first m c t hF hL)
    iexists _; iexact H7
  · have hF := notFirst_of_pos t h0
    by_cases hl : t.val = 15
    · -- the last point
      have hL := last_of_eq t hl
      rw [leaves7_last m c t hL]
      rw [outsAt_last m c t h0 hl]
      unfold rd5 rd6 rd7 rdA; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atLast m c t hF hL (accBefore m c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, ⟨%e5, H5⟩, ⟨%e6, H6⟩, ⟨%e7, H7⟩, ⟨%es, HS⟩⟩
      isplitl [HS Hg]
      · isplitl [HS]
        · unfold owns; iexists _; isplitr
          swap; · iexact HS
          ipureintro; exact View.read_writes_of_cover _ _ _ _ _ (coverA_last m c t hF hL _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_last m c t hF hL _)
      isplitl [H6]
      · unfold owns; iexists _; isplitr
        swap; · iexact H6
        ipureintro; exact View.read_writes_of_cover _ _ _ _ _ (cover6_last m c t hF hL _)
      unfold owns; iexists _; isplitr
      swap; · iexact H7
      ipureintro; exact View.read_writes_of_cover _ _ _ _ _ (cover7_last m c t hF hL _)
    · -- a middle point
      have hL := notLast_of_ne t hl
      rw [Dat.leavesExact_idle (dats m 0 c) 7 t (idle7 t hL) (noFlush7 t hL)]
      rw [outsAt_mid m c t h0 hl]
      unfold rd5 rd6 rdA; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atMid m c t hF hL (accBefore m c t)).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, ⟨%e5, H5⟩, ⟨%e6, H6⟩, H7, ⟨%es, HS⟩⟩
      isplitl [HS Hg]
      · isplitl [HS]
        · unfold owns; iexists _; isplitr
          swap; · iexact HS
          ipureintro; exact View.read_writes_of_cover _ _ _ _ _ (coverA_mid m c t hF hL _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_mid m c t hF hL _)
      isplitl [H6]
      · unfold owns; iexists _; isplitr
        swap; · iexact H6
        ipureintro; exact View.read_writes_of_cover _ _ _ _ _ (cover6_mid m c t hF hL _)
      iexists _; iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- The launch hands the region the accumulator at anything: the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run -/

set_option backward.isDefEq.respectTransparency.types false in
/-- Every weakly fair execution of @main terminates; at the end every window's array holds what the proof data say
    (inputs their entry contents, outputs the blocks written back) and every other unscoped buffer what the three host
    lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Fr

end
-- ==== Proof.KernelIdealPieces.lean ====
/-
  What the body leaves, in the skeleton's payload terms.  At every grid point the threshold block is
  (d − g)·c₁ + g·c₂ and the weight block is (u·(d − g) + w) + 1 of that point's input blocks; the accumulator after point 0
  is 0 + s₀ and after point n + 1 is (its contents after point n) + s₍ₙ₊₁₎, where sₜ is the sum over block t of |w·(p − g)|;
  at the last point the loss buffer receives the accumulator's contents.
-/
import proofs.«120729_j19585050870000_1_alg».proof.Proof.KernelIdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at their literal type -/

/-- Block `t` of g (the ground-truth mask, window 0). -/
abbrev gtB (c : Dev nD) (t : Fin cfg0.N) : Vec F S1x1x384x1024 .f32 := iblk m c 0 t
/-- Block `t` of w (the instance weight, window 1). -/
abbrev iwB (c : Dev nD) (t : Fin cfg0.N) : Vec F S1x1x384x1024 .f32 := iblk m c 1 t
/-- Block `t` of d (the dilated mask, window 2). -/
abbrev dilB (c : Dev nD) (t : Fin cfg0.N) : Vec F S1x1x384x1024 .f32 := iblk m c 2 t
/-- Block `t` of u (the dilated weight, window 3). -/
abbrev wdB (c : Dev nD) (t : Fin cfg0.N) : Vec F S1x1x384x1024 .f32 := iblk m c 3 t
/-- Block `t` of p (the binary map, window 4). -/
abbrev pB (c : Dev nD) (t : Fin cfg0.N) : Vec F S1x1x384x1024 .f32 := iblk m c 4 t

/-- The accumulator's contents after position `n`. -/
abbrev accAt (c : Dev nD) (n : ℕ) (hn : n < cfg0.N) : Vec F S1x1x1x1 .f32 := (outsAt m c n hn).2.2.2

/-! ## What each case's pieces read back as

Every store is through the whole-shape rectangle at zero offsets, and every load reads a whole buffer: so a buffer stored
once reads back as that store's payload of the blocks loaded, and one stored twice as the later store's. -/

/-- The zero offsets, as the constant function. -/
private theorem hz4 : (![0, 0, 0, 0] : Fin 4 → Nat) = fun _ => 0 := funext fun a => by fin_cases a <;> rfl

/-- At the first point the threshold buffer's one whole store holds (d − g)·c₁ + g·c₂ of the blocks found. -/
private theorem first5 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : isFirst i) (hL : ¬isLast i) (x0 x1 x2 x3 x4 : Vec F S1x1x384x1024 .f32) :
    rd5 (runFirst c i arg2 harg2 arg3 harg3 arg4 harg4 arg5 harg5 arg6 harg6 arg7 harg7 arg8 harg8 arg9 harg9 arg10 harg10 hF hL x0 x1 x2 x3 x4).1 = k0_pay5 x0 x2 := by
  unfold rd5
  rw [View.read_writes_junk_eq_canon]
  unfold runFirst
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At the first point the weight buffer's one whole store holds (u·(d − g) + w) + 1 of the blocks found. -/
private theorem first6 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : isFirst i) (hL : ¬isLast i) (x0 x1 x2 x3 x4 : Vec F S1x1x384x1024 .f32) :
    rd6 (runFirst c i arg2 harg2 arg3 harg3 arg4 harg4 arg5 harg5 arg6 harg6 arg7 harg7 arg8 harg8 arg9 harg9 arg10 harg10 hF hL x0 x1 x2 x3 x4).2.1 = k0_pay6 x0 x1 x2 x3 := by
  unfold rd6
  rw [View.read_writes_junk_eq_canon]
  unfold runFirst
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At the first point the accumulator is stored zero, read back, and stored zero plus the block's sum: the later store covers. -/
private theorem firstA (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : isFirst i) (hL : ¬isLast i) (x0 x1 x2 x3 x4 : Vec F S1x1x384x1024 .f32) :
    rdA (runFirst c i arg2 harg2 arg3 harg3 arg4 harg4 arg5 harg5 arg6 harg6 arg7 harg7 arg8 harg8 arg9 harg9 arg10 harg10 hF hL x0 x1 x2 x3 x4).2.2.2.1 = k0_pay1 x0 (k0_pay3 x1) x4 (k0_pay2 (F := F)) := by
  unfold rdA
  rw [View.read_writes_junk_eq_canon]
  unfold runFirst
  dsimp only
  sl_unfold_words
  rw [View.canon_cons_unit_zero (S := S1x1x1x1) hz4, View.readCov_unit_zero (S := S1x1x1x1) _ hz4]
  simp only [View.readAt_eq_ld, harg2.read_unread, harg3.read_unread, harg6.read_unread, View.ld_unit_zero (S := S1x1x384x1024) hz4, View.ld_unit_zero (S := S1x1x1x1) hz4]

/-- At a middle point the threshold buffer holds the same expression of the blocks found. -/
private theorem mid5 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : ¬isLast i) (x0 x1 x2 x3 x4 : Vec F S1x1x384x1024 .f32) (xs : Vec F S1x1x1x1 .f32) :
    rd5 (runMid c i arg2 harg2 arg3 harg3 arg4 harg4 arg5 harg5 arg6 harg6 arg7 harg7 arg8 harg8 arg9 harg9 arg10 harg10 hF hL x0 x1 x2 x3 x4 xs).1 = k0_pay5 x0 x2 := by
  unfold rd5
  rw [View.read_writes_junk_eq_canon]
  unfold runMid
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At a middle point the weight buffer holds the same expression of the blocks found. -/
private theorem mid6 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : ¬isLast i) (x0 x1 x2 x3 x4 : Vec F S1x1x384x1024 .f32) (xs : Vec F S1x1x1x1 .f32) :
    rd6 (runMid c i arg2 harg2 arg3 harg3 arg4 harg4 arg5 harg5 arg6 harg6 arg7 harg7 arg8 harg8 arg9 harg9 arg10 harg10 hF hL x0 x1 x2 x3 x4 xs).2.1 = k0_pay6 x0 x1 x2 x3 := by
  unfold rd6
  rw [View.read_writes_junk_eq_canon]
  unfold runMid
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At a middle point the accumulator, found at xs, is stored xs plus the block's sum. -/
private theorem midA (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : ¬isLast i) (x0 x1 x2 x3 x4 : Vec F S1x1x384x1024 .f32) (xs : Vec F S1x1x1x1 .f32) :
    rdA (runMid c i arg2 harg2 arg3 harg3 arg4 harg4 arg5 harg5 arg6 harg6 arg7 harg7 arg8 harg8 arg9 harg9 arg10 harg10 hF hL x0 x1 x2 x3 x4 xs).2.2.2.1 = k0_pay1 x0 (k0_pay3 x1) x4 xs := by
  unfold rdA
  rw [View.read_writes_junk_eq_canon]
  unfold runMid
  dsimp only
  sl_unfold_words
  rw [View.canon_unit_zero (S := S1x1x1x1) hz4]
  simp only [View.readAt_eq_ld, harg2.read_unread, harg3.read_unread, harg6.read_unread, harg10.read_unread, View.ld_unit_zero (S := S1x1x384x1024) hz4, View.ld_unit_zero (S := S1x1x1x1) hz4]

/-- At the last point the threshold buffer holds the same expression of the blocks found. -/
private theorem last5 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i) (x0 x1 x2 x3 x4 : Vec F S1x1x384x1024 .f32) (xs : Vec F S1x1x1x1 .f32) :
    rd5 (runLast c i arg2 harg2 arg3 harg3 arg4 harg4 arg5 harg5 arg6 harg6 arg7 harg7 arg8 harg8 arg9 harg9 arg10 harg10 hF hL x0 x1 x2 x3 x4 xs).1 = k0_pay5 x0 x2 := by
  unfold rd5
  rw [View.read_writes_junk_eq_canon]
  unfold runLast
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At the last point the weight buffer holds the same expression of the blocks found. -/
private theorem last6 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i) (x0 x1 x2 x3 x4 : Vec F S1x1x384x1024 .f32) (xs : Vec F S1x1x1x1 .f32) :
    rd6 (runLast c i arg2 harg2 arg3 harg3 arg4 harg4 arg5 harg5 arg6 harg6 arg7 harg7 arg8 harg8 arg9 harg9 arg10 harg10 hF hL x0 x1 x2 x3 x4 xs).2.1 = k0_pay6 x0 x1 x2 x3 := by
  unfold rd6
  rw [View.read_writes_junk_eq_canon]
  unfold runLast
  dsimp only
  sl_unfold_words
  rw [View.canon_unit_zero (S := S1x1x384x1024) hz4]
  simp only [View.readAt_eq_ld, harg2.read_unread, harg3.read_unread, harg4.read_unread, harg5.read_unread, harg6.read_unread, View.ld_unit_zero (S := S1x1x384x1024) hz4]

/-- At the last point the accumulator, found at xs, is stored xs plus the block's sum. -/
private theorem lastA (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i) (x0 x1 x2 x3 x4 : Vec F S1x1x384x1024 .f32) (xs : Vec F S1x1x1x1 .f32) :
    rdA (runLast c i arg2 harg2 arg3 harg3 arg4 harg4 arg5 harg5 arg6 harg6 arg7 harg7 arg8 harg8 arg9 harg9 arg10 harg10 hF hL x0 x1 x2 x3 x4 xs).2.2.2.1 = k0_pay1 x0 (k0_pay3 x1) x4 xs := by
  unfold rdA
  rw [View.read_writes_junk_eq_canon]
  unfold runLast
  dsimp only
  sl_unfold_words
  rw [View.canon_unit_zero (S := S1x1x1x1) hz4]
  simp only [View.readAt_eq_ld, harg2.read_unread, harg3.read_unread, harg6.read_unread, harg10.read_unread, View.ld_unit_zero (S := S1x1x384x1024) hz4, View.ld_unit_zero (S := S1x1x1x1) hz4]

/-- At the last point the loss buffer is stored what the accumulator reads after its store: xs plus the block's sum. -/
private theorem last7 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hF : ¬isFirst i) (hL : isLast i) (x0 x1 x2 x3 x4 : Vec F S1x1x384x1024 .f32) (xs : Vec F S1x1x1x1 .f32) :
    rd7 (runLast c i arg2 harg2 arg3 harg3 arg4 harg4 arg5 harg5 arg6 harg6 arg7 harg7 arg8 harg8 arg9 harg9 arg10 harg10 hF hL x0 x1 x2 x3 x4 xs).2.2.1 = k0_pay1 x0 (k0_pay3 x1) x4 xs := by
  unfold rd7
  rw [View.read_writes_junk_eq_canon]
  unfold runLast
  dsimp only
  sl_unfold_words
  rw [View.canon_unit_zero (S := S1x1x1x1) hz4, View.readCov_unit_zero (S := S1x1x1x1) _ hz4]
  simp only [View.readAt_eq_ld, harg2.read_unread, harg3.read_unread, harg6.read_unread, harg10.read_unread, View.ld_unit_zero (S := S1x1x384x1024) hz4, View.ld_unit_zero (S := S1x1x1x1) hz4]

/-! ## The outputs at every point -/

/-- The threshold block of point `t`. -/
theorem out5_eq (c : Dev nD) (t : Fin cfg0.N) :
    (outsAt m c t.val t.isLt).1 = k0_pay5 (gtB m c t) (dilB m c t) := by
  by_cases h0 : t.val = 0
  · rw [outsAt_first m c t h0]; dsimp only; unfold atFirst
    exact first5 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (first_of_zero t h0) (notLast_of_zero t h0) (iblk m c 0 t) (iblk m c 1 t) (iblk m c 2 t) (iblk m c 3 t) (iblk m c 4 t)
  · by_cases hl : t.val = 15
    · rw [outsAt_last m c t h0 hl]; dsimp only; unfold atLast
      exact last5 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (notFirst_of_pos t h0) (last_of_eq t hl) (iblk m c 0 t) (iblk m c 1 t) (iblk m c 2 t) (iblk m c 3 t) (iblk m c 4 t) (accBefore m c t)
    · rw [outsAt_mid m c t h0 hl]; dsimp only; unfold atMid
      exact mid5 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (notFirst_of_pos t h0) (notLast_of_ne t hl) (iblk m c 0 t) (iblk m c 1 t) (iblk m c 2 t) (iblk m c 3 t) (iblk m c 4 t) (accBefore m c t)

/-- The weight block of point `t`. -/
theorem out6_eq (c : Dev nD) (t : Fin cfg0.N) :
    (outsAt m c t.val t.isLt).2.1 = k0_pay6 (gtB m c t) (iwB m c t) (dilB m c t) (wdB m c t) := by
  by_cases h0 : t.val = 0
  · rw [outsAt_first m c t h0]; dsimp only; unfold atFirst
    exact first6 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (first_of_zero t h0) (notLast_of_zero t h0) (iblk m c 0 t) (iblk m c 1 t) (iblk m c 2 t) (iblk m c 3 t) (iblk m c 4 t)
  · by_cases hl : t.val = 15
    · rw [outsAt_last m c t h0 hl]; dsimp only; unfold atLast
      exact last6 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (notFirst_of_pos t h0) (last_of_eq t hl) (iblk m c 0 t) (iblk m c 1 t) (iblk m c 2 t) (iblk m c 3 t) (iblk m c 4 t) (accBefore m c t)
    · rw [outsAt_mid m c t h0 hl]; dsimp only; unfold atMid
      exact mid6 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (notFirst_of_pos t h0) (notLast_of_ne t hl) (iblk m c 0 t) (iblk m c 1 t) (iblk m c 2 t) (iblk m c 3 t) (iblk m c 4 t) (accBefore m c t)

/-- After point 0 the accumulator holds zero plus block 0's sum. -/
theorem acc_zero (c : Dev nD) (hn : 0 < cfg0.N) :
    accAt m c 0 hn = k0_pay1 (gtB m c ⟨0, hn⟩) (k0_pay3 (iwB m c ⟨0, hn⟩)) (pB m c ⟨0, hn⟩) (k0_pay2 (F := F)) := by
  show (outsAt m c 0 hn).2.2.2 = _
  rw [show outsAt m c 0 hn = _ from outsAt_first m c ⟨0, hn⟩ rfl]; dsimp only; unfold atFirst
  exact firstA (F := F) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) accM (Memref.isWhole_whole _) (first_of_zero ⟨0, hn⟩ rfl) (notLast_of_zero ⟨0, hn⟩ rfl) (iblk m c 0 ⟨0, hn⟩) (iblk m c 1 ⟨0, hn⟩) (iblk m c 2 ⟨0, hn⟩) (iblk m c 3 ⟨0, hn⟩) (iblk m c 4 ⟨0, hn⟩)

/-- After point n + 1 it holds what it held after point n plus block (n + 1)'s sum. -/
theorem acc_succ (c : Dev nD) (n : ℕ) (hn : n + 1 < cfg0.N) :
    accAt m c (n + 1) hn
      = k0_pay1 (gtB m c ⟨n + 1, hn⟩) (k0_pay3 (iwB m c ⟨n + 1, hn⟩)) (pB m c ⟨n + 1, hn⟩) (accAt m c n (Nat.lt_of_succ_lt hn)) := by
  have h0 : (⟨n + 1, hn⟩ : Fin cfg0.N).val ≠ 0 := Nat.succ_ne_zero n
  have hb : accBefore m c ⟨n + 1, hn⟩ = accAt m c n (Nat.lt_of_succ_lt hn) := rfl
  show (outsAt m c (n + 1) hn).2.2.2 = _
  by_cases hl : n + 1 = 15
  · rw [show outsAt m c (n + 1) hn = _ from outsAt_last m c ⟨n + 1, hn⟩ h0 hl]; dsimp only; unfold atLast
    refine (lastA (F := F) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) accM (Memref.isWhole_whole _) (notFirst_of_pos ⟨n + 1, hn⟩ h0) (last_of_eq ⟨n + 1, hn⟩ hl) (iblk m c 0 ⟨n + 1, hn⟩) (iblk m c 1 ⟨n + 1, hn⟩) (iblk m c 2 ⟨n + 1, hn⟩) (iblk m c 3 ⟨n + 1, hn⟩) (iblk m c 4 ⟨n + 1, hn⟩) (accBefore m c ⟨n + 1, hn⟩)).trans ?_
    rw [hb]
  · rw [show outsAt m c (n + 1) hn = _ from outsAt_mid m c ⟨n + 1, hn⟩ h0 hl]; dsimp only; unfold atMid
    refine (midA (F := F) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) accM (Memref.isWhole_whole _) (notFirst_of_pos ⟨n + 1, hn⟩ h0) (notLast_of_ne ⟨n + 1, hn⟩ hl) (iblk m c 0 ⟨n + 1, hn⟩) (iblk m c 1 ⟨n + 1, hn⟩) (iblk m c 2 ⟨n + 1, hn⟩) (iblk m c 3 ⟨n + 1, hn⟩) (iblk m c 4 ⟨n + 1, hn⟩) (accBefore m c ⟨n + 1, hn⟩)).trans ?_
    rw [hb]

/-- At the last point the loss buffer receives the accumulator's new contents. -/
theorem loss_last (c : Dev nD) (hn : 15 < cfg0.N) :
    (outsAt m c 15 hn).2.2.1 = accAt m c 15 hn := by
  have h0 : (⟨15, hn⟩ : Fin cfg0.N).val ≠ 0 := Nat.succ_ne_zero 14
  show (outsAt m c 15 hn).2.2.1 = (outsAt m c 15 hn).2.2.2
  rw [show outsAt m c 15 hn = _ from outsAt_last m c ⟨15, hn⟩ h0 rfl]; dsimp only; unfold atLast
  exact (last7 (F := F) c (grid0.coords ⟨15, hn⟩) (ms0 ⟨15, hn⟩) (hs0 ⟨15, hn⟩) (ms1 ⟨15, hn⟩) (hs1 ⟨15, hn⟩) (ms2 ⟨15, hn⟩) (hs2 ⟨15, hn⟩) (ms3 ⟨15, hn⟩) (hs3 ⟨15, hn⟩) (ms4 ⟨15, hn⟩) (hs4 ⟨15, hn⟩) (ms5 ⟨15, hn⟩) (hs5 ⟨15, hn⟩) (ms6 ⟨15, hn⟩) (hs6 ⟨15, hn⟩) (ms7 ⟨15, hn⟩) (hs7 ⟨15, hn⟩) accM (Memref.isWhole_whole _) (notFirst_of_pos ⟨15, hn⟩ h0) (last_of_eq ⟨15, hn⟩ rfl) (iblk m c 0 ⟨15, hn⟩) (iblk m c 1 ⟨15, hn⟩) (iblk m c 2 ⟨15, hn⟩) (iblk m c 3 ⟨15, hn⟩) (iblk m c 4 ⟨15, hn⟩) (accBefore m c ⟨15, hn⟩)).trans
    (lastA (F := F) c (grid0.coords ⟨15, hn⟩) (ms0 ⟨15, hn⟩) (hs0 ⟨15, hn⟩) (ms1 ⟨15, hn⟩) (hs1 ⟨15, hn⟩) (ms2 ⟨15, hn⟩) (hs2 ⟨15, hn⟩) (ms3 ⟨15, hn⟩) (hs3 ⟨15, hn⟩) (ms4 ⟨15, hn⟩) (hs4 ⟨15, hn⟩) (ms5 ⟨15, hn⟩) (hs5 ⟨15, hn⟩) (ms6 ⟨15, hn⟩) (hs6 ⟨15, hn⟩) (ms7 ⟨15, hn⟩) (hs7 ⟨15, hn⟩) accM (Memref.isWhole_whole _) (notFirst_of_pos ⟨15, hn⟩ h0) (last_of_eq ⟨15, hn⟩ rfl) (iblk m c 0 ⟨15, hn⟩) (iblk m c 1 ⟨15, hn⟩) (iblk m c 2 ⟨15, hn⟩) (iblk m c 3 ⟨15, hn⟩) (iblk m c 4 ⟨15, hn⟩) (accBefore m c ⟨15, hn⟩)).symm

end Cert.KernelIdeal.Fr

end
-- ==== Proof.LibIdxSum.lean ====
/-
  A sum over an array's index set is the iterated sum over its coordinates.

  An index of a rank-3 array of extents [n0, n1, n2] is the triple of its coordinates, and of a rank-4 array the
  quadruple; so the index set is the product of the coordinate ranges, and a sum over it, in any commutative additive
  monoid, is the sum over the first coordinate of the sum over the second, and so on.  (Rank 2 is the library's
  `sum_idx2`; these are the same statement one and two ranks up, over the same coordinate constructors `ix3`, `ix4`.)
-/
import Idealize.ShloMosaic.Lib.ValueIdx

noncomputable section

open scoped BigOperators

namespace Cert.LibIdxSum

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdxSum

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.SumByBlocks.lean ====
/-
  A sum over an array of shape [8, 1, 768, 1024], taken in 16 blocks of shape [1, 1, 384, 1024].

  Block t = 2·b + h (b < 8, h < 2) is image b, rows 384·h, …, 384·h + 383, all 1024 columns.  Every element of the
  array lies in exactly one block: image b, row c = 384·h + r (h < 2, r < 384), column d lies in block 2·b + h at
  position (0, 0, r, d).  So, in a commutative additive monoid, the sum over the whole array is the sum over the 16
  blocks of each block's sum; and a running total that starts at zero and adds one block's sum at each of the 16 steps
  ends at that sum.
-/
import Idealize.ShloMosaic.Lib.ValueIdx
import proofs.«120729_j19585050870000_1_alg».proof.Proof.LibIdxSum
import proofs.«120729_j19585050870000_1_alg».proof.Proof.LibBlockSum
import Mathlib.Algebra.BigOperators.Fin
import Mathlib.Algebra.BigOperators.Group.Finset.Basic
import Mathlib.Tactic.FinCases
import Mathlib.Tactic.NormNum

noncomputable section

open scoped BigOperators

namespace Cert.SumByBlocks

open Idealize.ShloMosaic Idealize.ShloMosaic.ValueIdx

variable {M : Type*} [AddCommMonoid M]

/-- The whole array: 8 images of 768 rows and 1024 columns. -/
abbrev SArr : Shape := ⟨4, ![8, 1, 768, 1024]⟩
/-- One block: half an image, 384 rows and 1024 columns. -/
abbrev SBlk : Shape := ⟨4, ![1, 1, 384, 1024]⟩

/-- A block index's row is below 384, written with the literal. -/
theorem blk_lt2 (y : SBlk.Idx) : (y 2).val < 384 := (y 2).isLt
/-- A block index's column is below 1024, written with the literal. -/
theorem blk_lt3 (y : SBlk.Idx) : (y 3).val < 1024 := (y 3).isLt

/-- Block t's image number t / 2 is below 8. -/
theorem img_lt (t : Fin 16) : t.val / 2 < 8 := by omega
/-- Row r of half h is a row of the image: 384·h + r < 768 for h < 2, r < 384. -/
theorem row_lt {h r : ℕ} (hh : h < 2) (hr : r < 384) : 384 * h + r < 768 := by omega
/-- Half h of image b is a block: 2·b + h < 16 for b < 8, h < 2. -/
theorem blk_lt {b h : ℕ} (hb : b < 8) (hh : h < 2) : 2 * b + h < 16 := by omega

/-- element y of block t, as an index of the whole array -/
def blockIx (t : Fin 16) (y : SBlk.Idx) : SArr.Idx :=
  ix4 (⟨t.val / 2, img_lt t⟩ : Fin 8) (0 : Fin 1)
    (⟨384 * (t.val % 2) + (y 2).val, row_lt (Nat.mod_lt _ (by norm_num)) (blk_lt2 y)⟩ : Fin 768)
    (⟨(y 3).val, blk_lt3 y⟩ : Fin 1024)

/-- The image of element y of block t is t / 2. -/
theorem blockIx_apply0 (t : Fin 16) (y : SBlk.Idx) : ((blockIx t y) 0).val = t.val / 2 := rfl
/-- The second coordinate of element y of block t is 0. -/
theorem blockIx_apply1 (t : Fin 16) (y : SBlk.Idx) : ((blockIx t y) 1).val = 0 := rfl
/-- The row of element y of block t is 384·(t mod 2) plus y's row. -/
theorem blockIx_apply2 (t : Fin 16) (y : SBlk.Idx) : ((blockIx t y) 2).val = 384 * (t.val % 2) + (y 2).val := rfl
/-- The column of element y of block t is y's column. -/
theorem blockIx_apply3 (t : Fin 16) (y : SBlk.Idx) : ((blockIx t y) 3).val = (y 3).val := rfl

/-- Element (0, 0, r, d) of block 2·b + h is element (b, 0, 384·h + r, d) of the array. -/
theorem blockIx_pair (b : Fin 8) (h : Fin 2) (r : Fin 384) (d : Fin 1024) :
    blockIx ⟨2 * b.val + h.val, blk_lt b.isLt h.isLt⟩ (ix4 (0 : Fin 1) (0 : Fin 1) r d)
      = ix4 b (0 : Fin 1) (⟨384 * h.val + r.val, row_lt h.isLt r.isLt⟩ : Fin 768) d := by
  have hb : (2 * b.val + h.val) / 2 = b.val := by omega
  have hh : (2 * b.val + h.val) % 2 = h.val := by omega
  funext e
  fin_cases e
  · exact Fin.ext hb
  · rfl
  · exact Fin.ext (by show 384 * ((2 * b.val + h.val) % 2) + r.val = 384 * h.val + r.val; rw [hh])
  · rfl

/-- The sum over the whole array as the sum over image, half, row within the half, and column. -/
theorem sum_arr (f : SArr.Idx → M) :
    ∑ i, f i = ∑ b : Fin 8, ∑ h : Fin 2, ∑ r : Fin 384, ∑ d : Fin 1024,
      f (ix4 b (0 : Fin 1) (⟨384 * h.val + r.val, row_lt h.isLt r.isLt⟩ : Fin 768) d) := by
  refine (Cert.LibIdxSum.sum_idx4 f).trans ?_
  refine Finset.sum_congr rfl fun b _ => ?_
  rw [Fin.sum_univ_one]
  exact Cert.LibBlockSum.sum_blocks' (n := 2) (b := 384) (N := 768) (by norm_num)
    (fun c => ∑ d : Fin 1024, f (ix4 b (0 : Fin 1) c d))

/-- The sum over one block as the sum over row and column. -/
theorem sum_blk (g : SBlk.Idx → M) :
    ∑ y, g y = ∑ r : Fin 384, ∑ d : Fin 1024, g (ix4 (0 : Fin 1) (0 : Fin 1) r d) := by
  refine (Cert.LibIdxSum.sum_idx4 g).trans ?_
  rw [Fin.sum_univ_one, Fin.sum_univ_one]

/-- **The sum over the whole array is the sum over the 16 blocks of each block's sum.** -/
theorem sum_by_blocks (f : SArr.Idx → M) :
    ∑ i, f i = ∑ t : Fin 16, ∑ y : SBlk.Idx, f (blockIx t y) := by
  refine (sum_arr f).trans ?_
  refine Eq.trans ?_ (Cert.LibBlockSum.sum_blocks' (n := 8) (b := 2) (N := 16) (by norm_num)
    (fun t => ∑ y : SBlk.Idx, f (blockIx t y))).symm
  refine Finset.sum_congr rfl fun b _ => Finset.sum_congr rfl fun h _ => ?_
  refine Eq.trans ?_ (sum_blk _).symm
  refine Finset.sum_congr rfl fun r _ => Finset.sum_congr rfl fun d _ => ?_
  exact congrArg f (blockIx_pair b h r d).symm

/-- a running total that starts from 0 + s 0 and adds s (n+1) at step n+1 is the sum of the first n+1 terms -/
theorem running_total (s acc : ℕ → M) (h0 : acc 0 = 0 + s 0) (hs : ∀ n, acc (n + 1) = acc n + s (n + 1)) (n : ℕ) :
    acc n = ∑ k : Fin (n + 1), s k.val := by
  induction n with
  | zero => rw [h0, zero_add, Fin.sum_univ_one]; rfl
  | succ n ih =>
    rw [hs n, ih]
    exact (Fin.sum_univ_castSucc (fun k : Fin (n + 1 + 1) => s k.val)).symm

end Cert.SumByBlocks

end
-- ==== Proof.KernelIdealArrays.lean ====
/-
  From blocks to arrays.  The five input arrays as the region finds them, each block of each as the array read at
  "element y of block t" (image t / 2, row 384·(t mod 2) + y's row, y's column); the two full-size outputs after the
  sixteen write-backs as one function of the input arrays, entry by entry: the threshold (d − g)·c₁ + g·c₂ and the
  weight (u·(d − g) + w) + 1; the loss array as what the accumulator holds after the last point; and the three host
  lines after the region, which reshape the loss array to a scalar and divide it by 3072.
-/
import proofs.«120729_j19585050870000_1_alg».proof.Proof.KernelIdealPieces
import proofs.«120729_j19585050870000_1_alg».proof.Proof.SumByBlocks
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- the arrays as the region finds them, at their literal type -/
abbrev gtA (c : Dev nD) : FVec F S8x1x768x1024 .f32 := V m c main_arg1
abbrev iwA (c : Dev nD) : FVec F S8x1x768x1024 .f32 := V m c main_v41
abbrev dilA (c : Dev nD) : FVec F S8x1x768x1024 .f32 := V m c main_v47
abbrev wdA (c : Dev nD) : FVec F S8x1x768x1024 .f32 := V m c main_v53
abbrev pA (c : Dev nD) : FVec F S8x1x768x1024 .f32 := V m c main_arg0

/-- (d − g)·c₁ + g·c₂, entry by entry -/
def thrArr (g d : FVec F S8x1x768x1024 .f32) : FVec F S8x1x768x1024 .f32 := fun i => FloatOps.addf (FloatOps.mulf (FloatOps.subf (d i) (g i)) (Scalar.ofBits .f32 0x3F333333#32)) (FloatOps.mulf (g i) (Scalar.ofBits .f32 0x3E4CCCCD#32))
/-- (u·(d − g) + w) + 1, entry by entry -/
def allwArr (g w d u : FVec F S8x1x768x1024 .f32) : FVec F S8x1x768x1024 .f32 := fun i => FloatOps.addf (FloatOps.addf (FloatOps.mulf (u i) (FloatOps.subf (d i) (g i))) (w i)) (Scalar.ofBits .f32 0x3F800000#32)

/-- the point as a number below 16 -/
abbrev pt (t : Fin cfg0.N) : Fin 16 := ⟨t.val, lt_of_lt_of_eq t.isLt N_0⟩

/-! Where the seven full-size windows' blocks sit: at point t the block index is (t / 2, 0, t mod 2, 0). -/
theorem idx0 : ∀ t : Fin cfg0.N, win0_0.index t (0 : Fin 4) = t.val / 2 ∧ win0_0.index t (1 : Fin 4) = 0 ∧ win0_0.index t (2 : Fin 4) = t.val % 2 ∧ win0_0.index t (3 : Fin 4) = 0 :=
  (by decide +kernel : ∀ t : Fin grid0.N, win0_0.index t (0 : Fin 4) = t.val / 2 ∧ win0_0.index t (1 : Fin 4) = 0 ∧ win0_0.index t (2 : Fin 4) = t.val % 2 ∧ win0_0.index t (3 : Fin 4) = 0)
theorem idx1 : ∀ t : Fin cfg0.N, win0_1.index t (0 : Fin 4) = t.val / 2 ∧ win0_1.index t (1 : Fin 4) = 0 ∧ win0_1.index t (2 : Fin 4) = t.val % 2 ∧ win0_1.index t (3 : Fin 4) = 0 :=
  (by decide +kernel : ∀ t : Fin grid0.N, win0_1.index t (0 : Fin 4) = t.val / 2 ∧ win0_1.index t (1 : Fin 4) = 0 ∧ win0_1.index t (2 : Fin 4) = t.val % 2 ∧ win0_1.index t (3 : Fin 4) = 0)
theorem idx2 : ∀ t : Fin cfg0.N, win0_2.index t (0 : Fin 4) = t.val / 2 ∧ win0_2.index t (1 : Fin 4) = 0 ∧ win0_2.index t (2 : Fin 4) = t.val % 2 ∧ win0_2.index t (3 : Fin 4) = 0 :=
  (by decide +kernel : ∀ t : Fin grid0.N, win0_2.index t (0 : Fin 4) = t.val / 2 ∧ win0_2.index t (1 : Fin 4) = 0 ∧ win0_2.index t (2 : Fin 4) = t.val % 2 ∧ win0_2.index t (3 : Fin 4) = 0)
theorem idx3 : ∀ t : Fin cfg0.N, win0_3.index t (0 : Fin 4) = t.val / 2 ∧ win0_3.index t (1 : Fin 4) = 0 ∧ win0_3.index t (2 : Fin 4) = t.val % 2 ∧ win0_3.index t (3 : Fin 4) = 0 :=
  (by decide +kernel : ∀ t : Fin grid0.N, win0_3.index t (0 : Fin 4) = t.val / 2 ∧ win0_3.index t (1 : Fin 4) = 0 ∧ win0_3.index t (2 : Fin 4) = t.val % 2 ∧ win0_3.index t (3 : Fin 4) = 0)
theorem idx4 : ∀ t : Fin cfg0.N, win0_4.index t (0 : Fin 4) = t.val / 2 ∧ win0_4.index t (1 : Fin 4) = 0 ∧ win0_4.index t (2 : Fin 4) = t.val % 2 ∧ win0_4.index t (3 : Fin 4) = 0 :=
  (by decide +kernel : ∀ t : Fin grid0.N, win0_4.index t (0 : Fin 4) = t.val / 2 ∧ win0_4.index t (1 : Fin 4) = 0 ∧ win0_4.index t (2 : Fin 4) = t.val % 2 ∧ win0_4.index t (3 : Fin 4) = 0)
theorem idx5 : ∀ t : Fin cfg0.N, win0_5.index t (0 : Fin 4) = t.val / 2 ∧ win0_5.index t (1 : Fin 4) = 0 ∧ win0_5.index t (2 : Fin 4) = t.val % 2 ∧ win0_5.index t (3 : Fin 4) = 0 :=
  (by decide +kernel : ∀ t : Fin grid0.N, win0_5.index t (0 : Fin 4) = t.val / 2 ∧ win0_5.index t (1 : Fin 4) = 0 ∧ win0_5.index t (2 : Fin 4) = t.val % 2 ∧ win0_5.index t (3 : Fin 4) = 0)
theorem idx6 : ∀ t : Fin cfg0.N, win0_6.index t (0 : Fin 4) = t.val / 2 ∧ win0_6.index t (1 : Fin 4) = 0 ∧ win0_6.index t (2 : Fin 4) = t.val % 2 ∧ win0_6.index t (3 : Fin 4) = 0 :=
  (by decide +kernel : ∀ t : Fin grid0.N, win0_6.index t (0 : Fin 4) = t.val / 2 ∧ win0_6.index t (1 : Fin 4) = 0 ∧ win0_6.index t (2 : Fin 4) = t.val % 2 ∧ win0_6.index t (3 : Fin 4) = 0)

/-- Element y of window 0's block at point t sits in the array at element y of block t. -/
theorem emb0 (t : Fin cfg0.N) (y : S1x1x384x1024.Idx) :
    (((cfg0.win 0).blk t).view.emb y : S8x1x768x1024.Idx) = Cert.SumByBlocks.blockIx (pt t) y := by
  obtain ⟨e0, e1, e2, e3⟩ := idx0 t
  funext a; apply Fin.ext
  match a with
  | ⟨0, _⟩ => show win0_0.index t (0 : Fin 4) * 1 + 1 * (y 0).val = t.val / 2; have hj : (y 0).val < 1 := (y 0).isLt; omega
  | ⟨1, _⟩ => show win0_0.index t (1 : Fin 4) * 1 + 1 * (y 1).val = 0; have hj : (y 1).val < 1 := (y 1).isLt; omega
  | ⟨2, _⟩ => show win0_0.index t (2 : Fin 4) * 384 + 1 * (y 2).val = 384 * (t.val % 2) + (y 2).val; omega
  | ⟨3, _⟩ => show win0_0.index t (3 : Fin 4) * 1024 + 1 * (y 3).val = (y 3).val; omega

/-- Element y of window 1's block at point t sits in the array at element y of block t. -/
theorem emb1 (t : Fin cfg0.N) (y : S1x1x384x1024.Idx) :
    (((cfg0.win 1).blk t).view.emb y : S8x1x768x1024.Idx) = Cert.SumByBlocks.blockIx (pt t) y := by
  obtain ⟨e0, e1, e2, e3⟩ := idx1 t
  funext a; apply Fin.ext
  match a with
  | ⟨0, _⟩ => show win0_1.index t (0 : Fin 4) * 1 + 1 * (y 0).val = t.val / 2; have hj : (y 0).val < 1 := (y 0).isLt; omega
  | ⟨1, _⟩ => show win0_1.index t (1 : Fin 4) * 1 + 1 * (y 1).val = 0; have hj : (y 1).val < 1 := (y 1).isLt; omega
  | ⟨2, _⟩ => show win0_1.index t (2 : Fin 4) * 384 + 1 * (y 2).val = 384 * (t.val % 2) + (y 2).val; omega
  | ⟨3, _⟩ => show win0_1.index t (3 : Fin 4) * 1024 + 1 * (y 3).val = (y 3).val; omega

/-- Element y of window 2's block at point t sits in the array at element y of block t. -/
theorem emb2 (t : Fin cfg0.N) (y : S1x1x384x1024.Idx) :
    (((cfg0.win 2).blk t).view.emb y : S8x1x768x1024.Idx) = Cert.SumByBlocks.blockIx (pt t) y := by
  obtain ⟨e0, e1, e2, e3⟩ := idx2 t
  funext a; apply Fin.ext
  match a with
  | ⟨0, _⟩ => show win0_2.index t (0 : Fin 4) * 1 + 1 * (y 0).val = t.val / 2; have hj : (y 0).val < 1 := (y 0).isLt; omega
  | ⟨1, _⟩ => show win0_2.index t (1 : Fin 4) * 1 + 1 * (y 1).val = 0; have hj : (y 1).val < 1 := (y 1).isLt; omega
  | ⟨2, _⟩ => show win0_2.index t (2 : Fin 4) * 384 + 1 * (y 2).val = 384 * (t.val % 2) + (y 2).val; omega
  | ⟨3, _⟩ => show win0_2.index t (3 : Fin 4) * 1024 + 1 * (y 3).val = (y 3).val; omega

/-- Element y of window 3's block at point t sits in the array at element y of block t. -/
theorem emb3 (t : Fin cfg0.N) (y : S1x1x384x1024.Idx) :
    (((cfg0.win 3).blk t).view.emb y : S8x1x768x1024.Idx) = Cert.SumByBlocks.blockIx (pt t) y := by
  obtain ⟨e0, e1, e2, e3⟩ := idx3 t
  funext a; apply Fin.ext
  match a with
  | ⟨0, _⟩ => show win0_3.index t (0 : Fin 4) * 1 + 1 * (y 0).val = t.val / 2; have hj : (y 0).val < 1 := (y 0).isLt; omega
  | ⟨1, _⟩ => show win0_3.index t (1 : Fin 4) * 1 + 1 * (y 1).val = 0; have hj : (y 1).val < 1 := (y 1).isLt; omega
  | ⟨2, _⟩ => show win0_3.index t (2 : Fin 4) * 384 + 1 * (y 2).val = 384 * (t.val % 2) + (y 2).val; omega
  | ⟨3, _⟩ => show win0_3.index t (3 : Fin 4) * 1024 + 1 * (y 3).val = (y 3).val; omega

/-- Element y of window 4's block at point t sits in the array at element y of block t. -/
theorem emb4 (t : Fin cfg0.N) (y : S1x1x384x1024.Idx) :
    (((cfg0.win 4).blk t).view.emb y : S8x1x768x1024.Idx) = Cert.SumByBlocks.blockIx (pt t) y := by
  obtain ⟨e0, e1, e2, e3⟩ := idx4 t
  funext a; apply Fin.ext
  match a with
  | ⟨0, _⟩ => show win0_4.index t (0 : Fin 4) * 1 + 1 * (y 0).val = t.val / 2; have hj : (y 0).val < 1 := (y 0).isLt; omega
  | ⟨1, _⟩ => show win0_4.index t (1 : Fin 4) * 1 + 1 * (y 1).val = 0; have hj : (y 1).val < 1 := (y 1).isLt; omega
  | ⟨2, _⟩ => show win0_4.index t (2 : Fin 4) * 384 + 1 * (y 2).val = 384 * (t.val % 2) + (y 2).val; omega
  | ⟨3, _⟩ => show win0_4.index t (3 : Fin 4) * 1024 + 1 * (y 3).val = (y 3).val; omega

/-- Element y of window 5's block at point t sits in the array at element y of block t. -/
theorem emb5 (t : Fin cfg0.N) (y : S1x1x384x1024.Idx) :
    (((cfg0.win 5).blk t).view.emb y : S8x1x768x1024.Idx) = Cert.SumByBlocks.blockIx (pt t) y := by
  obtain ⟨e0, e1, e2, e3⟩ := idx5 t
  funext a; apply Fin.ext
  match a with
  | ⟨0, _⟩ => show win0_5.index t (0 : Fin 4) * 1 + 1 * (y 0).val = t.val / 2; have hj : (y 0).val < 1 := (y 0).isLt; omega
  | ⟨1, _⟩ => show win0_5.index t (1 : Fin 4) * 1 + 1 * (y 1).val = 0; have hj : (y 1).val < 1 := (y 1).isLt; omega
  | ⟨2, _⟩ => show win0_5.index t (2 : Fin 4) * 384 + 1 * (y 2).val = 384 * (t.val % 2) + (y 2).val; omega
  | ⟨3, _⟩ => show win0_5.index t (3 : Fin 4) * 1024 + 1 * (y 3).val = (y 3).val; omega

/-- Element y of window 6's block at point t sits in the array at element y of block t. -/
theorem emb6 (t : Fin cfg0.N) (y : S1x1x384x1024.Idx) :
    (((cfg0.win 6).blk t).view.emb y : S8x1x768x1024.Idx) = Cert.SumByBlocks.blockIx (pt t) y := by
  obtain ⟨e0, e1, e2, e3⟩ := idx6 t
  funext a; apply Fin.ext
  match a with
  | ⟨0, _⟩ => show win0_6.index t (0 : Fin 4) * 1 + 1 * (y 0).val = t.val / 2; have hj : (y 0).val < 1 := (y 0).isLt; omega
  | ⟨1, _⟩ => show win0_6.index t (1 : Fin 4) * 1 + 1 * (y 1).val = 0; have hj : (y 1).val < 1 := (y 1).isLt; omega
  | ⟨2, _⟩ => show win0_6.index t (2 : Fin 4) * 384 + 1 * (y 2).val = 384 * (t.val % 2) + (y 2).val; omega
  | ⟨3, _⟩ => show win0_6.index t (3 : Fin 4) * 1024 + 1 * (y 3).val = (y 3).val; omega

/-- Block t of window 0's array, entry by entry. -/
theorem blk_gt (c : Dev nD) (t : Fin cfg0.N) (y : S1x1x384x1024.Idx) : gtB m c t y = gtA m c (Cert.SumByBlocks.blockIx (pt t) y) := by
  show V m c main_arg1 (((cfg0.win 0).blk t).view.emb y) = V m c main_arg1 _
  exact congrArg (V m c main_arg1) (emb0 t y)

/-- Block t of window 1's array, entry by entry. -/
theorem blk_iw (c : Dev nD) (t : Fin cfg0.N) (y : S1x1x384x1024.Idx) : iwB m c t y = iwA m c (Cert.SumByBlocks.blockIx (pt t) y) := by
  show V m c main_v41 (((cfg0.win 1).blk t).view.emb y) = V m c main_v41 _
  exact congrArg (V m c main_v41) (emb1 t y)

/-- Block t of window 2's array, entry by entry. -/
theorem blk_dil (c : Dev nD) (t : Fin cfg0.N) (y : S1x1x384x1024.Idx) : dilB m c t y = dilA m c (Cert.SumByBlocks.blockIx (pt t) y) := by
  show V m c main_v47 (((cfg0.win 2).blk t).view.emb y) = V m c main_v47 _
  exact congrArg (V m c main_v47) (emb2 t y)

/-- Block t of window 3's array, entry by entry. -/
theorem blk_wd (c : Dev nD) (t : Fin cfg0.N) (y : S1x1x384x1024.Idx) : wdB m c t y = wdA m c (Cert.SumByBlocks.blockIx (pt t) y) := by
  show V m c main_v53 (((cfg0.win 3).blk t).view.emb y) = V m c main_v53 _
  exact congrArg (V m c main_v53) (emb3 t y)

/-- Block t of window 4's array, entry by entry. -/
theorem blk_p (c : Dev nD) (t : Fin cfg0.N) (y : S1x1x384x1024.Idx) : pB m c t y = pA m c (Cert.SumByBlocks.blockIx (pt t) y) := by
  show V m c main_arg0 (((cfg0.win 4).blk t).view.emb y) = V m c main_arg0 _
  exact congrArg (V m c main_arg0) (emb4 t y)

end Cert.KernelIdeal.Fr

end
-- ==== Proof.KernelIdealArr5.lean ====
/-
  The threshold array after the sixteen write-backs: every point writes back block t of (d − g)·c₁ + g·c₂ of the
  input arrays, and the sixteen blocks cover the array, so the array ends holding that function entry by entry.
-/
import proofs.«120729_j19585050870000_1_alg».proof.Proof.KernelIdealArrays
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The threshold payload at an entry -/

/-- The threshold payload at entry y: (d − g)·c₁ + g·c₂ of the blocks' entries at y. -/
theorem pay5_at (x0 x8 : Vec F S1x1x384x1024 .f32) (y : S1x1x384x1024.Idx) :
    k0_pay5 x0 x8 y = FloatOps.addf (FloatOps.mulf (FloatOps.subf (x8 y) (x0 y)) (Scalar.ofBits .f32 0x3F333333#32)) (FloatOps.mulf (x0 y) (Scalar.ofBits .f32 0x3E4CCCCD#32)) := by
  unfold k0_pay5 k0_pay4
  simp only [shapeCast_self]
  rfl

/-! ## The threshold array -/

/-- An index of the array is in point t's block of window 5 iff each coordinate is in the block's range on its axis. -/
theorem mem_blk5 (t : Fin cfg0.N) (i : S8x1x768x1024.Idx) :
    i ∈ ((cfg0.win 5).blk t).view.set ↔ ∀ a : Fin 4, win0_5.index t a * S1x1x384x1024.size a ≤ (i a).val ∧ (i a).val < win0_5.index t a * S1x1x384x1024.size a + S1x1x384x1024.size a := by
  show i ∈ ((View.whole main_v54_0).slice (win0_5.rect t)).set ↔ _
  rw [View.set_slice_whole, Rect.mem_set_unit]
  exact Iff.rfl

/-- Every entry of the array lies in the block of the point 2·(its image) + (its row) / 384, which is written back. -/
theorem cover5 (i : S8x1x768x1024.Idx) : ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 768 := (i 2).isLt
  have hi3 : (i 3).val < 1024 := (i 3).isLt
  have hN : cfg0.N = 16 := N_0
  obtain ⟨t, ht⟩ : ∃ t : Fin cfg0.N, t.val = 2 * (i 0).val + (i 2).val / 384 := ⟨⟨2 * (i 0).val + (i 2).val / 384, by omega⟩, rfl⟩
  refine ⟨t, flush0_5 t, ?_⟩
  obtain ⟨e0, e1, e2, e3⟩ := idx5 t
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 384 ≤ (i 2).val ∧ (i 2).val < win0_5.index t (2 : Fin 4) * 384 + 384; omega
  | ⟨3, _⟩ => show win0_5.index t (3 : Fin 4) * 1024 ≤ (i 3).val ∧ (i 3).val < win0_5.index t (3 : Fin 4) * 1024 + 1024; omega

/-- What point t writes back to the threshold array is block t of (d − g)·c₁ + g·c₂ of the input arrays. -/
theorem flushed5_eq (c : Dev nD) (t : Fin cfg0.N) :
    (dats m 0 c).flushed 5 t = ((cfg0.win 5).blk t).view.read (Elt F) (thrArr (gtA m c) (dilA m c)) := by
  show (cfg0.win 5).cut (grid0.coords t) ((dats m 0 c).after 5 t) = _
  rw [after5, out5_eq]
  funext j
  show k0_pay5 (gtB m c t) (dilB m c t) j = thrArr (gtA m c) (dilA m c) (((cfg0.win 5).blk t).view.emb j)
  rw [emb5 t j]
  refine (pay5_at (gtB m c t) (dilB m c t) j).trans ?_
  rw [blk_gt m c t j, blk_dil m c t j]
  rfl

theorem final5 (c : Dev nD) : (dats m 0 c).arrAt 5 cfg0.N = thrArr (gtA m c) (dilA m c) :=
  (dats m 0 c).arrAt_eq_of_cover 5 (thrArr (gtA m c) (dilA m c)) (fun t _ => flushed5_eq m c t) cover5

end Cert.KernelIdeal.Fr

end
-- ==== Proof.KernelIdealArr6.lean ====
/-
  The weight array after the sixteen write-backs: every point writes back block t of (u·(d − g) + w) + 1 of the
  input arrays, and the sixteen blocks cover the array, so the array ends holding that function entry by entry.
-/
import proofs.«120729_j19585050870000_1_alg».proof.Proof.KernelIdealArrays
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The weight payload at an entry -/

/-- The weight payload at entry y: (u·(d − g) + w) + 1 of the blocks' entries at y. -/
theorem pay6_at (x0 x6 x8 x10 : Vec F S1x1x384x1024 .f32) (y : S1x1x384x1024.Idx) :
    k0_pay6 x0 x6 x8 x10 y = FloatOps.addf (FloatOps.addf (FloatOps.mulf (x10 y) (FloatOps.subf (x8 y) (x0 y))) (x6 y)) (Scalar.ofBits .f32 0x3F800000#32) := by
  unfold k0_pay6 k0_pay4 k0_pay3
  simp only [shapeCast_self]
  rfl

/-! ## The weight array -/

/-- An index of the array is in point t's block of window 6 iff each coordinate is in the block's range on its axis. -/
theorem mem_blk6 (t : Fin cfg0.N) (i : S8x1x768x1024.Idx) :
    i ∈ ((cfg0.win 6).blk t).view.set ↔ ∀ a : Fin 4, win0_6.index t a * S1x1x384x1024.size a ≤ (i a).val ∧ (i a).val < win0_6.index t a * S1x1x384x1024.size a + S1x1x384x1024.size a := by
  show i ∈ ((View.whole main_v54_1).slice (win0_6.rect t)).set ↔ _
  rw [View.set_slice_whole, Rect.mem_set_unit]
  exact Iff.rfl

/-- Every entry of the array lies in the block of the point 2·(its image) + (its row) / 384, which is written back. -/
theorem cover6 (i : S8x1x768x1024.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 768 := (i 2).isLt
  have hi3 : (i 3).val < 1024 := (i 3).isLt
  have hN : cfg0.N = 16 := N_0
  obtain ⟨t, ht⟩ : ∃ t : Fin cfg0.N, t.val = 2 * (i 0).val + (i 2).val / 384 := ⟨⟨2 * (i 0).val + (i 2).val / 384, by omega⟩, rfl⟩
  refine ⟨t, flush0_6 t, ?_⟩
  obtain ⟨e0, e1, e2, e3⟩ := idx6 t
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 384 ≤ (i 2).val ∧ (i 2).val < win0_6.index t (2 : Fin 4) * 384 + 384; omega
  | ⟨3, _⟩ => show win0_6.index t (3 : Fin 4) * 1024 ≤ (i 3).val ∧ (i 3).val < win0_6.index t (3 : Fin 4) * 1024 + 1024; omega

/-- What point t writes back to the weight array is block t of (u·(d − g) + w) + 1 of the input arrays. -/
theorem flushed6_eq (c : Dev nD) (t : Fin cfg0.N) :
    (dats m 0 c).flushed 6 t = ((cfg0.win 6).blk t).view.read (Elt F) (allwArr (gtA m c) (iwA m c) (dilA m c) (wdA m c)) := by
  show (cfg0.win 6).cut (grid0.coords t) ((dats m 0 c).after 6 t) = _
  rw [after6, out6_eq]
  funext j
  show k0_pay6 (gtB m c t) (iwB m c t) (dilB m c t) (wdB m c t) j = allwArr (gtA m c) (iwA m c) (dilA m c) (wdA m c) (((cfg0.win 6).blk t).view.emb j)
  rw [emb6 t j]
  refine (pay6_at (gtB m c t) (iwB m c t) (dilB m c t) (wdB m c t) j).trans ?_
  rw [blk_gt m c t j, blk_iw m c t j, blk_dil m c t j, blk_wd m c t j]
  rfl

theorem final6 (c : Dev nD) : (dats m 0 c).arrAt 6 cfg0.N = allwArr (gtA m c) (iwA m c) (dilA m c) (wdA m c) :=
  (dats m 0 c).arrAt_eq_of_cover 6 (allwArr (gtA m c) (iwA m c) (dilA m c) (wdA m c)) (fun t _ => flushed6_eq m c t) cover6

end Cert.KernelIdeal.Fr

end
-- ==== Proof.KernelIdealArr7.lean ====
/-
  The loss array and the host lines after the region.  The loss window's one block is the whole [1,1,1,1] array and is
  written back at the last point only, with what the accumulator holds after that point; the three host lines after the
  region reshape that array to a scalar and divide it by 3072.
-/
import proofs.«120729_j19585050870000_1_alg».proof.Proof.KernelIdealArrays
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The loss array -/

/-- The loss window's one block sits at block index (0, 0, 0, 0) at every point. -/
theorem idx7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, win0_7.index t (0 : Fin 4) = 0 ∧ win0_7.index t (1 : Fin 4) = 0 ∧ win0_7.index t (2 : Fin 4) = 0 ∧ win0_7.index t (3 : Fin 4) = 0)

/-- An index of the loss array is in point t's block iff each coordinate is in the block's range on its axis. -/
theorem mem_blk7 (t : Fin cfg0.N) (i : S1x1x1x1.Idx) :
    i ∈ ((cfg0.win 7).blk t).view.set ↔ ∀ a : Fin 4, win0_7.index t a * S1x1x1x1.size a ≤ (i a).val ∧ (i a).val < win0_7.index t a * S1x1x1x1.size a + S1x1x1x1.size a := by
  show i ∈ ((View.whole main_v54_2).slice (win0_7.rect t)).set ↔ _
  rw [View.set_slice_whole, Rect.mem_set_unit]
  exact Iff.rfl

theorem lt15 : 15 < cfg0.N := by rw [show cfg0.N = 16 from N_0]; norm_num

/-- The one entry of the loss array lies in the last point's block, which is written back. -/
theorem cover7 (i : S1x1x1x1.Idx) : ∃ t : Fin cfg0.N, (cfg0.win 7).flush t = true ∧ i ∈ ((cfg0.win 7).blk t).view.set := by
  have hi0 : (i 0).val < 1 := (i 0).isLt
  have hi1 : (i 1).val < 1 := (i 1).isLt
  have hi2 : (i 2).val < 1 := (i 2).isLt
  have hi3 : (i 3).val < 1 := (i 3).isLt
  refine ⟨⟨15, lt15⟩, (flush0_7 ⟨15, lt15⟩).mpr rfl, ?_⟩
  obtain ⟨e0, e1, e2, e3⟩ := idx7 ⟨15, lt15⟩
  rw [mem_blk7]
  intro a
  match a with
  | ⟨0, _⟩ => show win0_7.index ⟨15, lt15⟩ (0 : Fin 4) * 1 ≤ (i 0).val ∧ (i 0).val < win0_7.index ⟨15, lt15⟩ (0 : Fin 4) * 1 + 1; omega
  | ⟨1, _⟩ => show win0_7.index ⟨15, lt15⟩ (1 : Fin 4) * 1 ≤ (i 1).val ∧ (i 1).val < win0_7.index ⟨15, lt15⟩ (1 : Fin 4) * 1 + 1; omega
  | ⟨2, _⟩ => show win0_7.index ⟨15, lt15⟩ (2 : Fin 4) * 1 ≤ (i 2).val ∧ (i 2).val < win0_7.index ⟨15, lt15⟩ (2 : Fin 4) * 1 + 1; omega
  | ⟨3, _⟩ => show win0_7.index ⟨15, lt15⟩ (3 : Fin 4) * 1 ≤ (i 3).val ∧ (i 3).val < win0_7.index ⟨15, lt15⟩ (3 : Fin 4) * 1 + 1; omega

/-- The only write-back of the loss array, at the last point, writes what the accumulator holds after that point. -/
theorem flushed7_eq (c : Dev nD) (t : Fin cfg0.N) (hf : (cfg0.win 7).flush t = true) :
    (dats m 0 c).flushed 7 t = ((cfg0.win 7).blk t).view.read (Elt F) (accAt m c 15 lt15) := by
  have hN : cfg0.N = 16 := N_0
  have h1 : t.val = 15 := by have := (flush0_7 t).mp hf; have := t.isLt; omega
  obtain rfl : t = ⟨15, lt15⟩ := Fin.ext h1
  show (cfg0.win 7).cut (grid0.coords ⟨15, lt15⟩) ((dats m 0 c).after 7 ⟨15, lt15⟩) = _
  rw [after7]
  show (cfg0.win 7).cut (grid0.coords ⟨15, lt15⟩) (outsAt m c 15 lt15).2.2.1 = _
  rw [loss_last m c lt15]
  obtain ⟨e0, e1, e2, e3⟩ := idx7 ⟨15, lt15⟩
  funext j
  show accAt m c 15 lt15 j = accAt m c 15 lt15 (((cfg0.win 7).blk ⟨15, lt15⟩).view.emb j)
  refine congrArg (accAt m c 15 lt15) ?_
  funext a; apply Fin.ext
  match a with
  | ⟨0, _⟩ => show (j 0).val = win0_7.index ⟨15, lt15⟩ (0 : Fin 4) * 1 + 1 * (j 0).val; omega
  | ⟨1, _⟩ => show (j 1).val = win0_7.index ⟨15, lt15⟩ (1 : Fin 4) * 1 + 1 * (j 1).val; omega
  | ⟨2, _⟩ => show (j 2).val = win0_7.index ⟨15, lt15⟩ (2 : Fin 4) * 1 + 1 * (j 2).val; omega
  | ⟨3, _⟩ => show (j 3).val = win0_7.index ⟨15, lt15⟩ (3 : Fin 4) * 1 + 1 * (j 3).val; omega

theorem final7 (c : Dev nD) : (dats m 0 c).arrAt 7 cfg0.N = accAt m c 15 (by rw [show cfg0.N = 16 from N_0]; norm_num) :=
  (dats m 0 c).arrAt_eq_of_cover 7 (accAt m c 15 lt15) (flushed7_eq m c) cover7

/-! ## The host lines after the region -/

/-- the three host lines after the region: the loss array reshaped to a scalar and divided by 3072 -/
theorem tail_loss (c : Dev nD) : Pipeline.afterTail₀ cfgs (dats m) 0 (V0 m) [hostOps1] c main_v56 = Host.divf (shapeCast S_ ((dats m 0 c).arrAt 7 cfg0.N) shapeCasts_S1x1x1x1_S_) (constant S_ .f32 0x45400000#32) := by
  unfold Pipeline.afterTail₀
  show StableHlo.after hostOps1 _ (Proc.devRef .tc main_v56) = _
  after_results
  have e : Pipeline.withArrays (cfgs 0).spec c (V0 m c) (fun w => (dats m 0 c).arrAt w (cfgs 0).N) (Proc.devRef .tc main_v54_2) = (dats m 0 c).arrAt 7 cfg0.N :=
    Pipeline.withArrays_arr spec0 launch0.win.arr_inj c _ _ 7
  rw [e]
  rfl

end Cert.KernelIdeal.Fr

end
-- ==== Proof.RefStages.lean ====
/-
  The reference program's shared stages, as plain functions of the argument arrays: one `let` per
  operation of @main, in @main's order, under the operation's own buffer name and type.
-/
import proofs.«120729_j19585050870000_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- the last stretch of the instance-weight image (operations %30 … %41 of @main): the three wrapped
    index arrays spread over the 8×384×15×11 box grid and joined into index vectors, the table spread
    the same way, and the scatter into the zero image -/
def instW_part3 (main_cst : FVec F S15x11 .f32) (main_v14 : FVec F S8x1x768x1024 .f32) (main_v19 : IVec S8x1x1x1 32)
    (main_v24 : IVec S8x384x15x1 32) (main_v29 : IVec S8x384x1x11 32) : FVec F S8x1x768x1024 .f32 :=
  let main_v30 : IVec S8x384x15x11 32 := broadcastInDim S8x384x15x11 ![0, 1, 2, 3] bcast_S8x1x1x1_S8x384x15x11_0_1_2_3 main_v19
  let main_c_6 : IVec S_ 32 := constantI S_ 32 0#32
  let main_v31 : IVec S8x384x15x11 32 := broadcastInDim S8x384x15x11 ![] bcast_S_S8x384x15x11 main_c_6
  let main_v32 : IVec S8x384x15x11 32 := broadcastInDim S8x384x15x11 ![0, 1, 2, 3] bcast_S8x384x15x1_S8x384x15x11_0_1_2_3 main_v24
  let main_v33 : IVec S8x384x15x11 32 := broadcastInDim S8x384x15x11 ![0, 1, 2, 3] bcast_S8x384x1x11_S8x384x15x11_0_1_2_3 main_v29
  let main_v34 : IVec S8x384x15x11 32 := id main_v31
  let main_v35 : IVec S8x384x15x11x1 32 := broadcastInDim S8x384x15x11x1 ![0, 1, 2, 3] bcast_S8x384x15x11_S8x384x15x11x1_0_1_2_3 main_v30
  let main_v36 : IVec S8x384x15x11x1 32 := broadcastInDim S8x384x15x11x1 ![0, 1, 2, 3] bcast_S8x384x15x11_S8x384x15x11x1_0_1_2_3 main_v34
  let main_v37 : IVec S8x384x15x11x1 32 := broadcastInDim S8x384x15x11x1 ![0, 1, 2, 3] bcast_S8x384x15x11_S8x384x15x11x1_0_1_2_3 main_v32
  let main_v38 : IVec S8x384x15x11x1 32 := broadcastInDim S8x384x15x11x1 ![0, 1, 2, 3] bcast_S8x384x15x11_S8x384x15x11x1_0_1_2_3 main_v33
  let main_v39 : IVec S8x384x15x11x4 32 := concatenate S8x384x15x11x4 4 [⟨S8x384x15x11x1, main_v35⟩, ⟨S8x384x15x11x1, main_v36⟩, ⟨S8x384x15x11x1, main_v37⟩, ⟨S8x384x15x11x1, main_v38⟩] concatenates_S8x384x15x11x1_S8x384x15x11x1_S8x384x15x11x1_S8x384x15x11x1_S8x384x15x11x4_d4
  let main_v40 : FVec F S8x384x15x11 .f32 := broadcastInDim S8x384x15x11 ![2, 3] bcast_S15x11_S8x384x15x11_2_3 main_cst
  let main_v41 : FVec F S8x1x768x1024 .f32 := Host.scatter scatter_S8x1x768x1024_S8x384x15x11x4_S8x384x15x11_n_0123_0123_4 (fun _ b => b) main_v14 main_v39 main_v40
  main_v41

/-- the row and column indices wrapped into range (operations %c_2 … %29 of @main), then the last stretch -/
def instW_part2 (main_cst : FVec F S15x11 .f32) (main_v14 : FVec F S8x1x768x1024 .f32) (main_v19 : IVec S8x1x1x1 32)
    (main_v5 : IVec S8x384x15x1 32) (main_v11 : IVec S8x384x1x11 32) : FVec F S8x1x768x1024 .f32 :=
  let main_c_2 : IVec S_ 32 := constantI S_ 32 0#32
  let main_v20 : IVec S8x384x15x1 32 := broadcastInDim S8x384x15x1 ![] bcast_S_S8x384x15x1 main_c_2
  let main_v21 : IVec S8x384x15x1 1 := cmpi .slt main_v5 main_v20
  let main_c_3 : IVec S_ 32 := constantI S_ 32 768#32
  let main_v22 : IVec S8x384x15x1 32 := broadcastInDim S8x384x15x1 ![] bcast_S_S8x384x15x1 main_c_3
  let main_v23 : IVec S8x384x15x1 32 := addi main_v5 main_v22
  let main_v24 : IVec S8x384x15x1 32 := select main_v21 main_v23 main_v5
  let main_c_4 : IVec S_ 32 := constantI S_ 32 0#32
  let main_v25 : IVec S8x384x1x11 32 := broadcastInDim S8x384x1x11 ![] bcast_S_S8x384x1x11 main_c_4
  let main_v26 : IVec S8x384x1x11 1 := cmpi .slt main_v11 main_v25
  let main_c_5 : IVec S_ 32 := constantI S_ 32 1024#32
  let main_v27 : IVec S8x384x1x11 32 := broadcastInDim S8x384x1x11 ![] bcast_S_S8x384x1x11 main_c_5
  let main_v28 : IVec S8x384x1x11 32 := addi main_v11 main_v27
  let main_v29 : IVec S8x384x1x11 32 := select main_v26 main_v28 main_v11
  instW_part3 main_cst main_v14 main_v19 main_v24 main_v29

/-- the batch index, the zero image and the batch index wrapped into range (operations %12 … %19 of @main),
    then the rest -/
def instW_part1 (main_cst : FVec F S15x11 .f32) (main_v5 : IVec S8x384x15x1 32) (main_v11 : IVec S8x384x1x11 32) :
    FVec F S8x1x768x1024 .f32 :=
  let main_v12 : IVec S8 32 := iotaInDim S8 32 0
  let main_v13 : IVec S8x1x1x1 32 := broadcastInDim S8x1x1x1 ![0] bcast_S8_S8x1x1x1_0 main_v12
  let main_cst_0 : FVec F S_ .f32 := constant S_ .f32 0x00000000#32
  let main_v14 : FVec F S8x1x768x1024 .f32 := broadcastInDim S8x1x768x1024 ![] bcast_S_S8x1x768x1024 main_cst_0
  let main_c : IVec S_ 32 := constantI S_ 32 0#32
  let main_v15 : IVec S8x1x1x1 32 := broadcastInDim S8x1x1x1 ![] bcast_S_S8x1x1x1 main_c
  let main_v16 : IVec S8x1x1x1 1 := cmpi .slt main_v13 main_v15
  let main_c_1 : IVec S_ 32 := constantI S_ 32 8#32
  let main_v17 : IVec S8x1x1x1 32 := broadcastInDim S8x1x1x1 ![] bcast_S_S8x1x1x1 main_c_1
  let main_v18 : IVec S8x1x1x1 32 := addi main_v13 main_v17
  let main_v19 : IVec S8x1x1x1 32 := select main_v16 main_v18 main_v13
  instW_part2 main_cst main_v14 main_v19 main_v5 main_v11

/-- the instance-weight image: zeros with the 15×11 Gaussian table written at each box corner
    (operations %cst … %41 of @main; the chain is cut after %11, %19 and %29 into `instW_part1 … 3`, each
    taking the names live at its head: unfolding them gives back the one chain) -/
def instW (a2 a3 : IVec S8x384 32) : FVec F S8x1x768x1024 .f32 :=
  let main_cst : FVec F S15x11 .f32 := fun i => FloatOps.ofBits .f32 (lit0 (S15x11.rowMajor i))
  let main_v0 : IVec S8x384x1x1 32 := broadcastInDim S8x384x1x1 ![0, 1] bcast_S8x384_S8x384x1x1_0_1 a2
  let main_v1 : IVec S15 32 := iotaInDim S15 32 0
  let main_v2 : IVec S1x1x15x1 32 := broadcastInDim S1x1x15x1 ![2] bcast_S15_S1x1x15x1_2 main_v1
  let main_v3 : IVec S8x384x15x1 32 := broadcastInDim S8x384x15x1 ![0, 1, 2, 3] bcast_S8x384x1x1_S8x384x15x1_0_1_2_3 main_v0
  let main_v4 : IVec S8x384x15x1 32 := broadcastInDim S8x384x15x1 ![0, 1, 2, 3] bcast_S1x1x15x1_S8x384x15x1_0_1_2_3 main_v2
  let main_v5 : IVec S8x384x15x1 32 := addi main_v3 main_v4
  let main_v6 : IVec S8x384x1x1 32 := broadcastInDim S8x384x1x1 ![0, 1] bcast_S8x384_S8x384x1x1_0_1 a3
  let main_v7 : IVec S11 32 := iotaInDim S11 32 0
  let main_v8 : IVec S1x1x1x11 32 := broadcastInDim S1x1x1x11 ![3] bcast_S11_S1x1x1x11_3 main_v7
  let main_v9 : IVec S8x384x1x11 32 := broadcastInDim S8x384x1x11 ![0, 1, 2, 3] bcast_S8x384x1x1_S8x384x1x11_0_1_2_3 main_v6
  let main_v10 : IVec S8x384x1x11 32 := broadcastInDim S8x384x1x11 ![0, 1, 2, 3] bcast_S1x1x1x11_S8x384x1x11_0_1_2_3 main_v8
  let main_v11 : IVec S8x384x1x11 32 := addi main_v9 main_v10
  instW_part1 main_cst main_v5 main_v11

/-- 9×9 stride-2 max-pool (−inf padding) followed by a nearest-neighbour 2× upsample
    (operations %cst_7, %42 … %47 of @main, with `x` in place of %arg1) -/
def poolUp (x : FVec F S8x1x768x1024 .f32) : FVec F S8x1x768x1024 .f32 :=
  let main_cst_7 : FVec F S_ .f32 := constant S_ .f32 0xFF800000#32
  let main_v42 : FVec F S_ .f32 := broadcastInDim S_ ![] bcast_S_S_ main_cst_7
  let main_v43 : FVec F S8x1x384x512 .f32 := Host.reduceWindow FloatOps.maximumf ![1, 1, 9, 9] ![1, 1, 2, 2] ![0, 0, 4, 4] ![0, 0, 4, 4] x main_v42 reduceWindows_S8x1x768x1024_S8x1x384x512_w1s1p0_0_w1s1p0_0_w9s2p4_4_w9s2p4_4 h_S_
  let main_v44 : FVec F S8x1x384x2x512 .f32 := broadcastInDim S8x1x384x2x512 ![0, 1, 2, 4] bcast_S8x1x384x512_S8x1x384x2x512_0_1_2_4 main_v43
  let main_v45 : FVec F S8x1x768x512 .f32 := shapeCast S8x1x768x512 main_v44 shapeCasts_S8x1x384x2x512_S8x1x768x512
  let main_v46 : FVec F S8x1x768x512x2 .f32 := broadcastInDim S8x1x768x512x2 ![0, 1, 2, 3] bcast_S8x1x768x512_S8x1x768x512x2_0_1_2_3 main_v45
  let main_v47 : FVec F S8x1x768x1024 .f32 := shapeCast S8x1x768x1024 main_v46 shapeCasts_S8x1x768x512x2_S8x1x768x1024
  main_v47

/-- the loss: the mean over 3072 of |iw · (a0 − a1)| summed over the whole image (operations %62 … %66) -/
def lossOf (a0 a1 iw : FVec F S8x1x768x1024 .f32) : FVec F S_ .f32 :=
  Host.divf (Host.reduceAdd (Host.absf (mulf iw (subf a0 a1))) (constant S_ .f32 0x00000000#32) reducesTo_S8x1x768x1024_S_d0_1_2_3 h_S_) (constant S_ .f32 0x45400000#32)

/-- the threshold image: 0.7 · (dil − a1) + 0.2 · a1 (operations %48, %56 … %60) -/
def thrOf (a1 dil : FVec F S8x1x768x1024 .f32) : FVec F S8x1x768x1024 .f32 :=
  addf (mulf (subf dil a1) (broadcastInDim S8x1x768x1024 ![] bcast_S_S8x1x768x1024 (constant S_ .f32 0x3F333333#32))) (mulf a1 (broadcastInDim S8x1x768x1024 ![] bcast_S_S8x1x768x1024 (constant S_ .f32 0x3E4CCCCD#32)))

/-- the weight image: wdil · (dil − a1) + iw + 1 (operations %55, %61, %67, %68) -/
def allwOf (a1 dil wdil iw : FVec F S8x1x768x1024 .f32) : FVec F S8x1x768x1024 .f32 :=
  addf (addf (mulf wdil (subf dil a1)) iw) (broadcastInDim S8x1x768x1024 ![] bcast_S_S8x1x768x1024 (constant S_ .f32 0x3F800000#32))

end Cert.ReferenceIdeal.Hand

end
-- ==== Proof.KernelIdealHostVals.lean ====
/-
  What the region finds in its three computed input arrays, as functions of the arguments.  The 65 host lines before the
  region are, operation for operation, the first lines of the reference program: the instance-weight image w (the
  Gaussian table scattered at the box corners), the dilated mask d (9×9 stride-2 max-pool of g, upsampled 2×) and the
  dilated weight u (the same pooling of w).  So the entry contents of those arrays are the reference's own stage
  functions of the argument arrays.
-/
import proofs.«120729_j19585050870000_1_alg».proof.Proof.KernelIdealKit
import proofs.«120729_j19585050870000_1_alg».proof.Proof.RefStages

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.ReferenceIdeal.Hand (instW poolUp)

set_option maxHeartbeats 4000000 in
/-- The dilated mask at the region's entry is the pooled and upsampled g. -/
theorem V_dil (c : Dev nD) :
    V m c main_v47 = poolUp (F := F) (m ((c : Thread nD τ).loc main_arg1)) := by
  dsimp only [V, V0]
  simp only [hostOps0, List.flatten_cons, List.flatten_nil, List.append_nil]
  after_results
  rfl

set_option maxHeartbeats 40000000 in
/-- The instance-weight image at the region's entry. -/
theorem V_iw (c : Dev nD) :
    V m c main_v41 = instW (F := F) (m ((c : Thread nD τ).loc main_arg2)) (m ((c : Thread nD τ).loc main_arg3)) := by
  dsimp only [V, V0]
  simp only [hostOps0, List.flatten_cons, List.flatten_nil, List.append_nil]
  after_results
  rfl

set_option maxHeartbeats 40000000 in
/-- The dilated weight at the region's entry is the pooled and upsampled instance weight. -/
theorem V_wd (c : Dev nD) :
    V m c main_v53 = poolUp (F := F) (instW (F := F) (m ((c : Thread nD τ).loc main_arg2)) (m ((c : Thread nD τ).loc main_arg3))) := by
  dsimp only [V, V0]
  simp only [hostOps0, List.flatten_cons, List.flatten_nil, List.append_nil]
  after_results
  rfl

end Cert.KernelIdeal.Fr

end
-- ==== Proof.KernelIdealPosts.lean ====
/-
  The run of the fused kernel's program read at the buffers the claims speak of.  The two staged arguments (g in window 0,
  p in window 4) and the dilated mask (window 2) are inputs of the pipeline and end at their entry contents; the two index
  arguments bypass the region and the host lines after it; the threshold and weight arrays are what the sixteen
  write-backs leave; the scalar loss is what the three host lines after the region compute from the loss array.
-/
import proofs.«120729_j19585050870000_1_alg».proof.Proof.KernelIdealFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 2 bypasses the region and none of the three host lines after it writes it: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [tail_keeps_arg2,
    Pipeline.withArrays_of_ne _ c (V0 m c) _ main_arg2 (by exact (by decide : ∀ w, Pipeline.arrRef spec0 w ≠ main_arg2))]
  exact V_main_arg2 m c

/-- Argument 3 bypasses the region and none of the three host lines after it writes it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [tail_keeps_arg3,
    Pipeline.withArrays_of_ne _ c (V0 m c) _ main_arg3 (by exact (by decide : ∀ w, Pipeline.arrRef spec0 w ≠ main_arg3))]
  exact V_main_arg3 m c

/-- The frame: every weakly fair execution of @main terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (((dats m 0 c).arrAt_in 4 rfl _).trans ((A_eq m c 4).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

/-- The run with every result buffer named. -/
theorem run_named : θ_run defs (onTc (τ := τ) (main (F := F))) ⟨m, fun _ => 0, ρ⟩ (fun r => ∀ c : Dev nD,
      r.2.mem ((c.tc : Thread nD τ).loc main_v56) = Pipeline.afterTail₀ cfgs (dats m) 0 (V0 m) [hostOps1] c main_v56
      ∧ r.2.mem ((c.tc : Thread nD τ).loc main_v47) = V m c main_v47
      ∧ r.2.mem ((c.tc : Thread nD τ).loc main_v54_0) = (dats m 0 c).arrAt 5 cfg0.N
      ∧ r.2.mem ((c.tc : Thread nD τ).loc main_v54_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v56 (Pipeline.mem_restRefs_of main_v56 (by decide) (by decide)),
     ((h c).1 2).trans (((dats m 0 c).arrAt_in 2 rfl _).trans (A_eq m c 2)),
     (h c).1 5,
     (h c).1 6,
     ((h c).1 4).trans (((dats m 0 c).arrAt_in 4 rfl _).trans ((A_eq m c 4).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Fr

end
-- ==== Proof.LossSum.lean ====
/-
  The loss as one sum.  Reading floats as extended reals, the accumulator's update at a grid point adds to its previous
  contents the sum over the point's block of |w · (p − g)|; starting from 0 at the first point, after the sixteenth point
  it holds the sum of the sixteen blocks' sums, and the blocks partition the [8,1,768,1024] array, so that is the sum
  over the whole array — which is what the reference's single reduction computes (its initial value is 0).  Only the
  commutativity and associativity of + on the extended reals are used.
-/
import proofs.«120729_j19585050870000_1_alg».proof.Proof.Gen.KernelIdeal.Skeleton
import proofs.«120729_j19585050870000_1_alg».proof.Proof.SumByBlocks
import Idealize.ShloMosaic.PureOps.Ideal.Laws
import Idealize.ShloMosaic.Lib.Pipeline.Value
import Idealize.ShloMosaic.Lib.ValueIdx
import Mathlib.Algebra.BigOperators.Fin

noncomputable section

namespace Cert.KernelIdeal.LossSum

open Cert.KernelIdeal Cert.KernelIdeal.Gen Idealize.ShloMosaic Idealize.ShloMosaic.ValueIdx
open scoped BigOperators

/-- |w · (p − g)| of three extended reals. -/
def term (g w p : Ideal .f32) : Ideal .f32 := FloatOps.absf (FloatOps.mulf w (FloatOps.subf p g))

theorem ones_S1x1 : ∀ b, S1x1.size b = 1 := fun b => by fin_cases b <;> rfl

/-- The accumulator's update at the extended reals: previous contents plus the block's sum of |w · (p − g)|. -/
theorem pay1_at (x0 : Vec Ideal S1x1x384x1024 .f32) (x7 : FVec Ideal S1x1x384x1024 .f32) (x12 : Vec Ideal S1x1x384x1024 .f32)
    (x30 : Vec Ideal S1x1x1x1 .f32) (j : S1x1x1x1.Idx) :
    k0_pay1 (F := Ideal) x0 x7 x12 x30 j = x30 j + ∑ y : S1x1x384x1024.Idx, term (x0 y) (x7 y) (x12 y) := by
  unfold k0_pay1
  rw [shapeCast_self]
  show FloatOps.addf (x30 j) (multiReduction .add [2, 3] S1x1 (absf (mulf x7 (subf x12 x0))) 0x00000000#32 reduces_S1x1x384x1024_S1x1 (.inl rfl) rfl
      (Shape.reshapeEquiv shapeCasts_S1x1_S1x1x1x1 j)) = _
  refine congrArg (fun z => x30 j + z) ?_
  refine (Ideal.multiReduction_add_total (absf (mulf x7 (subf x12 x0))) 0x00000000#32 reduces_S1x1x384x1024_S1x1 ones_S1x1 (.inl rfl) rfl _).trans ?_
  rfl

/-- The zero the accumulator is reset to. -/
theorem pay2_at (j : S1x1x1x1.Idx) : k0_pay2 (F := Ideal) j = 0 := by
  unfold k0_pay2
  rw [shapeCast_self]
  show Ideal.ofBits .f32 0x00000000#32 = 0
  exact Ideal.ofBits_zero_f32

/-- A shape cast to the same shape changes nothing. -/
theorem pay3_eq {F : FTy → Type} [FloatOps F] (x6 : Vec F S1x1x384x1024 .f32) : k0_pay3 x6 = x6 := by
  unfold k0_pay3
  exact shapeCast_self _ _

/-! ## Sixteen blocks -/

open Cert.SumByBlocks in
/-- Starting from 0 + (block 0's sum) and adding block (n + 1)'s sum at step n + 1, the accumulator after the sixteenth
    step holds the sum of |w · (p − g)| over the whole array: the blocks partition the array. -/
theorem total (g w p : FVec Ideal S8x1x768x1024 .f32)
    (gB wB pB : Fin 16 → Vec Ideal S1x1x384x1024 .f32)
    (hg : ∀ t y, gB t y = g (blockIx t y)) (hw : ∀ t y, wB t y = w (blockIx t y)) (hp : ∀ t y, pB t y = p (blockIx t y))
    (acc : (n : ℕ) → n < 16 → Vec Ideal S1x1x1x1 .f32)
    (h0 : acc 0 (by norm_num) = k0_pay1 (F := Ideal) (gB 0) (k0_pay3 (wB 0)) (pB 0) (k0_pay2 (F := Ideal)))
    (hs : ∀ n (hn : n + 1 < 16), acc (n + 1) hn
      = k0_pay1 (F := Ideal) (gB ⟨n + 1, hn⟩) (k0_pay3 (wB ⟨n + 1, hn⟩)) (pB ⟨n + 1, hn⟩) (acc n (Nat.lt_of_succ_lt hn)))
    (j : S1x1x1x1.Idx) :
    acc 15 (by norm_num) j = ∑ i : S8x1x768x1024.Idx, term (g i) (w i) (p i) := by
  -- block k's sum (zero past the last block)
  let s : ℕ → Ideal .f32 := fun k =>
    if h : k < 16 then ∑ y : S1x1x384x1024.Idx, term (g (blockIx ⟨k, h⟩ y)) (w (blockIx ⟨k, h⟩ y)) (p (blockIx ⟨k, h⟩ y)) else 0
  have hblock : ∀ (k : ℕ) (h : k < 16),
      ∑ y : S1x1x384x1024.Idx, term (gB ⟨k, h⟩ y) (wB ⟨k, h⟩ y) (pB ⟨k, h⟩ y) = s k := by
    intro k h
    show _ = dite _ _ _
    rw [dif_pos h]
    exact Finset.sum_congr rfl fun y _ => by rw [hg, hw, hp]
  have hacc : ∀ (n : ℕ) (hn : n < 16), acc n hn j = ∑ k : Fin (n + 1), s k.val := by
    intro n
    induction n with
    | zero =>
      intro hn
      rw [h0, pay1_at, pay3_eq, pay2_at, zero_add, Fin.sum_univ_one]
      exact hblock 0 hn
    | succ n ih =>
      intro hn
      rw [hs n hn, pay1_at, pay3_eq, ih (Nat.lt_of_succ_lt hn), Fin.sum_univ_castSucc (n := n + 1)]
      refine congrArg (fun z => _ + z) ?_
      exact hblock (n + 1) hn
  rw [hacc 15 (by norm_num)]
  refine Eq.trans ?_ (sum_by_blocks (fun i => term (g i) (w i) (p i))).symm
  refine Finset.sum_congr rfl fun t _ => ?_
  show dite _ _ _ = _
  rw [dif_pos t.isLt]

/-! ## The reference's single reduction -/

/-- The host's sum of |w · (p − g)| over every axis, from the initial value 0, is the same sum. -/
theorem ref_sum (h' : S8x1x768x1024.ReducesTo [0, 1, 2, 3] S_) (hS : 0 < S_.numel)
    (g w p : FVec Ideal S8x1x768x1024 .f32) (j : S_.Idx) :
    Host.reduceAdd (F := Ideal) (Host.absf (mulf w (subf p g))) (constant (F := Ideal) S_ .f32 0x00000000#32) h' hS j
      = ∑ i : S8x1x768x1024.Idx, term (g i) (w i) (p i) := by
  unfold Host.reduceAdd
  show Ideal.hostReduceAdd h' (Host.absf (mulf w (subf p g))) (Ideal.ofBits .f32 0x00000000#32) j = _
  rw [Ideal.hostReduceAdd_total h' (fun b => b.elim0), Ideal.ofBits_zero_f32, zero_add]
  rfl

end Cert.KernelIdeal.LossSum

end
-- ==== Proof.KernelIdealFinal.lean ====
/-
  The fused kernel's program ends with the reference's values.  Entry by entry the threshold array is
  (d − g)·c₁ + g·c₂ and the weight array (u·(d − g) + w) + 1, which are the reference's own expressions once d, u, w are read
  as the reference's stage functions of the arguments; and the scalar loss is the accumulated block sums divided by 3072,
  which over the extended reals is the reference's single sum divided by 3072.
-/
import proofs.«120729_j19585050870000_1_alg».proof.Proof.KernelIdealArr5
import proofs.«120729_j19585050870000_1_alg».proof.Proof.KernelIdealArr6
import proofs.«120729_j19585050870000_1_alg».proof.Proof.KernelIdealArr7
import proofs.«120729_j19585050870000_1_alg».proof.Proof.KernelIdealHostVals
import proofs.«120729_j19585050870000_1_alg».proof.Proof.KernelIdealPosts
import proofs.«120729_j19585050870000_1_alg».proof.Proof.LossSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.ReferenceIdeal.Hand (instW poolUp lossOf thrOf allwOf)

/-! ## The two pointwise outputs (at any float family) -/

/-- A scalar constant broadcast over the array reads that constant at every entry, so the entrywise form is the
    reference's expression. -/
theorem thrArr_eq (g d : FVec F S8x1x768x1024 .f32) : thrArr g d = thrOf (F := F) g d := by
  funext i; rfl

theorem allwArr_eq (g w d u : FVec F S8x1x768x1024 .f32) : allwArr g w d u = allwOf (F := F) g d u w := by
  funext i; rfl

/-! ## The loss, over the extended reals -/

section AtIdeal

variable (mI : (ℓ : Loc nD τ sig) → Buf (Elt Ideal) ℓ)

theorem N16 : cfg0.N = 16 := N_0

/-- The accumulated block sums, reshaped to a scalar and divided by 3072, are the reference's loss of the entry arrays. -/
theorem loss_eq (c : Dev nD) :
    Host.divf (F := Ideal) (shapeCast S_ ((dats mI 0 c).arrAt 7 cfg0.N) shapeCasts_S1x1x1x1_S_) (constant (F := Ideal) S_ .f32 0x45400000#32)
      = lossOf (F := Ideal) (pA mI c) (gtA mI c) (iwA mI c) := by
  unfold lossOf
  refine congrArg (fun z => Host.divf (F := Ideal) z (constant (F := Ideal) S_ .f32 0x45400000#32)) ?_
  funext j
  rw [final7, LossSum.ref_sum]
  show accAt mI c 15 _ (Shape.reshapeEquiv shapeCasts_S1x1x1x1_S_ j) = _
  exact LossSum.total (gtA mI c) (iwA mI c) (pA mI c)
    (fun t => gtB mI c ⟨t.val, lt_of_lt_of_eq t.isLt N16.symm⟩) (fun t => iwB mI c ⟨t.val, lt_of_lt_of_eq t.isLt N16.symm⟩)
    (fun t => pB mI c ⟨t.val, lt_of_lt_of_eq t.isLt N16.symm⟩)
    (fun t y => blk_gt mI c ⟨t.val, lt_of_lt_of_eq t.isLt N16.symm⟩ y) (fun t y => blk_iw mI c ⟨t.val, lt_of_lt_of_eq t.isLt N16.symm⟩ y)
    (fun t y => blk_p mI c ⟨t.val, lt_of_lt_of_eq t.isLt N16.symm⟩ y)
    (fun n hn => accAt mI c n (lt_of_lt_of_eq hn N16.symm))
    (acc_zero mI c _) (fun n hn => acc_succ mI c n _) _

/-- The run of the idealized kernel's program, every result in the reference's terms. -/
theorem run_final (ρ : Dev nD → PrngReg) :
    θ_run defs (onTc (τ := τ) (main (F := Ideal))) ⟨mI, fun _ => 0, ρ⟩ (fun r => ∀ c : Dev nD,
      r.2.mem ((c.tc : Thread nD τ).loc main_v56) = lossOf (F := Ideal) (mI ((c.tc : Thread nD τ).loc main_arg0)) (mI ((c.tc : Thread nD τ).loc main_arg1)) (instW (F := Ideal) (mI ((c.tc : Thread nD τ).loc main_arg2)) (mI ((c.tc : Thread nD τ).loc main_arg3)))
      ∧ r.2.mem ((c.tc : Thread nD τ).loc main_v47) = poolUp (F := Ideal) (mI ((c.tc : Thread nD τ).loc main_arg1))
      ∧ r.2.mem ((c.tc : Thread nD τ).loc main_v54_0) = thrOf (F := Ideal) (mI ((c.tc : Thread nD τ).loc main_arg1)) (poolUp (F := Ideal) (mI ((c.tc : Thread nD τ).loc main_arg1)))
      ∧ r.2.mem ((c.tc : Thread nD τ).loc main_v54_1) = allwOf (F := Ideal) (mI ((c.tc : Thread nD τ).loc main_arg1)) (poolUp (F := Ideal) (mI ((c.tc : Thread nD τ).loc main_arg1))) (poolUp (F := Ideal) (instW (F := Ideal) (mI ((c.tc : Thread nD τ).loc main_arg2)) (mI ((c.tc : Thread nD τ).loc main_arg3)))) (instW (F := Ideal) (mI ((c.tc : Thread nD τ).loc main_arg2)) (mI ((c.tc : Thread nD τ).loc main_arg3)))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)) := by
  refine (θ_run defs _ _).mono (fun r h c => ?_) (run_named mI ρ)
  obtain ⟨h56, h47, h5, h6, ha0, ha1, ha2, ha3⟩ := h c
  have eg : gtA mI c = mI ((c.tc : Thread nD τ).loc main_arg1) := V_main_arg1 mI c
  have ep : pA mI c = mI ((c.tc : Thread nD τ).loc main_arg0) := V_main_arg0 mI c
  have ew : iwA mI c = instW (F := Ideal) (mI ((c.tc : Thread nD τ).loc main_arg2)) (mI ((c.tc : Thread nD τ).loc main_arg3)) := V_iw mI c
  have ed : dilA mI c = poolUp (F := Ideal) (mI ((c.tc : Thread nD τ).loc main_arg1)) := V_dil mI c
  have eu : wdA mI c = poolUp (F := Ideal) (instW (F := Ideal) (mI ((c.tc : Thread nD τ).loc main_arg2)) (mI ((c.tc : Thread nD τ).loc main_arg3))) := V_wd mI c
  refine ⟨?_, h47.trans (V_dil mI c), ?_, ?_, ha0, ha1, ha2, ha3⟩
  · rw [h56, tail_loss, loss_eq, ep, eg, ew]
  · rw [h5, final5, thrArr_eq, eg, ed]
  · rw [h6, final6, allwArr_eq, eg, ew, ed, eu]

end AtIdeal

end Cert.KernelIdeal.Fr

end
-- ==== Proof.RefRun.lean ====
/-
  The reference program's run: @main as the list of its 85 host operations (60 in its first window,
  25 in its second), and what every weakly fair execution leaves in the four result buffers, stated
  through the shared stages of RefStages.
-/
import proofs.«120729_j19585050870000_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 65536 in
/-- the 60 operations of @main's first window, in order -/
abbrev ops0 : List (HloOp τ sig (Elt F)) :=
  [ nullary main_cst (fun i => FloatOps.ofBits .f32 (lit0 (S15x11.rowMajor i))),
    unary main_arg2 main_v0 (broadcastInDim S8x384x1x1 ![0, 1] bcast_S8x384_S8x384x1x1_0_1 : (⟨S8x384, .i32⟩ : BufTy).Contents (Elt F) → (⟨S8x384x1x1, .i32⟩ : BufTy).Contents (Elt F)),
    nullary main_v1 (iotaInDim S15 32 0),
    unary main_v1 main_v2 (broadcastInDim S1x1x15x1 ![2] bcast_S15_S1x1x15x1_2 : (⟨S15, .i32⟩ : BufTy).Contents (Elt F) → (⟨S1x1x15x1, .i32⟩ : BufTy).Contents (Elt F)),
    unary main_v0 main_v3 (broadcastInDim S8x384x15x1 ![0, 1, 2, 3] bcast_S8x384x1x1_S8x384x15x1_0_1_2_3 : (⟨S8x384x1x1, .i32⟩ : BufTy).Contents (Elt F) → (⟨S8x384x15x1, .i32⟩ : BufTy).Contents (Elt F)),
    unary main_v2 main_v4 (broadcastInDim S8x384x15x1 ![0, 1, 2, 3] bcast_S1x1x15x1_S8x384x15x1_0_1_2_3 : (⟨S1x1x15x1, .i32⟩ : BufTy).Contents (Elt F) → (⟨S8x384x15x1, .i32⟩ : BufTy).Contents (Elt F)),
    binary main_v3 main_v4 main_v5 (addi : (⟨S8x384x15x1, .i32⟩ : BufTy).Contents (Elt F) → (⟨S8x384x15x1, .i32⟩ : BufTy).Contents (Elt F) → (⟨S8x384x15x1, .i32⟩ : BufTy).Contents (Elt F)),
    unary main_arg3 main_v6 (broadcastInDim S8x384x1x1 ![0, 1] bcast_S8x384_S8x384x1x1_0_1 : (⟨S8x384, .i32⟩ : BufTy).Contents (Elt F) → (⟨S8x384x1x1, .i32⟩ : BufTy).Contents (Elt F)),
    nullary main_v7 (iotaInDim S11 32 0),
    unary main_v7 main_v8 (broadcastInDim S1x1x1x11 ![3] bcast_S11_S1x1x1x11_3 : (⟨S11, .i32⟩ : BufTy).Contents (Elt F) → (⟨S1x1x1x11, .i32⟩ : BufTy).Contents (Elt F)),
    unary main_v6 main_v9 (broadcastInDim S8x384x1x11 ![0, 1, 2, 3] bcast_S8x384x1x1_S8x384x1x11_0_1_2_3 : (⟨S8x384x1x1, .i32⟩ : BufTy).Contents (Elt F) → (⟨S8x384x1x11, .i32⟩ : BufTy).Contents (Elt F)),
    unary main_v8 main_v10 (broadcastInDim S8x384x1x11 ![0, 1, 2, 3] bcast_S1x1x1x11_S8x384x1x11_0_1_2_3 : (⟨S1x1x1x11, .i32⟩ : BufTy).Contents (Elt F) → (⟨S8x384x1x11, .i32⟩ : BufTy).Contents (Elt F)),
    binary main_v9 main_v10 main_v11 (addi : (⟨S8x384x1x11, .i32⟩ : BufTy).Contents (Elt F) → (⟨S8x384x1x11, .i32⟩ : BufTy).Contents (Elt F) → (⟨S8x384x1x11, .i32⟩ : BufTy).Contents (Elt F)),
    nullary main_v12 (iotaInDim S8 32 0),
    unary main_v12 main_v13 (broadcastInDim S8x1x1x1 ![0] bcast_S8_S8x1x1x1_0 : (⟨S8, .i32⟩ : BufTy).Contents (Elt F) → (⟨S8x1x1x1, .i32⟩ : BufTy).Contents (Elt F)),
    nullary main_cst_0 (constant S_ .f32 0x00000000#32),
    unary main_cst_0 main_v14 (broadcastInDim S8x1x768x1024 ![] bcast_S_S8x1x768x1024 : (⟨S_, .f32⟩ : BufTy).Contents (Elt F) → (⟨S8x1x768x1024, .f32⟩ : BufTy).Contents (Elt F)),
    nullary main_c (constantI S_ 32 0#32),
    unary main_c main_v15 (broadcastInDim S8x1x1x1 ![] bcast_S_S8x1x1x1 : (⟨S_, .i32⟩ : BufTy).Contents (Elt F) → (⟨S8x1x1x1, .i32⟩ : BufTy).Contents (Elt F)),
    binary main_v13 main_v15 main_v16 (cmpi .slt : (⟨S8x1x1x1, .i32⟩ : BufTy).Contents (Elt F) → (⟨S8x1x1x1, .i32⟩ : BufTy).Contents (Elt F) → (⟨S8x1x1x1, .i1⟩ : BufTy).Contents (Elt F)),
    nullary main_c_1 (constantI S_ 32 8#32),
    unary main_c_1 main_v17 (broadcastInDim S8x1x1x1 ![] bcast_S_S8x1x1x1 : (⟨S_, .i32⟩ : BufTy).Contents (Elt F) → (⟨S8x1x1x1, .i32⟩ : BufTy).Contents (Elt F)),
    binary main_v13 main_v17 main_v18 (addi : (⟨S8x1x1x1, .i32⟩ : BufTy).Contents (Elt F) → (⟨S8x1x1x1, .i32⟩ : BufTy).Contents (Elt F) → (⟨S8x1x1x1, .i32⟩ : BufTy).Contents (Elt F)),
    ternary main_v16 main_v18 main_v13 main_v19 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_2 (constantI S_ 32 0#32),
    unary main_c_2 main_v20 (broadcastInDim S8x384x15x1 ![] bcast_S_S8x384x15x1 : (⟨S_, .i32⟩ : BufTy).Contents (Elt F) → (⟨S8x384x15x1, .i32⟩ : BufTy).Contents (Elt F)),
    binary main_v5 main_v20 main_v21 (cmpi .slt : (⟨S8x384x15x1, .i32⟩ : BufTy).Contents (Elt F) → (⟨S8x384x15x1, .i32⟩ : BufTy).Contents (Elt F) → (⟨S8x384x15x1, .i1⟩ : BufTy).Contents (Elt F)),
    nullary main_c_3 (constantI S_ 32 768#32),
    unary main_c_3 main_v22 (broadcastInDim S8x384x15x1 ![] bcast_S_S8x384x15x1 : (⟨S_, .i32⟩ : BufTy).Contents (Elt F) → (⟨S8x384x15x1, .i32⟩ : BufTy).Contents (Elt F)),
    binary main_v5 main_v22 main_v23 (addi : (⟨S8x384x15x1, .i32⟩ : BufTy).Contents (Elt F) → (⟨S8x384x15x1, .i32⟩ : BufTy).Contents (Elt F) → (⟨S8x384x15x1, .i32⟩ : BufTy).Contents (Elt F)),
    ternary main_v21 main_v23 main_v5 main_v24 (select : (⟨S8x384x15x1, .i1⟩ : BufTy).Contents (Elt F) → (⟨S8x384x15x1, .i32⟩ : BufTy).Contents (Elt F) → (⟨S8x384x15x1, .i32⟩ : BufTy).Contents (Elt F) → (⟨S8x384x15x1, .i32⟩ : BufTy).Contents (Elt F)),
    nullary main_c_4 (constantI S_ 32 0#32),
    unary main_c_4 main_v25 (broadcastInDim S8x384x1x11 ![] bcast_S_S8x384x1x11 : (⟨S_, .i32⟩ : BufTy).Contents (Elt F) → (⟨S8x384x1x11, .i32⟩ : BufTy).Contents (Elt F)),
    binary main_v11 main_v25 main_v26 (cmpi .slt : (⟨S8x384x1x11, .i32⟩ : BufTy).Contents (Elt F) → (⟨S8x384x1x11, .i32⟩ : BufTy).Contents (Elt F) → (⟨S8x384x1x11, .i1⟩ : BufTy).Contents (Elt F)),
    nullary main_c_5 (constantI S_ 32 1024#32),
    unary main_c_5 main_v27 (broadcastInDim S8x384x1x11 ![] bcast_S_S8x384x1x11 : (⟨S_, .i32⟩ : BufTy).Contents (Elt F) → (⟨S8x384x1x11, .i32⟩ : BufTy).Contents (Elt F)),
    binary main_v11 main_v27 main_v28 (addi : (⟨S8x384x1x11, .i32⟩ : BufTy).Contents (Elt F) → (⟨S8x384x1x11, .i32⟩ : BufTy).Contents (Elt F) → (⟨S8x384x1x11, .i32⟩ : BufTy).Contents (Elt F)),
    ternary main_v26 main_v28 main_v11 main_v29 (select : (⟨S8x384x1x11, .i1⟩ : BufTy).Contents (Elt F) → (⟨S8x384x1x11, .i32⟩ : BufTy).Contents (Elt F) → (⟨S8x384x1x11, .i32⟩ : BufTy).Contents (Elt F) → (⟨S8x384x1x11, .i32⟩ : BufTy).Contents (Elt F)),
    unary main_v19 main_v30 (broadcastInDim S8x384x15x11 ![0, 1, 2, 3] bcast_S8x1x1x1_S8x384x15x11_0_1_2_3 : (⟨S8x1x1x1, .i32⟩ : BufTy).Contents (Elt F) → (⟨S8x384x15x11, .i32⟩ : BufTy).Contents (Elt F)),
    nullary main_c_6 (constantI S_ 32 0#32),
    unary main_c_6 main_v31 (broadcastInDim S8x384x15x11 ![] bcast_S_S8x384x15x11 : (⟨S_, .i32⟩ : BufTy).Contents (Elt F) → (⟨S8x384x15x11, .i32⟩ : BufTy).Contents (Elt F)),
    unary main_v24 main_v32 (broadcastInDim S8x384x15x11 ![0, 1, 2, 3] bcast_S8x384x15x1_S8x384x15x11_0_1_2_3 : (⟨S8x384x15x1, .i32⟩ : BufTy).Contents (Elt F) → (⟨S8x384x15x11, .i32⟩ : BufTy).Contents (Elt F)),
    unary main_v29 main_v33 (broadcastInDim S8x384x15x11 ![0, 1, 2, 3] bcast_S8x384x1x11_S8x384x15x11_0_1_2_3 : (⟨S8x384x1x11, .i32⟩ : BufTy).Contents (Elt F) → (⟨S8x384x15x11, .i32⟩ : BufTy).Contents (Elt F)),
    unary main_v31 main_v34 (id : (⟨S8x384x15x11, .i32⟩ : BufTy).Contents (Elt F) → (⟨S8x384x15x11, .i32⟩ : BufTy).Contents (Elt F)),
    unary main_v30 main_v35 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    unary main_v34 main_v36 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    unary main_v32 main_v37 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    unary main_v33 main_v38 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    nary ![main_v35, main_v36, main_v37, main_v38] main_v39 (fun u => concatenate S8x384x15x11x4 4 [⟨S8x384x15x11x1, u 0⟩, ⟨S8x384x15x11x1, u 1⟩, ⟨S8x384x15x11x1, u 2⟩, ⟨S8x384x15x11x1, u 3⟩] concatenates_S8x384x15x11x1_S8x384x15x11x1_S8x384x15x11x1_S8x384x15x11x1_S8x384x15x11x4_d4),
    unary main_cst main_v40 (broadcastInDim S8x384x15x11 ![2, 3] bcast_S15x11_S8x384x15x11_2_3 : (⟨S15x11, .f32⟩ : BufTy).Contents (Elt F) → (⟨S8x384x15x11, .f32⟩ : BufTy).Contents (Elt F)),
    ternary main_v14 main_v39 main_v40 main_v41 ((fun x i u => Host.scatter scatter_S8x1x768x1024_S8x384x15x11x4_S8x384x15x11_n_0123_0123_4 (fun _ b => b) x i u) : (⟨S8x1x768x1024, .f32⟩ : BufTy).Contents (Elt F) → (⟨S8x384x15x11x4, .i32⟩ : BufTy).Contents (Elt F) → (⟨S8x384x15x11, .f32⟩ : BufTy).Contents (Elt F) → (⟨S8x1x768x1024, .f32⟩ : BufTy).Contents (Elt F)),
    nullary main_cst_7 (constant S_ .f32 0xFF800000#32),
    unary main_cst_7 main_v42 (broadcastInDim S_ ![] bcast_S_S_ : (⟨S_, .f32⟩ : BufTy).Contents (Elt F) → (⟨S_, .f32⟩ : BufTy).Contents (Elt F)),
    binary main_arg1 main_v42 main_v43 ((fun x v => Host.reduceWindow FloatOps.maximumf ![1, 1, 9, 9] ![1, 1, 2, 2] ![0, 0, 4, 4] ![0, 0, 4, 4] x v reduceWindows_S8x1x768x1024_S8x1x384x512_w1s1p0_0_w1s1p0_0_w9s2p4_4_w9s2p4_4 h_S_) : (⟨S8x1x768x1024, .f32⟩ : BufTy).Contents (Elt F) → (⟨S_, .f32⟩ : BufTy).Contents (Elt F) → (⟨S8x1x384x512, .f32⟩ : BufTy).Contents (Elt F)),
    unary main_v43 main_v44 (broadcastInDim S8x1x384x2x512 ![0, 1, 2, 4] bcast_S8x1x384x512_S8x1x384x2x512_0_1_2_4 : (⟨S8x1x384x512, .f32⟩ : BufTy).Contents (Elt F) → (⟨S8x1x384x2x512, .f32⟩ : BufTy).Contents (Elt F)),
    reshape main_v44 main_v45 rfl shapeCasts_S8x1x384x2x512_S8x1x768x512,
    unary main_v45 main_v46 (broadcastInDim S8x1x768x512x2 ![0, 1, 2, 3] bcast_S8x1x768x512_S8x1x768x512x2_0_1_2_3 : (⟨S8x1x768x512, .f32⟩ : BufTy).Contents (Elt F) → (⟨S8x1x768x512x2, .f32⟩ : BufTy).Contents (Elt F)),
    reshape main_v46 main_v47 rfl shapeCasts_S8x1x768x512x2_S8x1x768x1024,
    binary main_v47 main_arg1 main_v48 (subf : (⟨S8x1x768x1024, .f32⟩ : BufTy).Contents (Elt F) → (⟨S8x1x768x1024, .f32⟩ : BufTy).Contents (Elt F) → (⟨S8x1x768x1024, .f32⟩ : BufTy).Contents (Elt F)),
    nullary main_cst_8 (constant S_ .f32 0xFF800000#32) ]

set_option maxHeartbeats 4000000 in
set_option maxRecDepth 65536 in
/-- the 25 operations of @main's second window, in order -/
abbrev ops1 : List (HloOp τ sig (Elt F)) :=
  [ unary main_cst_8 main_v49 (broadcastInDim S_ ![] bcast_S_S_ : (⟨S_, .f32⟩ : BufTy).Contents (Elt F) → (⟨S_, .f32⟩ : BufTy).Contents (Elt F)),
    binary main_v41 main_v49 main_v50 ((fun x v => Host.reduceWindow FloatOps.maximumf ![1, 1, 9, 9] ![1, 1, 2, 2] ![0, 0, 4, 4] ![0, 0, 4, 4] x v reduceWindows_S8x1x768x1024_S8x1x384x512_w1s1p0_0_w1s1p0_0_w9s2p4_4_w9s2p4_4 h_S_) : (⟨S8x1x768x1024, .f32⟩ : BufTy).Contents (Elt F) → (⟨S_, .f32⟩ : BufTy).Contents (Elt F) → (⟨S8x1x384x512, .f32⟩ : BufTy).Contents (Elt F)),
    unary main_v50 main_v51 (broadcastInDim S8x1x384x2x512 ![0, 1, 2, 4] bcast_S8x1x384x512_S8x1x384x2x512_0_1_2_4 : (⟨S8x1x384x512, .f32⟩ : BufTy).Contents (Elt F) → (⟨S8x1x384x2x512, .f32⟩ : BufTy).Contents (Elt F)),
    reshape main_v51 main_v52 rfl shapeCasts_S8x1x384x2x512_S8x1x768x512,
    unary main_v52 main_v53 (broadcastInDim S8x1x768x512x2 ![0, 1, 2, 3] bcast_S8x1x768x512_S8x1x768x512x2_0_1_2_3 : (⟨S8x1x768x512, .f32⟩ : BufTy).Contents (Elt F) → (⟨S8x1x768x512x2, .f32⟩ : BufTy).Contents (Elt F)),
    reshape main_v53 main_v54 rfl shapeCasts_S8x1x768x512x2_S8x1x768x1024,
    binary main_v54 main_v48 main_v55 (mulf : (⟨S8x1x768x1024, .f32⟩ : BufTy).Contents (Elt F) → (⟨S8x1x768x1024, .f32⟩ : BufTy).Contents (Elt F) → (⟨S8x1x768x1024, .f32⟩ : BufTy).Contents (Elt F)),
    nullary main_cst_9 (constant S_ .f32 0x3F333333#32),
    unary main_cst_9 main_v56 (broadcastInDim S8x1x768x1024 ![] bcast_S_S8x1x768x1024 : (⟨S_, .f32⟩ : BufTy).Contents (Elt F) → (⟨S8x1x768x1024, .f32⟩ : BufTy).Contents (Elt F)),
    binary main_v48 main_v56 main_v57 (mulf : (⟨S8x1x768x1024, .f32⟩ : BufTy).Contents (Elt F) → (⟨S8x1x768x1024, .f32⟩ : BufTy).Contents (Elt F) → (⟨S8x1x768x1024, .f32⟩ : BufTy).Contents (Elt F)),
    nullary main_cst_10 (constant S_ .f32 0x3E4CCCCD#32),
    unary main_cst_10 main_v58 (broadcastInDim S8x1x768x1024 ![] bcast_S_S8x1x768x1024 : (⟨S_, .f32⟩ : BufTy).Contents (Elt F) → (⟨S8x1x768x1024, .f32⟩ : BufTy).Contents (Elt F)),
    binary main_arg1 main_v58 main_v59 (mulf : (⟨S8x1x768x1024, .f32⟩ : BufTy).Contents (Elt F) → (⟨S8x1x768x1024, .f32⟩ : BufTy).Contents (Elt F) → (⟨S8x1x768x1024, .f32⟩ : BufTy).Contents (Elt F)),
    binary main_v57 main_v59 main_v60 (addf : (⟨S8x1x768x1024, .f32⟩ : BufTy).Contents (Elt F) → (⟨S8x1x768x1024, .f32⟩ : BufTy).Contents (Elt F) → (⟨S8x1x768x1024, .f32⟩ : BufTy).Contents (Elt F)),
    binary main_v55 main_v41 main_v61 (addf : (⟨S8x1x768x1024, .f32⟩ : BufTy).Contents (Elt F) → (⟨S8x1x768x1024, .f32⟩ : BufTy).Contents (Elt F) → (⟨S8x1x768x1024, .f32⟩ : BufTy).Contents (Elt F)),
    binary main_arg0 main_arg1 main_v62 (subf : (⟨S8x1x768x1024, .f32⟩ : BufTy).Contents (Elt F) → (⟨S8x1x768x1024, .f32⟩ : BufTy).Contents (Elt F) → (⟨S8x1x768x1024, .f32⟩ : BufTy).Contents (Elt F)),
    binary main_v41 main_v62 main_v63 (mulf : (⟨S8x1x768x1024, .f32⟩ : BufTy).Contents (Elt F) → (⟨S8x1x768x1024, .f32⟩ : BufTy).Contents (Elt F) → (⟨S8x1x768x1024, .f32⟩ : BufTy).Contents (Elt F)),
    unary main_v63 main_v64 (Host.absf : (⟨S8x1x768x1024, .f32⟩ : BufTy).Contents (Elt F) → (⟨S8x1x768x1024, .f32⟩ : BufTy).Contents (Elt F)),
    nullary main_cst_11 (constant S_ .f32 0x00000000#32),
    binary main_v64 main_cst_11 main_v65 ((fun x v => Host.reduceAdd x v reducesTo_S8x1x768x1024_S_d0_1_2_3 h_S_) : (⟨S8x1x768x1024, .f32⟩ : BufTy).Contents (Elt F) → (⟨S_, .f32⟩ : BufTy).Contents (Elt F) → (⟨S_, .f32⟩ : BufTy).Contents (Elt F)),
    nullary main_cst_12 (constant S_ .f32 0x45400000#32),
    binary main_v65 main_cst_12 main_v66 (Host.divf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    unary main_cst_13 main_v67 (broadcastInDim S8x1x768x1024 ![] bcast_S_S8x1x768x1024 : (⟨S_, .f32⟩ : BufTy).Contents (Elt F) → (⟨S8x1x768x1024, .f32⟩ : BufTy).Contents (Elt F)),
    binary main_v61 main_v67 main_v68 (addf : (⟨S8x1x768x1024, .f32⟩ : BufTy).Contents (Elt F) → (⟨S8x1x768x1024, .f32⟩ : BufTy).Contents (Elt F) → (⟨S8x1x768x1024, .f32⟩ : BufTy).Contents (Elt F)) ]

set_option maxHeartbeats 4000000 in
set_option maxRecDepth 65536 in
theorem main_part0_eq (c : Dev nD) : main_part0 (F := F) c = seq ops0 := rfl

set_option maxHeartbeats 4000000 in
set_option maxRecDepth 65536 in
theorem main_part1_eq (c : Dev nD) : main_part1 (F := F) c = seq ops1 := rfl

theorem main_eq (c : Dev nD) : main (F := F) c = seq (ops0 ++ ops1) := by
  show (main_part0 c >>= fun _ => main_part1 c) = _
  rw [main_part0_eq, main_part1_eq, seq_append]

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., unary_bufs_sub .., unary_bufs_sub .., nary_bufs_sub .., unary_bufs_sub .., ternary_bufs_sub .., nullary_bufs_sub .., unary_bufs_sub .., binary_bufs_sub .., unary_bufs_sub .., reshape_bufs_sub .., unary_bufs_sub .., reshape_bufs_sub .., binary_bufs_sub .., nullary_bufs_sub ..⟩

set_option maxHeartbeats 4000000 in
theorem ops1_sub : (ops1 : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub ..⟩

theorem ops_sub : (ops0 ++ ops1 : List (HloOp τ sig (Elt F))).Forall fun op => op.bufs ⊆ tcRefs τ sig :=
  List.forall_append.mpr ⟨ops0_sub, ops1_sub⟩

/-- running one list after another is running their concatenation -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### The first window, from any contents -/

set_option maxHeartbeats 4000000 in
set_option maxRecDepth 65536 in
theorem ops0_arg0 (V : Valuation τ sig (Elt F)) :
    after ops0 V (Proc.devRef .tc main_arg0) = V (Proc.devRef .tc main_arg0) := by
  after_results_simp

set_option maxHeartbeats 4000000 in
set_option maxRecDepth 65536 in
theorem ops0_arg1 (V : Valuation τ sig (Elt F)) :
    after ops0 V (Proc.devRef .tc main_arg1) = V (Proc.devRef .tc main_arg1) := by
  after_results_simp

set_option maxHeartbeats 4000000 in
set_option maxRecDepth 65536 in
theorem ops0_arg2 (V : Valuation τ sig (Elt F)) :
    after ops0 V (Proc.devRef .tc main_arg2) = V (Proc.devRef .tc main_arg2) := by
  after_results_simp

set_option maxHeartbeats 4000000 in
set_option maxRecDepth 65536 in
theorem ops0_arg3 (V : Valuation τ sig (Elt F)) :
    after ops0 V (Proc.devRef .tc main_arg3) = V (Proc.devRef .tc main_arg3) := by
  after_results_simp

set_option maxHeartbeats 4000000 in
set_option maxRecDepth 65536 in
theorem ops0_v41 (V : Valuation τ sig (Elt F)) :
    after ops0 V (Proc.devRef .tc main_v41) = instW (V (Proc.devRef .tc main_arg2)) (V (Proc.devRef .tc main_arg3)) := by
  after_results_simp
  rfl

set_option maxHeartbeats 4000000 in
set_option maxRecDepth 65536 in
theorem ops0_v47 (V : Valuation τ sig (Elt F)) :
    after ops0 V (Proc.devRef .tc main_v47) = poolUp (V (Proc.devRef .tc main_arg1)) := by
  after_results_simp
  rfl

set_option maxHeartbeats 4000000 in
set_option maxRecDepth 65536 in
theorem ops0_v48 (V : Valuation τ sig (Elt F)) :
    after ops0 V (Proc.devRef .tc main_v48) = subf (poolUp (V (Proc.devRef .tc main_arg1))) (V (Proc.devRef .tc main_arg1)) := by
  after_results_simp
  rfl

set_option maxHeartbeats 4000000 in
set_option maxRecDepth 65536 in
theorem ops0_cst_8 (V : Valuation τ sig (Elt F)) :
    after ops0 V (Proc.devRef .tc main_cst_8) = constant S_ .f32 0xFF800000#32 := by
  after_results_simp

/-! ### The second window, from any contents -/

set_option maxHeartbeats 4000000 in
set_option maxRecDepth 65536 in
theorem ops1_arg0 (W : Valuation τ sig (Elt F)) :
    after ops1 W (Proc.devRef .tc main_arg0) = W (Proc.devRef .tc main_arg0) := by
  after_results_simp

set_option maxHeartbeats 4000000 in
set_option maxRecDepth 65536 in
theorem ops1_arg1 (W : Valuation τ sig (Elt F)) :
    after ops1 W (Proc.devRef .tc main_arg1) = W (Proc.devRef .tc main_arg1) := by
  after_results_simp

set_option maxHeartbeats 4000000 in
set_option maxRecDepth 65536 in
theorem ops1_arg2 (W : Valuation τ sig (Elt F)) :
    after ops1 W (Proc.devRef .tc main_arg2) = W (Proc.devRef .tc main_arg2) := by
  after_results_simp

set_option maxHeartbeats 4000000 in
set_option maxRecDepth 65536 in
theorem ops1_arg3 (W : Valuation τ sig (Elt F)) :
    after ops1 W (Proc.devRef .tc main_arg3) = W (Proc.devRef .tc main_arg3) := by
  after_results_simp

set_option maxHeartbeats 4000000 in
set_option maxRecDepth 65536 in
theorem ops1_v47 (W : Valuation τ sig (Elt F)) :
    after ops1 W (Proc.devRef .tc main_v47) = W (Proc.devRef .tc main_v47) := by
  after_results_simp

set_option maxHeartbeats 4000000 in
set_option maxRecDepth 65536 in
theorem ops1_v66 (W : Valuation τ sig (Elt F)) :
    after ops1 W (Proc.devRef .tc main_v66) = lossOf (W (Proc.devRef .tc main_arg0)) (W (Proc.devRef .tc main_arg1)) (W (Proc.devRef .tc main_v41)) := by
  after_results_simp
  rfl

set_option maxHeartbeats 4000000 in
set_option maxRecDepth 65536 in
theorem ops1_v60 (W : Valuation τ sig (Elt F)) :
    after ops1 W (Proc.devRef .tc main_v60)
      = addf (mulf (W (Proc.devRef .tc main_v48)) (broadcastInDim S8x1x768x1024 ![] bcast_S_S8x1x768x1024 (constant S_ .f32 0x3F333333#32))) (mulf (W (Proc.devRef .tc main_arg1)) (broadcastInDim S8x1x768x1024 ![] bcast_S_S8x1x768x1024 (constant S_ .f32 0x3E4CCCCD#32))) := by
  after_results_simp

set_option maxHeartbeats 4000000 in
set_option maxRecDepth 65536 in
theorem ops1_v68 (W : Valuation τ sig (Elt F))
    (hc : W (Proc.devRef .tc main_cst_8) = constant S_ .f32 0xFF800000#32) :
    after ops1 W (Proc.devRef .tc main_v68)
      = addf (addf (mulf (poolUp (W (Proc.devRef .tc main_v41))) (W (Proc.devRef .tc main_v48))) (W (Proc.devRef .tc main_v41))) (broadcastInDim S8x1x768x1024 ![] bcast_S_S8x1x768x1024 (constant S_ .f32 0x3F800000#32)) := by
  after_results_simp
  rw [hc]
  rfl

/-! ### The whole of @main, from any contents -/

theorem res_v66 (V : Valuation τ sig (Elt F)) :
    after (ops0 ++ ops1) V (Proc.devRef .tc main_v66)
      = lossOf (V (Proc.devRef .tc main_arg0)) (V (Proc.devRef .tc main_arg1)) (instW (V (Proc.devRef .tc main_arg2)) (V (Proc.devRef .tc main_arg3))) := by
  rw [after_app, ops1_v66, ops0_arg0, ops0_arg1, ops0_v41]

theorem res_v47 (V : Valuation τ sig (Elt F)) :
    after (ops0 ++ ops1) V (Proc.devRef .tc main_v47) = poolUp (V (Proc.devRef .tc main_arg1)) := by
  rw [after_app, ops1_v47, ops0_v47]

theorem res_v60 (V : Valuation τ sig (Elt F)) :
    after (ops0 ++ ops1) V (Proc.devRef .tc main_v60) = thrOf (V (Proc.devRef .tc main_arg1)) (poolUp (V (Proc.devRef .tc main_arg1))) := by
  rw [after_app, ops1_v60, ops0_arg1, ops0_v48]
  rfl

theorem res_v68 (V : Valuation τ sig (Elt F)) :
    after (ops0 ++ ops1) V (Proc.devRef .tc main_v68)
      = allwOf (V (Proc.devRef .tc main_arg1)) (poolUp (V (Proc.devRef .tc main_arg1))) (poolUp (instW (V (Proc.devRef .tc main_arg2)) (V (Proc.devRef .tc main_arg3))))
          (instW (V (Proc.devRef .tc main_arg2)) (V (Proc.devRef .tc main_arg3))) := by
  rw [after_app, ops1_v68 _ (ops0_cst_8 V), ops0_v41, ops0_v48]
  rfl

theorem res_arg0 (V : Valuation τ sig (Elt F)) :
    after (ops0 ++ ops1) V (Proc.devRef .tc main_arg0) = V (Proc.devRef .tc main_arg0) := by
  rw [after_app, ops1_arg0, ops0_arg0]
theorem res_arg1 (V : Valuation τ sig (Elt F)) :
    after (ops0 ++ ops1) V (Proc.devRef .tc main_arg1) = V (Proc.devRef .tc main_arg1) := by
  rw [after_app, ops1_arg1, ops0_arg1]
theorem res_arg2 (V : Valuation τ sig (Elt F)) :
    after (ops0 ++ ops1) V (Proc.devRef .tc main_arg2) = V (Proc.devRef .tc main_arg2) := by
  rw [after_app, ops1_arg2, ops0_arg2]
theorem res_arg3 (V : Valuation τ sig (Elt F)) :
    after (ops0 ++ ops1) V (Proc.devRef .tc main_arg3) = V (Proc.devRef .tc main_arg3) := by
  rw [after_app, ops1_arg3, ops0_arg3]

set_option maxHeartbeats 4000000 in
set_option maxRecDepth 65536 in
/-- no operation of @main leaves a result undetermined -/
theorem ops_fresh : ∀ op ∈ (ops0 ++ ops1 : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

set_option maxHeartbeats 4000000 in
/-- On every device, for any float values, from any memory with zero counters: every weakly fair execution of
    @main terminates with the four results at the shared stages of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = lossOf (m ((c.tc : Thread nD τ).loc main_arg0)) (m ((c.tc : Thread nD τ).loc main_arg1)) (instW (m ((c.tc : Thread nD τ).loc main_arg2)) (m ((c.tc : Thread nD τ).loc main_arg3)))
      ∧ r.2.mem ((c.tc : Thread nD τ).loc main_v47) = poolUp (m ((c.tc : Thread nD τ).loc main_arg1))
      ∧ r.2.mem ((c.tc : Thread nD τ).loc main_v60) = thrOf (m ((c.tc : Thread nD τ).loc main_arg1)) (poolUp (m ((c.tc : Thread nD τ).loc main_arg1)))
      ∧ r.2.mem ((c.tc : Thread nD τ).loc main_v68) = allwOf (m ((c.tc : Thread nD τ).loc main_arg1)) (poolUp (m ((c.tc : Thread nD τ).loc main_arg1))) (poolUp (instW (m ((c.tc : Thread nD τ).loc main_arg2)) (m ((c.tc : Thread nD τ).loc main_arg3)))) (instW (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v66).trans (res_v66 _), (h c main_v47).trans (res_v47 _),
      (h c main_v60).trans (res_v60 _), (h c main_v68).trans (res_v68 _),
      (h c main_arg0).trans (res_arg0 _), (h c main_arg1).trans (res_arg1 _),
      (h c main_arg2).trans (res_arg2 _), (h c main_arg3).trans (res_arg3 _)⟩)
    (run_seq scopedRefs_eq scopedSems_eq defs main (fun _ => ops0 ++ ops1) main_eq (fun _ => ops_sub) m ρ (fun _ => ops_fresh))

end Cert.ReferenceIdeal.Hand

end
-- ==== Proof.lean ====
/-
  The certificate.  The kernel's program computes, on the host, the instance-weight image w (a 15×11 Gaussian table
  written at each box corner), the dilated mask d and the dilated weight u (9×9 stride-2 max-pooling followed by a 2×
  nearest upsampling), and then one fused region that, block by block over 16 blocks of 384 rows, stores the threshold
  (d − g)·c₁ + g·c₂ and the weight (u·(d − g) + w) + 1 and accumulates the sum of |w·(p − g)|; the reference computes the same
  three images by the same host operations, the same two pointwise expressions on whole arrays, and one sum over the whole
  array.  The two pointwise results agree entry by entry at any float family; the loss agrees over the extended reals
  because a sum over the array is the sum of the sums over the blocks that partition it (addition there is commutative
  and associative; no finiteness is used, so the precondition is never opened).  The three frames are the runs with the
  results forgotten; the idealization rewrote nothing.
-/
import proofs.«120729_j19585050870000_1_alg».proof.Defs
import proofs.«120729_j19585050870000_1_alg».proof.Proof.Gen.Kernel
import proofs.«120729_j19585050870000_1_alg».proof.Proof.Gen.KernelIdeal
import proofs.«120729_j19585050870000_1_alg».proof.Proof.Gen.ReferenceIdeal
import proofs.«120729_j19585050870000_1_alg».proof.Proof.Gen.Pre_finite_inputs
import proofs.«120729_j19585050870000_1_alg».proof.Proof.KernelPosts
import proofs.«120729_j19585050870000_1_alg».proof.Proof.KernelIdealFinal
import proofs.«120729_j19585050870000_1_alg».proof.Proof.RefRun
import Idealize.ShloMosaic.Adequacy
import Idealize.ShloMosaic.Init

noncomputable section

namespace Cert.Proof

open Idealize.ShloMosaic Idealize.SL.Sem

/-- The word-level kernel's program runs and leaves its four arguments unchanged. -/
theorem frame_kernel : Cert.frame_Kernel (hKernel := Cert.Kernel.Gen.facts) (hPre_finite_inputs := Cert.Pre_finite_inputs.Gen.facts) :=
  fun m ρ _ => Cert.Kernel.Fr.frame (F := Bits) m ρ

/-- So does the idealized kernel's program. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- And the reference: its run with the results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Hand.run (F := Ideal) m ρ)

/-- From memories that agree on the four arguments both programs end with the same four results: the kernel's run states
    them in the reference's stage functions of its own arguments, the reference's run in the same functions of its
    arguments, and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, _, Cert.KernelIdeal.Fr.run_final m ρ, ?_⟩
  refine (θ_run Cert.ReferenceIdeal.defs _ _).mono (fun _ h c => ?_) (Cert.ReferenceIdeal.Hand.run (F := Ideal) m' ρ')
  obtain ⟨h66, h47, h60, h68, ha0, ha1, ha2, ha3⟩ := h c
  obtain ⟨e0, e1, e2, e3⟩ := hagree c
  refine ⟨?_, ?_, ?_, ?_, ha0, ha1, ha2, ha3⟩
  · rw [h66, e0, e1, e2, e3]
  · rw [h47, e1]
  · rw [h60, e1]
  · rw [h68, e1, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
